-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S8192x8192 : Shape := ⟨2, ![8192, 8192]⟩
abbrev S10000x64 : Shape := ⟨2, ![10000, 64]⟩
abbrev S3x64x64 : Shape := ⟨3, ![3, 64, 64]⟩
abbrev S3x64 : Shape := ⟨2, ![3, 64]⟩
abbrev S2x64x64 : Shape := ⟨3, ![2, 64, 64]⟩
abbrev S2x64 : Shape := ⟨2, ![2, 64]⟩
abbrev S1x64 : Shape := ⟨2, ![1, 64]⟩
abbrev S1 : Shape := ⟨1, ![1]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S10000x64 : S_.BroadcastsInDim S10000x64 (![] : Fin 0 → Fin S10000x64.rank)
  reducesTo_S10000x64_S_d0_1 : S10000x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  bcast_S_S8192 : S_.BroadcastsInDim S8192 (![] : Fin 0 → Fin S8192.rank)
  reducesTo_S8192_S_d0 : S8192.ReducesTo [0] S_

variable [Facts]

def fn_part2 {F : FTy → Type} [FloatOps F] (main_arg0 : IVec S8192 32) (main_arg9 : FVec F S1 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_c_14 : IVec S_ 32 := constantI S_ 32 4294957296#32
  let main_v39 : IVec S8192 32 := broadcastInDim S8192 ![] bcast_S_S8192 main_c_14
  let main_v40 : IVec S8192 1 := cmpi .sge main_arg0 main_v39
  let main_c_15 : IVec S_ 32 := constantI S_ 32 10000#32
  let main_v41 : IVec S8192 32 := broadcastInDim S8192 ![] bcast_S_S8192 main_c_15
  let main_v42 : IVec S8192 1 := cmpi .slt main_arg0 main_v41
  let main_v43 : IVec S8192 1 := andi main_v40 main_v42
  let main_c_16 : IVec S_ 1 := constantI S_ 1 1#1
  let main_v44 : IVec S_ 1 := (fun x v => Host.reduce IntOp.andi x v reducesTo_S8192_S_d0 h_S_) main_v43 main_c_16
  let main_v45 : IVec S_ 1 := andi main_v38 main_v44
  main_v45

def fn_part1 {F : FTy → Type} [FloatOps F] (main_arg0 : IVec S8192 32) (main_arg6 : FVec F S2x64x64 .f32) (main_arg7 : FVec F S2x64 .f32) (main_arg8 : FVec F S1x64 .f32) (main_arg9 : FVec F S1 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S2x64x64 .f32 := Host.absf main_arg6
  let main_cst_6 : FVec F S_ .f32 := constant S_ .f32 0x7F800000#32
  let main_v20 : FVec F S2x64x64 .f32 := broadcastInDim S2x64x64 ![] bcast_S_S2x64x64 main_cst_6
  let main_v21 : IVec S2x64x64 1 := cmpf .olt main_v19 main_v20
  let main_c_7 : IVec S_ 1 := constantI S_ 1 1#1
  let main_v22 : IVec S_ 1 := (fun x v => Host.reduce IntOp.andi x v reducesTo_S2x64x64_S_d0_1_2 h_S_) main_v21 main_c_7
  let main_v23 : IVec S_ 1 := andi main_v18 main_v22
  let main_v24 : FVec F S2x64 .f32 := Host.absf main_arg7
  let main_cst_8 : FVec F S_ .f32 := constant S_ .f32 0x7F800000#32
  let main_v25 : FVec F S2x64 .f32 := broadcastInDim S2x64 ![] bcast_S_S2x64 main_cst_8
  let main_v26 : IVec S2x64 1 := cmpf .olt main_v24 main_v25
  let main_c_9 : IVec S_ 1 := constantI S_ 1 1#1
  let main_v27 : IVec S_ 1 := (fun x v => Host.reduce IntOp.andi x v reducesTo_S2x64_S_d0_1 h_S_) main_v26 main_c_9
  let main_v28 : IVec S_ 1 := andi main_v23 main_v27
  let main_v29 : FVec F S1x64 .f32 := Host.absf main_arg8
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  fn_part2 (F := F) main_arg0 main_arg9 main_v33

def fn {F : FTy → Type} [FloatOps F] (main_arg0 : IVec S8192 32) (main_arg1 : FVec F S8192x8192 .f32) (main_arg2 : IVec S8192 32) (main_arg3 : FVec F S10000x64 .f32) (main_arg4 : FVec F S3x64x64 .f32) (main_arg5 : FVec F S3x64 .f32) (main_arg6 : FVec F S2x64x64 .f32) (main_arg7 : FVec F S2x64 .f32) (main_arg8 : FVec F S1x64 .f32) (main_arg9 : FVec F S1 .f32) : IVec S_ 1 :=
  let main_v0 : FVec F S8192x8192 .f32 := Host.absf main_arg1
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S10000x64 .f32 := Host.absf main_arg3
  let main_cst_0 : FVec F S_ .f32 := constant S_ .f32 0x7F800000#32
  let main_v5 : FVec F S10000x64 .f32 := broadcastInDim S10000x64 ![] bcast_S_S10000x64 main_cst_0
  let main_v6 : IVec S10000x64 1 := cmpf .olt main_v4 main_v5
  let main_c_1 : IVec S_ 1 := constantI S_ 1 1#1
  let main_v7 : IVec S_ 1 := (fun x v => Host.reduce IntOp.andi x v reducesTo_S10000x64_S_d0_1 h_S_) main_v6 main_c_1
  let main_v8 : IVec S_ 1 := andi main_v3 main_v7
  let main_v9 : FVec F S3x64x64 .f32 := Host.absf main_arg4
  let main_cst_2 : FVec F S_ .f32 := constant S_ .f32 0x7F800000#32
  let main_v10 : FVec F S3x64x64 .f32 := broadcastInDim S3x64x64 ![] bcast_S_S3x64x64 main_cst_2
  let main_v11 : IVec S3x64x64 1 := cmpf .olt main_v9 main_v10
  let main_c_3 : IVec S_ 1 := constantI S_ 1 1#1
  let main_v12 : IVec S_ 1 := (fun x v => Host.reduce IntOp.andi x v reducesTo_S3x64x64_S_d0_1_2 h_S_) main_v11 main_c_3
  let main_v13 : IVec S_ 1 := andi main_v8 main_v12
  let main_v14 : FVec F S3x64 .f32 := Host.absf main_arg5
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg0 main_arg6 main_arg7 main_arg8 main_arg9 main_v13 main_v16
-- ==== Kernel.lean ====
abbrev S8192 : Shape := ⟨1, ![8192]⟩
abbrev S8192x8192 : Shape := ⟨2, ![8192, 8192]⟩
abbrev S10000x64 : Shape := ⟨2, ![10000, 64]⟩
abbrev S3x64x64 : Shape := ⟨3, ![3, 64, 64]⟩
abbrev S3x64 : Shape := ⟨2, ![3, 64]⟩
abbrev S2x64x64 : Shape := ⟨3, ![2, 64, 64]⟩
abbrev S2x64 : Shape := ⟨2, ![2, 64]⟩
abbrev S1x64 : Shape := ⟨2, ![1, 64]⟩
abbrev S1 : Shape := ⟨1, ![1]⟩
abbrev S_ : Shape := ⟨0, ![]⟩
abbrev S8192x1 : Shape := ⟨2, ![8192, 1]⟩
abbrev S1x1 : Shape := ⟨2, ![1, 1]⟩
abbrev S8192x64 : Shape := ⟨2, ![8192, 64]⟩
abbrev S1x64x64 : Shape := ⟨3, ![1, 64, 64]⟩
abbrev S64x64 : Shape := ⟨2, ![64, 64]⟩
abbrev S64 : Shape := ⟨1, ![64]⟩
abbrev S256x8192 : Shape := ⟨2, ![256, 8192]⟩
abbrev S256x64 : Shape := ⟨2, ![256, 64]⟩
abbrev S256 : Shape := ⟨1, ![256]⟩
abbrev S256x1 : Shape := ⟨2, ![256, 1]⟩
abbrev S64x1 : Shape := ⟨2, ![64, 1]⟩

abbrev nBuf : Space → Nat
  | .hbm => 105
  | .vmem => 15
  | .smem => 0
  | _ => 0

abbrev bufTy : (tb : Table) → Fin (tcTables nBuf tb) → BufTy
  | .hbm, ⟨0, _⟩ => ⟨S8192, .i32⟩
  | .hbm, ⟨1, _⟩ => ⟨S8192x8192, .f32⟩
  | .hbm, ⟨2, _⟩ => ⟨S8192, .i32⟩
  | .hbm, ⟨3, _⟩ => ⟨S10000x64, .f32⟩
  | .hbm, ⟨4, _⟩ => ⟨S3x64x64, .f32⟩
  | .hbm, ⟨5, _⟩ => ⟨S3x64, .f32⟩
  | .hbm, ⟨6, _⟩ => ⟨S2x64x64, .f32⟩
  | .hbm, ⟨7, _⟩ => ⟨S2x64, .f32⟩
  | .hbm, ⟨8, _⟩ => ⟨S1x64, .f32⟩
  | .hbm, ⟨9, _⟩ => ⟨S1, .f32⟩
  | .hbm, ⟨10, _⟩ => ⟨S_, .i32⟩
  | .hbm, ⟨11, _⟩ => ⟨S8192, .i32⟩
  | .hbm, ⟨12, _⟩ => ⟨S8192, .i1⟩
  | .hbm, ⟨13, _⟩ => ⟨S_, .i32⟩
  | .hbm, ⟨14, _⟩ => ⟨S8192, .i32⟩
  | .hbm, ⟨15, _⟩ => ⟨S8192, .i32⟩
  | .hbm, ⟨16, _⟩ => ⟨S8192, .i32⟩
  | .hbm, ⟨17, _⟩ => ⟨S8192x1, .i32⟩
  | .hbm, ⟨18, _⟩ => ⟨S1, .i32⟩
  | .hbm, ⟨19, _⟩ => ⟨S_, .i32⟩
  | .hbm, ⟨20, _⟩ => ⟨S8192x1, .i32⟩
  | .hbm, ⟨21, _⟩ => ⟨S8192x1, .i1⟩
  | .hbm, ⟨22, _⟩ => ⟨S1x1, .i32⟩
  | .hbm, ⟨23, _⟩ => ⟨S8192x1, .i32⟩
  | .hbm, ⟨24, _⟩ => ⟨S8192x1, .i1⟩
  | .hbm, ⟨25, _⟩ => ⟨S8192x1, .i1⟩
  | .hbm, ⟨26, _⟩ => ⟨S_, .i1⟩
  | .hbm, ⟨27, _⟩ => ⟨S8192, .i1⟩
  | .hbm, ⟨28, _⟩ => ⟨S8192x64, .f32⟩
  | .hbm, ⟨29, _⟩ => ⟨S8192x64, .i1⟩
  | .hbm, ⟨30, _⟩ => ⟨S_, .f32⟩
  | .hbm, ⟨31, _⟩ => ⟨S8192x64, .f32⟩
  | .hbm, ⟨32, _⟩ => ⟨S8192x64, .f32⟩
  | .hbm, ⟨33, _⟩ => ⟨S1x64x64, .f32⟩
  | .hbm, ⟨34, _⟩ => ⟨S64x64, .f32⟩
  | .hbm, ⟨35, _⟩ => ⟨S64x64, .f32⟩
  | .hbm, ⟨36, _⟩ => ⟨S8192x64, .f32⟩
  | .hbm, ⟨37, _⟩ => ⟨S1x64, .f32⟩
  | .hbm, ⟨38, _⟩ => ⟨S64, .f32⟩
  | .hbm, ⟨39, _⟩ => ⟨S1x64, .f32⟩
  | .hbm, ⟨40, _⟩ => ⟨S8192x64, .f32⟩
  | .hbm, ⟨41, _⟩ => ⟨S8192x64, .f32⟩
  | .hbm, ⟨42, _⟩ => ⟨S_, .f32⟩
  | .hbm, ⟨43, _⟩ => ⟨S8192x64, .f32⟩
  | .hbm, ⟨44, _⟩ => ⟨S8192x64, .f32⟩
  | .hbm, ⟨45, _⟩ => ⟨S8192x64, .f32⟩
  | .hbm, ⟨46, _⟩ => ⟨S1x64x64, .f32⟩
  | .hbm, ⟨47, _⟩ => ⟨S64x64, .f32⟩
  | .hbm, ⟨48, _⟩ => ⟨S64x64, .f32⟩
  | .hbm, ⟨49, _⟩ => ⟨S8192x64, .f32⟩
  | .hbm, ⟨50, _⟩ => ⟨S1x64, .f32⟩
  | .hbm, ⟨51, _⟩ => ⟨S64, .f32⟩
  | .hbm, ⟨52, _⟩ => ⟨S1x64, .f32⟩
  | .hbm, ⟨53, _⟩ => ⟨S8192x64, .f32⟩
  | .hbm, ⟨54, _⟩ => ⟨S8192x64, .f32⟩
  | .hbm, ⟨55, _⟩ => ⟨S_, .f32⟩
  | .hbm, ⟨56, _⟩ => ⟨S8192x64, .f32⟩
  | .hbm, ⟨57, _⟩ => ⟨S8192x64, .f32⟩
  | .hbm, ⟨58, _⟩ => ⟨S8192x64, .f32⟩
  | .hbm, ⟨59, _⟩ => ⟨S1x64x64, .f32⟩
  | .hbm, ⟨60, _⟩ => ⟨S64x64, .f32⟩
  | .hbm, ⟨61, _⟩ => ⟨S64x64, .f32⟩
  | .hbm, ⟨62, _⟩ => ⟨S8192x64, .f32⟩
  | .hbm, ⟨63, _⟩ => ⟨S1x64, .f32⟩
  | .hbm, ⟨64, _⟩ => ⟨S64, .f32⟩
  | .hbm, ⟨65, _⟩ => ⟨S1x64, .f32⟩
  | .hbm, ⟨66, _⟩ => ⟨S8192x64, .f32⟩
  | .hbm, ⟨67, _⟩ => ⟨S8192x64, .f32⟩
  | .hbm, ⟨68, _⟩ => ⟨S_, .f32⟩
  | .hbm, ⟨69, _⟩ => ⟨S8192x64, .f32⟩
  | .hbm, ⟨70, _⟩ => ⟨S8192x64, .f32⟩
  | .hbm, ⟨71, _⟩ => ⟨S8192x64, .f32⟩
  | .hbm, ⟨72, _⟩ => ⟨S_, .f32⟩
  | .hbm, ⟨73, _⟩ => ⟨S256x64, .f32⟩
  | .hbm, ⟨74, _⟩ => ⟨S8192x1, .i32⟩
  | .hbm, ⟨75, _⟩ => ⟨S256x64, .f32⟩
  | .hbm, ⟨76, _⟩ => ⟨S1x64x64, .f32⟩
  | .hbm, ⟨77, _⟩ => ⟨S64x64, .f32⟩
  | .hbm, ⟨78, _⟩ => ⟨S64x64, .f32⟩
  | .hbm, ⟨79, _⟩ => ⟨S256x64, .f32⟩
  | .hbm, ⟨80, _⟩ => ⟨S1x64, .f32⟩
  | .hbm, ⟨81, _⟩ => ⟨S64, .f32⟩
  | .hbm, ⟨82, _⟩ => ⟨S1x64, .f32⟩
  | .hbm, ⟨83, _⟩ => ⟨S256x64, .f32⟩
  | .hbm, ⟨84, _⟩ => ⟨S256x64, .f32⟩
  | .hbm, ⟨85, _⟩ => ⟨S_, .f32⟩
  | .hbm, ⟨86, _⟩ => ⟨S256x64, .f32⟩
  | .hbm, ⟨87, _⟩ => ⟨S256x64, .f32⟩
  | .hbm, ⟨88, _⟩ => ⟨S1x64x64, .f32⟩
  | .hbm, ⟨89, _⟩ => ⟨S64x64, .f32⟩
  | .hbm, ⟨90, _⟩ => ⟨S64x64, .f32⟩
  | .hbm, ⟨91, _⟩ => ⟨S256x64, .f32⟩
  | .hbm, ⟨92, _⟩ => ⟨S1x64, .f32⟩
  | .hbm, ⟨93, _⟩ => ⟨S64, .f32⟩
  | .hbm, ⟨94, _⟩ => ⟨S1x64, .f32⟩
  | .hbm, ⟨95, _⟩ => ⟨S256x64, .f32⟩
  | .hbm, ⟨96, _⟩ => ⟨S256x64, .f32⟩
  | .hbm, ⟨97, _⟩ => ⟨S_, .f32⟩
  | .hbm, ⟨98, _⟩ => ⟨S256x64, .f32⟩
  | .hbm, ⟨99, _⟩ => ⟨S256x64, .f32⟩
  | .hbm, ⟨100, _⟩ => ⟨S64x1, .f32⟩
  | .hbm, ⟨101, _⟩ => ⟨S256x1, .f32⟩
  | .hbm, ⟨102, _⟩ => ⟨S1x1, .f32⟩
  | .hbm, ⟨103, _⟩ => ⟨S256x1, .f32⟩
  | .hbm, ⟨104, _⟩ => ⟨S256x1, .f32⟩
  | .local _ .vmem, ⟨0, _⟩ => ⟨S256x8192, .f32⟩
  | .local _ .vmem, ⟨1, _⟩ => ⟨S256x8192, .f32⟩
  | .local _ .vmem, ⟨2, _⟩ => ⟨S8192x64, .f32⟩
  | .local _ .vmem, ⟨3, _⟩ => ⟨S256x64, .f32⟩
  | .local _ .vmem, ⟨4, _⟩ => ⟨S256x64, .f32⟩
  | .local _ .vmem, ⟨5, _⟩ => ⟨S256x8192, .f32⟩
  | .local _ .vmem, ⟨6, _⟩ => ⟨S256x8192, .f32⟩
  | .local _ .vmem, ⟨7, _⟩ => ⟨S8192x64, .f32⟩
  | .local _ .vmem, ⟨8, _⟩ => ⟨S256x64, .f32⟩
  | .local _ .vmem, ⟨9, _⟩ => ⟨S256x64, .f32⟩
  | .local _ .vmem, ⟨10, _⟩ => ⟨S256x8192, .f32⟩
  | .local _ .vmem, ⟨11, _⟩ => ⟨S256x8192, .f32⟩
  | .local _ .vmem, ⟨12, _⟩ => ⟨S8192x64, .f32⟩
  | .local _ .vmem, ⟨13, _⟩ => ⟨S256x64, .f32⟩
  | .local _ .vmem, ⟨14, _⟩ => ⟨S256x64, .f32⟩
  | _, _ => ⟨S8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_call1_cst : Ref sig .tc := ⟨.hbm, 42, rfl⟩
abbrev main_call1_v0 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_call2_cst : Ref sig .tc := ⟨.hbm, 55, rfl⟩
abbrev main_call2_v0 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_call3_cst : Ref sig .tc := ⟨.hbm, 68, rfl⟩
abbrev main_call3_v0 : Ref sig .tc := ⟨.hbm, 69, rfl⟩
abbrev main_v32 : Ref sig .tc := ⟨.hbm, 70, rfl⟩
abbrev main_v33 : Ref sig .tc := ⟨.hbm, 71, rfl⟩
abbrev main_cst : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_call4_cst : Ref sig .tc := ⟨.hbm, 85, rfl⟩
abbrev main_call4_v0 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_call5_cst : Ref sig .tc := ⟨.hbm, 97, rfl⟩
abbrev main_call5_v0 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def k0_off1 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let v8 : Index := Scalar.indexCast v1
  let c0_3 : Index := 0#32
  ![v8.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def k1_mult1 (i : grid1.Coords) : BitVec 32 :=
  let arg0 : BitVec 32 := BitVec.ofNat 32 (i 0).val
  let c256_i32 : BitVec 32 := 256#32
  let v0 : BitVec 32 := Scalar.muli arg0 c256_i32
  v0
def k1_off1 (i : grid1.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let v8 : Index := Scalar.indexCast v1
  let c0_3 : Index := 0#32
  ![v8.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![32], ![false]⟩

def k2_mult1 (i : grid2.Coords) : BitVec 32 :=
  let arg0 : BitVec 32 := BitVec.ofNat 32 (i 0).val
  let c256_i32 : BitVec 32 := 256#32
  let v0 : BitVec 32 := Scalar.muli arg0 c256_i32
  v0
def k2_off1 (i : grid2.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let v8 : Index := Scalar.indexCast v1
  let c0_3 : Index := 0#32
  ![v8.toNat, 0]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x8192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S8192x64_0 : S8192.BroadcastsInDim S8192x64 (![0] : Fin 1 → Fin S8192x64.rank)
  bcast_S_S8192x64 : S_.BroadcastsInDim S8192x64 (![] : Fin 0 → Fin S8192x64.rank)
  slices_S3x64x64_S1x64x64_0_0_0 : S3x64x64.Slices ![0, 0, 0] S1x64x64
  shapeCasts_S1x64x64_S64x64 : S1x64x64.ShapeCasts S64x64
  transposes_S64x64_S64x64_1_0 : S64x64.Transposes [1, 0] S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  inb_S256x8192_S256x8192_0_0 : ∀ a, (![0, 0] : Fin 2 → Nat) a + S256x8192.size a ≤ S256x8192.size a
  h_S256x8192 : 0 < S256x8192.numel
  bitsLt_bf16_f32 : FTy.bits .bf16 < FTy.bits .f32
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  h_S256x64 : 0 < S256x64.numel
  shapeCasts_S256x64_S256x64 : S256x64.ShapeCasts S256x64
  reduces_S256x64_S256 : S256x64.Reduces [1] S256
  shapeCasts_S256_S256x1 : S256.ShapeCasts S256x1
  broadcasts_S256x1_S256x64 : S256x1.Broadcasts S256x64
  inb_S256x64_S256x64_0_0 : ∀ a, (![0, 0] : Fin 2 → Nat) a + S256x64.size a ≤ S256x64.size a
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S256x64 : S_.BroadcastsInDim S256x64 (![] : Fin 0 → Fin S256x64.rank)
  slices_S2x64x64_S1x64x64_0_0_0 : S2x64x64.Slices ![0, 0, 0] S1x64x64
  slices_S2x64_S1x64_0_0 : S2x64.Slices ![0, 0] S1x64
  bcast_S1x64_S256x64_0_1 : S1x64.BroadcastsInDim S256x64 (![0, 1] : Fin 2 → Fin S256x64.rank)
  slices_S2x64x64_S1x64x64_1_0_0 : S2x64x64.Slices ![1, 0, 0] S1x64x64
  slices_S2x64_S1x64_1_0 : S2x64.Slices ![1, 0] S1x64
  transposes_S1x64_S64x1_1_0 : S1x64.Transposes [1, 0] S64x1
  bcast_S1x1_S256x1_0_1 : S1x1.BroadcastsInDim S256x1 (![0, 1] : Fin 2 → Fin S256x1.rank)
  gather_S10000x64_S8192x1_S8192x64_1_0_n_n_0_1_164_wf : GatherDims.WF S10000x64 S8192x1 S8192x64 [1] [0] [] [0] [] 1 ![1, 64]
  dot_S8192x64_S64x64_S8192x64_1_0_0_1_n_n_wf : DotDims.WF S8192x64 S64x64 S8192x64 [1] [0] [0] [1] [] []
  dot_S256x8192_S8192x64_S256x64_1_0_0_1_n_n_wf : DotDims.WF S256x8192 S8192x64 S256x64 [1] [0] [0] [1] [] []
  scatter_S256x64_S8192x1_S8192x64_1_0_0_1_wf : ScatterDims.WF S256x64 S8192x1 S8192x64 [1] [0] [0] 1
  dot_S256x64_S64x64_S256x64_1_0_0_1_n_n_wf : DotDims.WF S256x64 S64x64 S256x64 [1] [0] [0] [1] [] []
  dot_S256x64_S64x1_S256x1_1_0_0_1_n_n_wf : DotDims.WF S256x64 S64x1 S256x1 [1] [0] [0] [1] [] []
  hrank0 : 0 < grid0.rank
  k0_mult1_dvd : ∀ i : grid0.Coords, 256 ∣ (k0_mult1 i).toNat
  k0_off1_inb : ∀ i : grid0.Coords, ∀ a, (k0_off1 i) a + S256x64.size a ≤ S8192x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S8192x64.size a
  hwx0_1 : ∀ i : grid0.Coords, EltTy.bits .f32 = 32 ∨ (Rect.block (s := S8192x64) S8192x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S8192x64.size a
  hwx0_2 : ∀ i : grid0.Coords, EltTy.bits .f32 = 32 ∨ (Rect.block (s := S8192x64) S256x64.size (cc0_transform_2 i) (hinb0_2 i)).WholeWords (EltTy.packing .f32)
  hrank1 : 0 < grid1.rank
  k1_mult1_dvd : ∀ i : grid1.Coords, 256 ∣ (k1_mult1 i).toNat
  k1_off1_inb : ∀ i : grid1.Coords, ∀ a, (k1_off1 i) a + S256x64.size a ≤ S8192x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S8192x8192.size a
  hwx1_0 : ∀ i : grid1.Coords, EltTy.bits .f32 = 32 ∨ (Rect.block (s := S8192x8192) S256x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S8192x64.size a
  hwx1_1 : ∀ i : grid1.Coords, EltTy.bits .f32 = 32 ∨ (Rect.block (s := S8192x64) S8192x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S8192x64.size a
  hwx1_2 : ∀ i : grid1.Coords, EltTy.bits .f32 = 32 ∨ (Rect.block (s := S8192x64) S256x64.size (cc1_transform_2 i) (hinb1_2 i)).WholeWords (EltTy.packing .f32)
  hrank2 : 0 < grid2.rank
  k2_mult1_dvd : ∀ i : grid2.Coords, 256 ∣ (k2_mult1 i).toNat
  k2_off1_inb : ∀ i : grid2.Coords, ∀ a, (k2_off1 i) a + S256x64.size a ≤ S8192x64.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x8192.size a ≤ S8192x8192.size a
  hwx2_0 : ∀ i : grid2.Coords, EltTy.bits .f32 = 32 ∨ (Rect.block (s := S8192x8192) S256x8192.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x64.size a ≤ S8192x64.size a
  hwx2_1 : ∀ i : grid2.Coords, EltTy.bits .f32 = 32 ∨ (Rect.block (s := S8192x64) S8192x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x64.size a ≤ S8192x64.size a
  hwx2_2 : ∀ i : grid2.Coords, EltTy.bits .f32 = 32 ∨ (Rect.block (s := S8192x64) S256x64.size (cc2_transform_2 i) (hinb2_2 i)).WholeWords (EltTy.packing .f32)

variable [Facts₀]

def gather_S10000x64_S8192x1_S8192x64_1_0_n_n_0_1_164 : GatherDims S10000x64 S8192x1 S8192x64 where
  offsetDims := [1]
  collapsedSliceDims := [0]
  operandBatchingDims := []
  startIndicesBatchingDims := []
  startIndexMap := [0]
  indexVectorDim := 1
  sliceSizes := ![1, 64]
  wf := gather_S10000x64_S8192x1_S8192x64_1_0_n_n_0_1_164_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S256x8192_S8192x64_S256x64_1_0_0_1_n_n : DotDims S256x8192 S8192x64 S256x64 where
  lhsContracting := [1]
  rhsContracting := [0]
  lhsNonContracting := [0]
  rhsNonContracting := [1]
  lhsBatch := []
  rhsBatch := []
  wf := dot_S256x8192_S8192x64_S256x64_1_0_0_1_n_n_wf
def scatter_S256x64_S8192x1_S8192x64_1_0_0_1 : ScatterDims S256x64 S8192x1 S8192x64 where
  updateWindowDims := [1]
  insertedWindowDims := [0]
  scatterDimsToOperandDims := [0]
  indexVectorDim := 1
  wf := scatter_S256x64_S8192x1_S8192x64_1_0_0_1_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

abbrev win0_0 : Pipeline.Window sig grid0 :=
  Pipeline.Window.ofSpec (Memref.whole main_arg1) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S8192x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S256x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S8192x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S256x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg1) S256x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S8192x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v33) S256x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192 : Shape := ⟨1, ![8192]⟩
abbrev S8192x8192 : Shape := ⟨2, ![8192, 8192]⟩
abbrev S10000x64 : Shape := ⟨2, ![10000, 64]⟩
abbrev S3x64x64 : Shape := ⟨3, ![3, 64, 64]⟩
abbrev S3x64 : Shape := ⟨2, ![3, 64]⟩
abbrev S2x64x64 : Shape := ⟨3, ![2, 64, 64]⟩
abbrev S2x64 : Shape := ⟨2, ![2, 64]⟩
abbrev S1x64 : Shape := ⟨2, ![1, 64]⟩
abbrev S1 : Shape := ⟨1, ![1]⟩
abbrev S_ : Shape := ⟨0, ![]⟩
abbrev S8192x1 : Shape := ⟨2, ![8192, 1]⟩
abbrev S8192x64 : Shape := ⟨2, ![8192, 64]⟩
abbrev S1x64x64 : Shape := ⟨3, ![1, 64, 64]⟩
abbrev S64x64 : Shape := ⟨2, ![64, 64]⟩
abbrev S64 : Shape := ⟨1, ![64]⟩
abbrev S256x64 : Shape := ⟨2, ![256, 64]⟩
abbrev S64x1 : Shape := ⟨2, ![64, 1]⟩
abbrev S256x1 : Shape := ⟨2, ![256, 1]⟩
abbrev S1x1 : Shape := ⟨2, ![1, 1]⟩

abbrev nBuf : Space → Nat
  | .hbm => 124
  | .vmem => 0
  | .smem => 0
  | _ => 0

abbrev bufTy : (tb : Table) → Fin (tcTables nBuf tb) → BufTy
  | .hbm, ⟨0, _⟩ => ⟨S8192, .i32⟩
  | .hbm, ⟨1, _⟩ => ⟨S8192x8192, .f32⟩
  | .hbm, ⟨2, _⟩ => ⟨S8192, .i32⟩
  | .hbm, ⟨3, _⟩ => ⟨S10000x64, .f32⟩
  | .hbm, ⟨4, _⟩ => ⟨S3x64x64, .f32⟩
  | .hbm, ⟨5, _⟩ => ⟨S3x64, .f32⟩
  | .hbm, ⟨6, _⟩ => ⟨S2x64x64, .f32⟩
  | .hbm, ⟨7, _⟩ => ⟨S2x64, .f32⟩
  | .hbm, ⟨8, _⟩ => ⟨S1x64, .f32⟩
  | .hbm, ⟨9, _⟩ => ⟨S1, .f32⟩
  | .hbm, ⟨10, _⟩ => ⟨S_, .i32⟩
  | .hbm, ⟨11, _⟩ => ⟨S8192, .i32⟩
  | .hbm, ⟨12, _⟩ => ⟨S8192, .i1⟩
  | .hbm, ⟨13, _⟩ => ⟨S_, .i32⟩
  | .hbm, ⟨14, _⟩ => ⟨S8192, .i32⟩
  | .hbm, ⟨15, _⟩ => ⟨S8192, .i32⟩
  | .hbm, ⟨16, _⟩ => ⟨S8192, .i32⟩
  | .hbm, ⟨17, _⟩ => ⟨S8192x1, .i32⟩
  | .hbm, ⟨18, _⟩ => ⟨S8192x64, .f32⟩
  | .hbm, ⟨19, _⟩ => ⟨S1x64x64, .f32⟩
  | .hbm, ⟨20, _⟩ => ⟨S64x64, .f32⟩
  | .hbm, ⟨21, _⟩ => ⟨S64x64, .f32⟩
  | .hbm, ⟨22, _⟩ => ⟨S8192x64, .f32⟩
  | .hbm, ⟨23, _⟩ => ⟨S1x64, .f32⟩
  | .hbm, ⟨24, _⟩ => ⟨S64, .f32⟩
  | .hbm, ⟨25, _⟩ => ⟨S1x64, .f32⟩
  | .hbm, ⟨26, _⟩ => ⟨S8192x64, .f32⟩
  | .hbm, ⟨27, _⟩ => ⟨S8192x64, .f32⟩
  | .hbm, ⟨28, _⟩ => ⟨S_, .f32⟩
  | .hbm, ⟨29, _⟩ => ⟨S8192x64, .f32⟩
  | .hbm, ⟨30, _⟩ => ⟨S8192x64, .f32⟩
  | .hbm, ⟨31, _⟩ => ⟨S8192x64, .f32⟩
  | .hbm, ⟨32, _⟩ => ⟨S8192x64, .f32⟩
  | .hbm, ⟨33, _⟩ => ⟨S8192x64, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x64, .f32⟩
  | .hbm, ⟨42, _⟩ => ⟨S8192x64, .f32⟩
  | .hbm, ⟨43, _⟩ => ⟨S1x64x64, .f32⟩
  | .hbm, ⟨44, _⟩ => ⟨S64x64, .f32⟩
  | .hbm, ⟨45, _⟩ => ⟨S64x64, .f32⟩
  | .hbm, ⟨46, _⟩ => ⟨S8192x64, .f32⟩
  | .hbm, ⟨47, _⟩ => ⟨S1x64, .f32⟩
  | .hbm, ⟨48, _⟩ => ⟨S64, .f32⟩
  | .hbm, ⟨49, _⟩ => ⟨S1x64, .f32⟩
  | .hbm, ⟨50, _⟩ => ⟨S8192x64, .f32⟩
  | .hbm, ⟨51, _⟩ => ⟨S8192x64, .f32⟩
  | .hbm, ⟨52, _⟩ => ⟨S_, .f32⟩
  | .hbm, ⟨53, _⟩ => ⟨S8192x64, .f32⟩
  | .hbm, ⟨54, _⟩ => ⟨S8192x64, .f32⟩
  | .hbm, ⟨55, _⟩ => ⟨S8192x64, .f32⟩
  | .hbm, ⟨56, _⟩ => ⟨S8192x64, .f32⟩
  | .hbm, ⟨57, _⟩ => ⟨S8192x64, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S8192x64, .f32⟩
  | .hbm, ⟨66, _⟩ => ⟨S8192x64, .f32⟩
  | .hbm, ⟨67, _⟩ => ⟨S1x64x64, .f32⟩
  | .hbm, ⟨68, _⟩ => ⟨S64x64, .f32⟩
  | .hbm, ⟨69, _⟩ => ⟨S64x64, .f32⟩
  | .hbm, ⟨70, _⟩ => ⟨S8192x64, .f32⟩
  | .hbm, ⟨71, _⟩ => ⟨S1x64, .f32⟩
  | .hbm, ⟨72, _⟩ => ⟨S64, .f32⟩
  | .hbm, ⟨73, _⟩ => ⟨S1x64, .f32⟩
  | .hbm, ⟨74, _⟩ => ⟨S8192x64, .f32⟩
  | .hbm, ⟨75, _⟩ => ⟨S8192x64, .f32⟩
  | .hbm, ⟨76, _⟩ => ⟨S_, .f32⟩
  | .hbm, ⟨77, _⟩ => ⟨S8192x64, .f32⟩
  | .hbm, ⟨78, _⟩ => ⟨S8192x64, .f32⟩
  | .hbm, ⟨79, _⟩ => ⟨S8192x64, .f32⟩
  | .hbm, ⟨80, _⟩ => ⟨S8192x64, .f32⟩
  | .hbm, ⟨81, _⟩ => ⟨S8192x64, .f32⟩
  | .hbm, ⟨82, _⟩ => ⟨S_, .f32⟩
  | .hbm, ⟨83, _⟩ => ⟨S8192, .f32⟩
  | .hbm, ⟨84, _⟩ => ⟨S8192x1, .f32⟩
  | .hbm, ⟨85, _⟩ => ⟨S8192x1, .f32⟩
  | .hbm, ⟨86, _⟩ => ⟨S_, .f32⟩
  | .hbm, ⟨87, _⟩ => ⟨S8192x1, .f32⟩
  | .hbm, ⟨88, _⟩ => ⟨S8192x1, .f32⟩
  | .hbm, ⟨89, _⟩ => ⟨S8192x64, .f32⟩
  | .hbm, ⟨90, _⟩ => ⟨S8192x64, .f32⟩
  | .hbm, ⟨91, _⟩ => ⟨S_, .f32⟩
  | .hbm, ⟨92, _⟩ => ⟨S256x64, .f32⟩
  | .hbm, ⟨93, _⟩ => ⟨S8192x1, .i32⟩
  | .hbm, ⟨94, _⟩ => ⟨S256x64, .f32⟩
  | .hbm, ⟨95, _⟩ => ⟨S1x64x64, .f32⟩
  | .hbm, ⟨96, _⟩ => ⟨S64x64, .f32⟩
  | .hbm, ⟨97, _⟩ => ⟨S64x64, .f32⟩
  | .hbm, ⟨98, _⟩ => ⟨S256x64, .f32⟩
  | .hbm, ⟨99, _⟩ => ⟨S1x64, .f32⟩
  | .hbm, ⟨100, _⟩ => ⟨S64, .f32⟩
  | .hbm, ⟨101, _⟩ => ⟨S1x64, .f32⟩
  | .hbm, ⟨102, _⟩ => ⟨S256x64, .f32⟩
  | .hbm, ⟨103, _⟩ => ⟨S256x64, .f32⟩
  | .hbm, ⟨104, _⟩ => ⟨S_, .f32⟩
  | .hbm, ⟨105, _⟩ => ⟨S256x64, .f32⟩
  | .hbm, ⟨106, _⟩ => ⟨S256x64, .f32⟩
  | .hbm, ⟨107, _⟩ => ⟨S1x64x64, .f32⟩
  | .hbm, ⟨108, _⟩ => ⟨S64x64, .f32⟩
  | .hbm, ⟨109, _⟩ => ⟨S64x64, .f32⟩
  | .hbm, ⟨110, _⟩ => ⟨S256x64, .f32⟩
  | .hbm, ⟨111, _⟩ => ⟨S1x64, .f32⟩
  | .hbm, ⟨112, _⟩ => ⟨S64, .f32⟩
  | .hbm, ⟨113, _⟩ => ⟨S1x64, .f32⟩
  | .hbm, ⟨114, _⟩ => ⟨S256x64, .f32⟩
  | .hbm, ⟨115, _⟩ => ⟨S256x64, .f32⟩
  | .hbm, ⟨116, _⟩ => ⟨S_, .f32⟩
  | .hbm, ⟨117, _⟩ => ⟨S256x64, .f32⟩
  | .hbm, ⟨118, _⟩ => ⟨S256x64, .f32⟩
  | .hbm, ⟨119, _⟩ => ⟨S64x1, .f32⟩
  | .hbm, ⟨120, _⟩ => ⟨S256x1, .f32⟩
  | .hbm, ⟨121, _⟩ => ⟨S1x1, .f32⟩
  | .hbm, ⟨122, _⟩ => ⟨S256x1, .f32⟩
  | .hbm, ⟨123, _⟩ => ⟨S256x1, .f32⟩
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call0_cst : Ref sig .tc := ⟨.hbm, 28, rfl⟩
abbrev main_call0_v0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call1_v0 : Ref sig .tc := ⟨.hbm, 33, rfl⟩
abbrev main_call1_cst : Ref sig .tc := ⟨.hbm, 34, rfl⟩
abbrev main_call1_v1 : Ref sig .tc := ⟨.hbm, 35, rfl⟩
abbrev main_call1_v2 : Ref sig .tc := ⟨.hbm, 36, rfl⟩
abbrev main_v19 : Ref sig .tc := ⟨.hbm, 37, rfl⟩
abbrev main_cst : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call2_cst : Ref sig .tc := ⟨.hbm, 52, rfl⟩
abbrev main_call2_v0 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_call3_v0 : Ref sig .tc := ⟨.hbm, 57, rfl⟩
abbrev main_call3_cst : Ref sig .tc := ⟨.hbm, 58, rfl⟩
abbrev main_call3_v1 : Ref sig .tc := ⟨.hbm, 59, rfl⟩
abbrev main_call3_v2 : Ref sig .tc := ⟨.hbm, 60, rfl⟩
abbrev main_v36 : Ref sig .tc := ⟨.hbm, 61, rfl⟩
abbrev main_cst_1 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_call4_cst : Ref sig .tc := ⟨.hbm, 76, rfl⟩
abbrev main_call4_v0 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_call5_v0 : Ref sig .tc := ⟨.hbm, 81, rfl⟩
abbrev main_call5_cst : Ref sig .tc := ⟨.hbm, 82, rfl⟩
abbrev main_call5_v1 : Ref sig .tc := ⟨.hbm, 83, rfl⟩
abbrev main_call5_v2 : Ref sig .tc := ⟨.hbm, 84, rfl⟩
abbrev main_v53 : Ref sig .tc := ⟨.hbm, 85, rfl⟩
abbrev main_cst_2 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_3 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_call6_cst : Ref sig .tc := ⟨.hbm, 104, rfl⟩
abbrev main_call6_v0 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_call7_cst : Ref sig .tc := ⟨.hbm, 116, rfl⟩
abbrev main_call7_v0 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  slices_S3x64x64_S1x64x64_0_0_0 : S3x64x64.Slices ![0, 0, 0] S1x64x64
  shapeCasts_S1x64x64_S64x64 : S1x64x64.ShapeCasts S64x64
  transposes_S64x64_S64x64_1_0 : S64x64.Transposes [1, 0] S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  reducesTo_S8192x64_S8192_d1 : S8192x64.ReducesTo [1] S8192
  h_S_ : 0 < S_.numel
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S256x64 : S_.BroadcastsInDim S256x64 (![] : Fin 0 → Fin S256x64.rank)
  slices_S2x64x64_S1x64x64_0_0_0 : S2x64x64.Slices ![0, 0, 0] S1x64x64
  slices_S2x64_S1x64_0_0 : S2x64.Slices ![0, 0] S1x64
  bcast_S1x64_S256x64_0_1 : S1x64.BroadcastsInDim S256x64 (![0, 1] : Fin 2 → Fin S256x64.rank)
  slices_S2x64x64_S1x64x64_1_0_0 : S2x64x64.Slices ![1, 0, 0] S1x64x64
  slices_S2x64_S1x64_1_0 : S2x64.Slices ![1, 0] S1x64
  transposes_S1x64_S64x1_1_0 : S1x64.Transposes [1, 0] S64x1
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  gather_S10000x64_S8192x1_S8192x64_1_0_n_n_0_1_164_wf : GatherDims.WF S10000x64 S8192x1 S8192x64 [1] [0] [] [0] [] 1 ![1, 64]
  dot_S8192x64_S64x64_S8192x64_1_0_0_1_n_n_wf : DotDims.WF S8192x64 S64x64 S8192x64 [1] [0] [0] [1] [] []
  dot_S8192x8192_S8192x64_S8192x64_1_0_0_1_n_n_wf : DotDims.WF S8192x8192 S8192x64 S8192x64 [1] [0] [0] [1] [] []
  scatter_S256x64_S8192x1_S8192x64_1_0_0_1_wf : ScatterDims.WF S256x64 S8192x1 S8192x64 [1] [0] [0] 1
  dot_S256x64_S64x64_S256x64_1_0_0_1_n_n_wf : DotDims.WF S256x64 S64x64 S256x64 [1] [0] [0] [1] [] []
  dot_S256x64_S64x1_S256x1_1_0_0_1_n_n_wf : DotDims.WF S256x64 S64x1 S256x1 [1] [0] [0] [1] [] []

variable [Facts₀]

def gather_S10000x64_S8192x1_S8192x64_1_0_n_n_0_1_164 : GatherDims S10000x64 S8192x1 S8192x64 where
  offsetDims := [1]
  collapsedSliceDims := [0]
  operandBatchingDims := []
  startIndicesBatchingDims := []
  startIndexMap := [0]
  indexVectorDim := 1
  sliceSizes := ![1, 64]
  wf := gather_S10000x64_S8192x1_S8192x64_1_0_n_n_0_1_164_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def scatter_S256x64_S8192x1_S8192x64_1_0_0_1 : ScatterDims S256x64 S8192x1 S8192x64 where
  updateWindowDims := [1]
  insertedWindowDims := [0]
  scatterDimsToOperandDims := [0]
  indexVectorDim := 1
  wf := scatter_S256x64_S8192x1_S8192x64_1_0_0_1_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

class Facts : Prop extends Facts₀ where

variable [Facts]
-- ==== Proof.HostChain.lean ====
/-
  The host-side steps both programs share, each as ONE function of its operands, for any float instance:

    rows     the embedding table's rows at the fingerprints (a negative fingerprint counts from the table's end)
    dense l  v ↦ max(v · W[l]ᵀ + b[l], 0), l = 0, 1, 2
    hostLayer  (A, h) ↦ (h + A·h) / max(‖h + A·h‖ per row, ε), spelled with host operations
    readout  the segment sum over molecules, two more feed-forward steps and the final projection

  The kernel's program and the reference apply these same operations to values the certificate proves equal, so
  no proof ever opens one of them except `hostLayer`, which is read at an index once (to meet the kernel's
  in-kernel layer).
-/
import proofs.«429968_j5119601017308_1_alg».proof.Proof.Gen.ReferenceIdeal

noncomputable section

namespace Cert.Gnn

open Cert.ReferenceIdeal Cert.ReferenceIdeal.Gen Idealize.ShloMosaic

variable {F : FTy → Type} [FloatOps F]

/-- The row numbers as a column `[8192, 1]`: a negative fingerprint `f` becomes `f + 10000`. -/
def rowIds (fp : IVec S8192 32) : IVec S8192x1 32 :=
  broadcastInDim S8192x1 ![0] bcast_S8192_S8192x1_0
    (select (cmpi .slt fp (broadcastInDim S8192 ![] bcast_S_S8192 (constantI S_ 32 0#32)))
      (addi fp (broadcastInDim S8192 ![] bcast_S_S8192 (constantI S_ 32 10000#32))) fp)

/-- The embedding table's rows at the fingerprints. -/
def rows (fp : IVec S8192 32) (emb : FVec F S10000x64 .f32) : FVec F S8192x64 .f32 :=
  Host.gather gather_S10000x64_S8192x1_S8192x64_1_0_n_n_0_1_164 emb (rowIds fp)

/-- The feed-forward step with weight slice 0: `max(v · W[0]ᵀ + b[0], 0)`. -/
def dense0 (W : FVec F S3x64x64 .f32) (b : FVec F S3x64 .f32) (v : FVec F S8192x64 .f32) : FVec F S8192x64 .f32 :=
  maximumf (addf (Host.dotGeneral dot_S8192x64_S64x64_S8192x64_1_0_0_1_n_n none v
      (transpose S64x64 [1, 0] (shapeCast S64x64 (extractStridedSlice S1x64x64 ![0, 0, 0] W slices_S3x64x64_S1x64x64_0_0_0) shapeCasts_S1x64x64_S64x64) transposes_S64x64_S64x64_1_0))
    (broadcastInDim S8192x64 ![0, 1] bcast_S1x64_S8192x64_0_1 (broadcastInDim S1x64 ![1] bcast_S64_S1x64_1
      (shapeCast S64 (extractStridedSlice S1x64 ![0, 0] b slices_S3x64_S1x64_0_0) shapeCasts_S1x64_S64))))
    (broadcastInDim S8192x64 ![] bcast_S_S8192x64 (constant S_ .f32 0x00000000#32))

/-- The feed-forward step with weight slice 1: `max(v · W[1]ᵀ + b[1], 0)`. -/
def dense1 (W : FVec F S3x64x64 .f32) (b : FVec F S3x64 .f32) (v : FVec F S8192x64 .f32) : FVec F S8192x64 .f32 :=
  maximumf (addf (Host.dotGeneral dot_S8192x64_S64x64_S8192x64_1_0_0_1_n_n none v
      (transpose S64x64 [1, 0] (shapeCast S64x64 (extractStridedSlice S1x64x64 ![1, 0, 0] W slices_S3x64x64_S1x64x64_1_0_0) shapeCasts_S1x64x64_S64x64) transposes_S64x64_S64x64_1_0))
    (broadcastInDim S8192x64 ![0, 1] bcast_S1x64_S8192x64_0_1 (broadcastInDim S1x64 ![1] bcast_S64_S1x64_1
      (shapeCast S64 (extractStridedSlice S1x64 ![1, 0] b slices_S3x64_S1x64_1_0) shapeCasts_S1x64_S64))))
    (broadcastInDim S8192x64 ![] bcast_S_S8192x64 (constant S_ .f32 0x00000000#32))

/-- The feed-forward step with weight slice 2: `max(v · W[2]ᵀ + b[2], 0)`. -/
def dense2 (W : FVec F S3x64x64 .f32) (b : FVec F S3x64 .f32) (v : FVec F S8192x64 .f32) : FVec F S8192x64 .f32 :=
  maximumf (addf (Host.dotGeneral dot_S8192x64_S64x64_S8192x64_1_0_0_1_n_n none v
      (transpose S64x64 [1, 0] (shapeCast S64x64 (extractStridedSlice S1x64x64 ![2, 0, 0] W slices_S3x64x64_S1x64x64_2_0_0) shapeCasts_S1x64x64_S64x64) transposes_S64x64_S64x64_1_0))
    (broadcastInDim S8192x64 ![0, 1] bcast_S1x64_S8192x64_0_1 (broadcastInDim S1x64 ![1] bcast_S64_S1x64_1
      (shapeCast S64 (extractStridedSlice S1x64 ![2, 0] b slices_S3x64_S1x64_2_0) shapeCasts_S1x64_S64))))
    (broadcastInDim S8192x64 ![] bcast_S_S8192x64 (constant S_ .f32 0x00000000#32))

/-- One message-passing layer spelled with host operations: `hs = h + A·h`, each row of `hs` divided by the larger of
    its Euclidean norm and ε. -/
def hostLayer (A : FVec F S8192x8192 .f32) (h : FVec F S8192x64 .f32) : FVec F S8192x64 .f32 :=
  Host.divf (addf h (Host.dotGeneral dot_S8192x8192_S8192x64_S8192x64_1_0_0_1_n_n none A h))
    (broadcastInDim S8192x64 ![0, 1] bcast_S8192x1_S8192x64_0_1
      (maximumf
        (Host.sqrt (broadcastInDim S8192x1 ![0] bcast_S8192_S8192x1_0
          (Host.reduceAdd
            (mulf (addf h (Host.dotGeneral dot_S8192x8192_S8192x64_S8192x64_1_0_0_1_n_n none A h))
              (addf h (Host.dotGeneral dot_S8192x8192_S8192x64_S8192x64_1_0_0_1_n_n none A h)))
            (constant S_ .f32 0x00000000#32) reducesTo_S8192x64_S8192_d1 h_S_)))
        (broadcastInDim S8192x1 ![] bcast_S_S8192x1 (constant S_ .f32 0x2B8CBCCC#32))))

/-- From the atoms' vectors to the prediction: the sum of each molecule's atoms (a scatter-add into `[256, 64]` zeros at
    the segment ids), two feed-forward steps `max(x · Wout[l]ᵀ + bout[l], 0)`, then `x · Wpropᵀ + bprop`. -/
def readout (seg : IVec S8192 32) (Wout : FVec F S2x64x64 .f32) (bout : FVec F S2x64 .f32) (Wprop : FVec F S1x64 .f32)
    (bprop : FVec F S1 .f32) (v : FVec F S8192x64 .f32) : FVec F S256x1 .f32 :=
  addf (Host.dotGeneral dot_S256x64_S64x1_S256x1_1_0_0_1_n_n none
      (maximumf (addf (Host.dotGeneral dot_S256x64_S64x64_S256x64_1_0_0_1_n_n none
          (maximumf (addf (Host.dotGeneral dot_S256x64_S64x64_S256x64_1_0_0_1_n_n none
              (Host.scatterAdd scatter_S256x64_S8192x1_S8192x64_1_0_0_1
                (broadcastInDim S256x64 ![] bcast_S_S256x64 (constant S_ .f32 0x00000000#32))
                (broadcastInDim S8192x1 ![0] bcast_S8192_S8192x1_0 seg) v)
              (transpose S64x64 [1, 0] (shapeCast S64x64 (extractStridedSlice S1x64x64 ![0, 0, 0] Wout slices_S2x64x64_S1x64x64_0_0_0) shapeCasts_S1x64x64_S64x64) transposes_S64x64_S64x64_1_0))
            (broadcastInDim S256x64 ![0, 1] bcast_S1x64_S256x64_0_1 (broadcastInDim S1x64 ![1] bcast_S64_S1x64_1
              (shapeCast S64 (extractStridedSlice S1x64 ![0, 0] bout slices_S2x64_S1x64_0_0) shapeCasts_S1x64_S64))))
            (broadcastInDim S256x64 ![] bcast_S_S256x64 (constant S_ .f32 0x00000000#32)))
          (transpose S64x64 [1, 0] (shapeCast S64x64 (extractStridedSlice S1x64x64 ![1, 0, 0] Wout slices_S2x64x64_S1x64x64_1_0_0) shapeCasts_S1x64x64_S64x64) transposes_S64x64_S64x64_1_0))
        (broadcastInDim S256x64 ![0, 1] bcast_S1x64_S256x64_0_1 (broadcastInDim S1x64 ![1] bcast_S64_S1x64_1
          (shapeCast S64 (extractStridedSlice S1x64 ![1, 0] bout slices_S2x64_S1x64_1_0) shapeCasts_S1x64_S64))))
        (broadcastInDim S256x64 ![] bcast_S_S256x64 (constant S_ .f32 0x00000000#32)))
      (transpose S64x1 [1, 0] Wprop transposes_S1x64_S64x1_1_0))
    (broadcastInDim S256x1 ![0, 1] bcast_S1x1_S256x1_0_1 (broadcastInDim S1x1 ![1] bcast_S1_S1x1_1 bprop))

/-- Everything after the embedding lookup, given the rows: three rounds of feed-forward then layer, then the readout.
    `L` is the layer's function of `(A, h)`. -/
def network (L : FVec F S8192x8192 .f32 → FVec F S8192x64 .f32 → FVec F S8192x64 .f32)
    (A : FVec F S8192x8192 .f32) (seg : IVec S8192 32) (W : FVec F S3x64x64 .f32) (b : FVec F S3x64 .f32)
    (Wout : FVec F S2x64x64 .f32) (bout : FVec F S2x64 .f32) (Wprop : FVec F S1x64 .f32) (bprop : FVec F S1 .f32)
    (v0 : FVec F S8192x64 .f32) : FVec F S256x1 .f32 :=
  readout seg Wout bout Wprop bprop (L A (dense2 W b (L A (dense1 W b (L A (dense0 W b v0))))))

end Cert.Gnn

end
-- ==== Proof.RowRange.lean ====
/-
  Row numbers of the embedding table as signed 32-bit words. The table has 10000 rows; a row number `a` is valid when
  `-10000 ≤ a < 10000`, a negative one counting from the table's end. Wrapping (`a + 10000` when `a < 0`, else `a`)
  then lands in `[0, 9999]`.
-/
import Idealize.ShloMosaic.PureOps
import Idealize.ShloMosaic.Lib.StableHlo.Predicate

namespace Cert.Gnn

open Idealize.ShloMosaic

/-- `-10000 ≤ a < 10000` as the two signed comparisons the precondition prints (`4294957296` is the word of `-10000`). -/
def ValidRow (a : BitVec 32) : Prop :=
  IntOp.cmpi .sge a 4294957296#32 = 1#1 ∧ IntOp.cmpi .slt a 10000#32 = 1#1

/-- The wrapped row number: `a + 10000` for a negative `a`, else `a`. -/
def wrapRow (a : BitVec 32) : BitVec 32 :=
  Scalar.select (IntOp.cmpi .slt a 0#32) (IntOp.addi a 10000#32) a

/-- A valid row number, read as a signed integer, lies in `[-10000, 10000)`. -/
private theorem validRow_toInt {a : BitVec 32} (h : ValidRow a) : -10000 ≤ a.toInt ∧ a.toInt < 10000 := by
  obtain ⟨h1, h2⟩ := h
  unfold IntOp.cmpi at h1 h2
  simp only [StableHlo.Predicate.ofBool_eq_one_iff, BitVec.sle, BitVec.slt, decide_eq_true_eq] at h1 h2
  have e1 : (4294957296#32 : BitVec 32).toInt = -10000 := by decide
  have e2 : (10000#32 : BitVec 32).toInt = 10000 := by decide
  rw [e1] at h1; rw [e2] at h2
  exact ⟨h1, h2⟩

/-- The wrapped word of a valid row number, read as a signed integer, lies in `[0, 9999]`: a negative `a ≥ -10000` has the
    unsigned value `2³² + a`, so `a + 10000` wraps around `2³²` to `a + 10000 ∈ [0, 9999]`; a non-negative `a` stays. -/
private theorem wrapRow_toInt {a : BitVec 32} (h : ValidRow a) : 0 ≤ (wrapRow a).toInt ∧ (wrapRow a).toInt ≤ 9999 := by
  obtain ⟨h1, h2⟩ := validRow_toInt h
  have e0 : (0#32 : BitVec 32).toInt = 0 := by decide
  have hs : IntOp.cmpi .slt a 0#32 = BitVec.ofBool (a.slt 0#32) := rfl
  have hadd : IntOp.addi a 10000#32 = a + 10000#32 := rfl
  unfold wrapRow Scalar.select
  rw [hs, hadd]
  by_cases hneg : a.toInt < 0
  · have hc : BitVec.ofBool (a.slt 0#32) = 1 := by
      refine (StableHlo.Predicate.ofBool_eq_one_iff _).2 ?_; simp only [BitVec.slt, e0, decide_eq_true_eq]; exact hneg
    rw [if_pos hc]
    rw [BitVec.toInt_eq_toNat_cond] at h1 hneg
    rw [BitVec.toInt_eq_toNat_cond, BitVec.toNat_add, BitVec.toNat_ofNat]
    split at h1 <;> split <;> omega
  · have hc : ¬ BitVec.ofBool (a.slt 0#32) = 1 := by
      intro hc; have hc' := (StableHlo.Predicate.ofBool_eq_one_iff _).1 hc
      simp only [BitVec.slt, e0, decide_eq_true_eq] at hc'; exact hneg hc'
    rw [if_neg hc]
    omega

/-- A valid row number wraps to a word that is `≥ 0` … -/
theorem wrapRow_ge (a : BitVec 32) (h : ValidRow a) : IntOp.cmpi .sge (wrapRow a) 0#32 = 1#1 := by
  have e0 : (0#32 : BitVec 32).toInt = 0 := by decide
  unfold IntOp.cmpi
  simp only [StableHlo.Predicate.ofBool_eq_one_iff, BitVec.sle, decide_eq_true_eq, e0]
  exact (wrapRow_toInt h).1

/-- … and `≤ 9999`. -/
theorem wrapRow_le (a : BitVec 32) (h : ValidRow a) : IntOp.cmpi .sle (wrapRow a) 9999#32 = 1#1 := by
  have e0 : (9999#32 : BitVec 32).toInt = 9999 := by decide
  unfold IntOp.cmpi
  simp only [StableHlo.Predicate.ofBool_eq_one_iff, BitVec.sle, decide_eq_true_eq, e0]
  exact (wrapRow_toInt h).2

end Cert.Gnn
-- ==== Proof.TakeMask.lean ====
/-
  The kernel's embedding lookup fills rows whose number falls outside the table with a not-a-number. Its test, per atom
  `t`: the wrapped row number is `≥ 0` and `≤ 9999` — broadcast over the row's 64 columns. On valid row numbers
  (`Cert.Gnn.ValidRow`) the test holds everywhere, so the fill never happens. Laws used: every element of the column of
  wrapped row numbers is the wrap of some atom's number, which lies in `[0, 9999]`; a reduction by `and` from 1 over
  elements that are all 1 is 1, whichever axis is reduced; a broadcast of an all-ones vector is all ones.
-/
import proofs.«429968_j5119601017308_1_alg».proof.Proof.Gen.KernelIdeal
import proofs.«429968_j5119601017308_1_alg».proof.Proof.RowRange
import Idealize.ShloMosaic.Lib.ValueIdx
import Idealize.ShloMosaic.Lib.ValueLayout
import Idealize.ShloMosaic.Lib.Pipeline.Value
import Idealize.ShloMosaic.Lib.ReduceAll
import Idealize.ShloMosaic.Lib.StableHlo.Predicate

noncomputable section

namespace Cert.KernelIdeal.Take

open Cert.KernelIdeal Cert.KernelIdeal.Gen Idealize.ShloMosaic Idealize.ShloMosaic.ValueIdx

/-- The wrapped row numbers as a column `[8192, 1]`. -/
def ids (fp : IVec S8192 32) : IVec S8192x1 32 :=
  broadcastInDim S8192x1 ![0] bcast_S8192_S8192x1_0
    (select (cmpi .slt fp (broadcastInDim S8192 ![] bcast_S_S8192 (constantI S_ 32 0#32)))
      (addi fp (broadcastInDim S8192 ![] bcast_S_S8192 (constantI S_ 32 10000#32))) fp)

/-- "Row `t`'s number lies inside the table", for every column of row `t`. -/
def inTable (fp : IVec S8192 32) : IVec S8192x64 1 :=
  broadcastInDim S8192x64 ![0] bcast_S8192_S8192x64_0
    (Host.reduce IntOp.andi
      (andi (cmpi .sge (ids fp) (broadcastInDim S8192x1 ![] bcast_S_S8192x1 (constantI S_ 32 0#32)))
        (cmpi .sle (ids fp) (broadcastInDim S8192x1 ![0, 1] bcast_S1x1_S8192x1_0_1
          (broadcastInDim S1x1 ![1] bcast_S1_S1x1_1 (constantI S1 32 9999#32)))))
      (constantI S_ 1 1#1) reducesTo_S8192x1_S8192_d1 h_S_)

/-- A left fold by `and` from 1 over words that are all 1 is 1. -/
private theorem foldl_andi_one {ι : Type} (f : ι → BitVec 1) (l : List ι) (h : ∀ n ∈ l, f n = 1#1) :
    l.foldl (fun r n => IntOp.andi r (f n)) 1#1 = 1#1 := by
  induction l with
  | nil => rfl
  | cons a l ih =>
    have e : IntOp.andi (1#1 : BitVec 1) 1#1 = 1#1 := by decide
    rw [List.foldl_cons, h a List.mem_cons_self, e]
    exact ih (fun n hn => h n (List.mem_cons_of_mem _ hn))

/-- A reduction by `and` from the initial value 1 is 1 at `j` when every operand element that reduces into `j` is 1
    (whatever the reduced axes are). -/
private theorem reduce_andi_one {s t u : Shape} {axes : List (Fin s.rank)} (x : s.Idx → BitVec 1) (hr : s.ReducesTo axes t)
    (hu : 0 < u.numel) (j : t.Idx) (hx : ∀ i, hr.drop i = j → x i = 1#1) :
    Host.reduce IntOp.andi x (constantI u 1 1#1) hr hu j = 1#1 := by
  rw [Host.reduce_eq_foldl]
  refine foldl_andi_one x _ (fun n hn => hx n ?_)
  have hn' := (List.mem_filter.1 hn).2
  exact of_decide_eq_true hn'

/-- Every element of the column `ids fp` is the wrapped row number of some atom: the column is a broadcast of the
    per-atom select, and a broadcast reads its operand. -/
private theorem ids_eq_wrapRow (fp : IVec S8192 32) (j : S8192x1.Idx) : ∃ k : S8192.Idx, ids fp j = Cert.Gnn.wrapRow (fp k) :=
  ⟨_, rfl⟩

/-- The test before the reduction holds at every element of the column. -/
private theorem test_true (fp : IVec S8192 32) (h : ∀ t : S8192.Idx, Cert.Gnn.ValidRow (fp t)) (j : S8192x1.Idx) :
    andi (cmpi .sge (ids fp) (broadcastInDim S8192x1 ![] bcast_S_S8192x1 (constantI S_ 32 0#32)))
      (cmpi .sle (ids fp) (broadcastInDim S8192x1 ![0, 1] bcast_S1x1_S8192x1_0_1
        (broadcastInDim S1x1 ![1] bcast_S1_S1x1_1 (constantI S1 32 9999#32)))) j = 1#1 := by
  obtain ⟨k, hk⟩ := ids_eq_wrapRow fp j
  show IntOp.andi (IntOp.cmpi .sge (ids fp j) 0#32) (IntOp.cmpi .sle (ids fp j) 9999#32) = 1#1
  rw [hk]
  exact IntOp.andi_eq_one.2 ⟨Cert.Gnn.wrapRow_ge _ (h k), Cert.Gnn.wrapRow_le _ (h k)⟩

/-- On valid row numbers the test holds at every row and column. -/
theorem inTable_true (fp : IVec S8192 32) (h : ∀ t : S8192.Idx, Cert.Gnn.ValidRow (fp t)) :
    inTable fp = fun _ => 1#1 := by
  funext i
  -- the outer broadcast reads the reduced vector at the row of `i`; the reduced vector is 1 at every row
  exact reduce_andi_one _ reducesTo_S8192x1_S8192_d1 h_S_ _ (fun j _ => test_true fp h j)

/-- A select whose condition holds everywhere is its first operand. -/
theorem select_all_true {α : Type} {s : Shape} (a b : s.Idx → α) : select (fun _ : s.Idx => 1#1) a b = a := by
  funext i; exact select_one _ _

end Cert.KernelIdeal.Take

end
-- ==== Proof.LayerSpec.lean ====
/-
  One message-passing layer, as a function of the adjacency matrix `A : [8192, 8192]` and the node features
  `h : [8192, 64]`, on the extended reals:

      mix(r, j)   = h(r, j) + Σ_k A(r, k) · h(k, j)                 (a node's own features plus its neighbours')
      floor(r)    = max( √( Σ_j mix(r, j)² ), ε )                   (the row's Euclidean norm, kept away from 0)
      layer(r, j) = mix(r, j) / floor(r)                            (the row scaled to unit length)

  with ε the number the f32 word 0x2B8CBCCC encodes (the source's 1e-12). Both programs compute exactly this
  per layer, in this order of operations; no law of the extended reals is needed to join them, only the reading of
  each side's operations at an index.
-/
import Idealize.ShloMosaic.PureOps.Ideal
import Idealize.ShloMosaic.Lib.ValueIdx

noncomputable section

open scoped BigOperators

namespace Cert.Gnn

open Idealize.ShloMosaic Idealize.ShloMosaic.ValueIdx

/-- The adjacency matrix's shape. -/
abbrev SA : Shape := ⟨2, ![8192, 8192]⟩
/-- The node features' shape. -/
abbrev SH : Shape := ⟨2, ![8192, 64]⟩

/-- A node's features plus the adjacency-weighted sum of all nodes' features: `h + A·h` at `(r, j)`. -/
def mix (A : SA.Idx → EReal) (h : SH.Idx → EReal) (r : Fin 8192) (j : Fin 64) : EReal :=
  h (ix2 r j) + ∑ k : Fin 8192, A (ix2 r k) * h (ix2 k j)

/-- Row `r`'s Euclidean norm, floored at ε. -/
def floorNorm (A : SA.Idx → EReal) (h : SH.Idx → EReal) (r : Fin 8192) : EReal :=
  max (Ideal.sqrt (∑ j : Fin 64, mix A h r j * mix A h r j)) (Ideal.ofBits .f32 0x2B8CBCCC#32)

/-- The layer's result at `(r, j)`. -/
def layerAt (A : SA.Idx → EReal) (h : SH.Idx → EReal) (r : Fin 8192) (j : Fin 64) : EReal :=
  Ideal.div (mix A h r j) (floorNorm A h r)

/-- The layer's result as an array. -/
def layer (A : SA.Idx → EReal) (h : SH.Idx → EReal) : SH.Idx → EReal :=
  fun i => layerAt A h ⟨(i 0).val, idx2_lt0 i⟩ ⟨(i 1).val, idx2_lt1 i⟩

/-- At an index given by its coordinates the array reads the pointwise formula. -/
theorem layer_ix2 (A : SA.Idx → EReal) (h : SH.Idx → EReal) (r : Fin 8192) (j : Fin 64) :
    layer A h (ix2 r j) = layerAt A h r j := rfl

/-- An array that reads the pointwise formula at every pair of coordinates is the layer's result. -/
theorem eq_layer (A : SA.Idx → EReal) (h : SH.Idx → EReal) (x : SH.Idx → EReal)
    (hx : ∀ (r : Fin 8192) (j : Fin 64), x (ix2 r j) = layerAt A h r j) : x = layer A h := by
  funext i
  obtain ⟨r, j, rfl⟩ : ∃ (r : Fin 8192) (j : Fin 64), i = ix2 r j := ⟨i 0, i 1, eq_ix2 i⟩
  exact hx r j

end Cert.Gnn

end
-- ==== Proof.RegionValue0.lean ====
/-
  What the first pallas_call leaves in its output array: the layer of the arrays it was entered with. Grid point `t`
  handles rows `256·t … 256·t + 255`: it multiplies the adjacency matrix's rows of that block by all of `h`, adds the block's own rows of
  `h`, and scales each row by the larger of its norm and ε; the 32 blocks tile the array.

  The body's one store covers the output's block, so the block after the body is the store's payload over the three
  loads: the adjacency block, the whole features, and the features' 256 rows from row `256·t`. At `(p, q)` the payload is
  `m(p, q) / max(√(Σ_j m(p, j)²), ε)` with `m(p, q) = h'(p, q) + Σ_k a(p, k) · h(k, q)` over the loaded blocks `a`, `h`, `h'`: the
  format changes are the identity on the extended reals, the matmul into the zero accumulator is the sum over the
  contracted axis, the lane sum is the sum over the 64 columns, and the column cast and broadcast repeat a row's norm
  along the row. Read through the windows' rectangles the loads are rows `256·t + p` of the adjacency matrix, the
  features themselves, and rows `256·t + p` of the features; so the payload at `(p, q)` is the layer at
  `(256·t + p, q)`, which is what block `t` of the layer reads there. Row `r` of the array lies in the block of point
  `r / 256`, and every point writes its block back. No law of the extended reals is used: both sides are the same
  expression of the same entries.
-/
import proofs.«429968_j5119601017308_1_alg».proof.Proof.Gen.KernelIdeal.Frame
import proofs.«429968_j5119601017308_1_alg».proof.Proof.LayerSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.ShloMosaic.ValueIdx
open Idealize.SL.Sem Idealize.ShloMosaic.Pipeline

variable {F : FTy → Type} [FloatOps F]

/-! ## What the body's one store leaves -/

private theorem hzero : (![0, 0] : Fin 2 → Nat) = fun _ => 0 := funext fun a => by fin_cases a <;> rfl

/-- The rows of the features the body loads beside the whole array: 256 rows from the point's row offset. -/
private abbrev rows0 (i : grid0.Coords) (x1 : Vec F S8192x64 .f32) : Vec F S256x64 .f32 :=
  View.ld x1 (Rect.unit (s := S8192x64) (k0_off1 i) S256x64.size (k0_off1_inb i))

/-- The output's staging buffer after the body: the payload of its one covering store, over the adjacency block, the
    whole features and the features' rows at the point's offset. -/
private theorem piece0 (c : Dev nD) (i : grid0.Coords) (a1 : Memref sig .tc .vmem S256x8192 .f32) (h1 : a1.IsWhole)
    (a2 : Memref sig .tc .vmem S8192x64 .f32) (h2 : a2.IsWhole) (a3 : Memref sig .tc .vmem S256x64 .f32) (h3 : a3.IsWhole)
    (x0 : Vec F S256x8192 .f32) (x1 : Vec F S8192x64 .f32) :
    out0_A_2 c i a1 h1 a2 h2 a3 h3 x0 x1 = k0_pay1 x0 x1 (rows0 i x1) := by
  unfold out0_A_2
  rw [View.read_writes_eq_canon _ _ _ (cover0_A_2 c i a1 h1 a2 h2 a3 h3 x0 x1)]
  unfold kernelRun0_A
  dsimp only
  sl_unfold_words
  rw [View.canon_unit_zero hzero]
  simp only [View.readAt_eq_ld, h1.read_unread, h2.read_unread, View.ld_unit_zero (S := S256x8192) hzero,
    View.ld_unit_zero (S := S8192x64) hzero]
  rfl

/-! ## The payload at an index -/

section Columns
variable {α : Type}

/-- An `[a]` array cast to the column `[a, 1]` reads, at `(i, u)`, the operand at `i`. -/
private theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
private theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-- The left operand's index at output `i` and contraction position `q`: row `i 0`, … -/
private theorem lhsRow0 (i : S256x64.Idx) (q : dot_S256x8192_S8192x64_S256x64_1_0_0_1_n_n.contr.Idx) :
    (dot_S256x8192_S8192x64_S256x64_1_0_0_1_n_n.lhsIdx i q 0).val = (i 0).val := by
  unfold DotDims.lhsIdx
  rw [dif_neg (show ¬(0 : Fin S256x8192.rank) ∈ dot_S256x8192_S8192x64_S256x64_1_0_0_1_n_n.lhsBatch by decide),
    dif_pos (show (0 : Fin S256x8192.rank) ∈ dot_S256x8192_S8192x64_S256x64_1_0_0_1_n_n.lhsNonContracting by decide)]
  rfl
/-- … column `q`. -/
private theorem lhsCon0 (i : S256x64.Idx) (q : dot_S256x8192_S8192x64_S256x64_1_0_0_1_n_n.contr.Idx) :
    (dot_S256x8192_S8192x64_S256x64_1_0_0_1_n_n.lhsIdx i q 1).val = (q ⟨0, by decide⟩).val :=
  dot_S256x8192_S8192x64_S256x64_1_0_0_1_n_n.lhsIdx_val_of_single rfl i q
/-- The right operand's index: row `q`, … -/
private theorem rhsCon0 (i : S256x64.Idx) (q : dot_S256x8192_S8192x64_S256x64_1_0_0_1_n_n.contr.Idx) :
    (dot_S256x8192_S8192x64_S256x64_1_0_0_1_n_n.rhsIdx i q 0).val = (q ⟨0, by decide⟩).val :=
  dot_S256x8192_S8192x64_S256x64_1_0_0_1_n_n.rhsIdx_val_of_single rfl i q
/-- … column `i 1`. -/
private theorem rhsCol0 (i : S256x64.Idx) (q : dot_S256x8192_S8192x64_S256x64_1_0_0_1_n_n.contr.Idx) :
    (dot_S256x8192_S8192x64_S256x64_1_0_0_1_n_n.rhsIdx i q 1).val = (i 1).val := by
  unfold DotDims.rhsIdx
  rw [dif_neg (show ¬(1 : Fin S8192x64.rank) ∈ dot_S256x8192_S8192x64_S256x64_1_0_0_1_n_n.rhsBatch by decide),
    dif_pos (show (1 : Fin S8192x64.rank) ∈ dot_S256x8192_S8192x64_S256x64_1_0_0_1_n_n.rhsNonContracting by decide)]
  rfl

/-- The matmul into the zero accumulator, at `(p, q)`: the sum over the contracted axis of row `p` of the left
    operand times column `q` of the right. -/
private theorem matmul0_apply (l : FVec Ideal S256x8192 .bf16) (r : FVec Ideal S8192x64 .bf16) (p : Fin 256) (q : Fin 64) :
    matmul dot_S256x8192_S8192x64_S256x64_1_0_0_1_n_n none l r (constant (F := Ideal) S256x64 .f32 0x00000000#32) (ix2 p q)
      = ∑ k : Fin 8192, l (ix2 p k) * r (ix2 k q) := by
  simp only [matmul]
  rw [Ideal.matmul_constant_zero_apply,
    ← Equiv.sum_comp (contrEquiv1 dot_S256x8192_S8192x64_S256x64_1_0_0_1_n_n 8192 rfl rfl).symm]
  refine Finset.sum_congr rfl fun k _ => ?_
  have hk := contrEquiv1_symm_val dot_S256x8192_S8192x64_S256x64_1_0_0_1_n_n 8192 rfl rfl k
  have el : dot_S256x8192_S8192x64_S256x64_1_0_0_1_n_n.lhsIdx (ix2 p q)
      ((contrEquiv1 dot_S256x8192_S8192x64_S256x64_1_0_0_1_n_n 8192 rfl rfl).symm k) = ix2 p k :=
    funext fun a => Fin.ext (by
      match a with
      | ⟨0, _⟩ => exact lhsRow0 _ _
      | ⟨1, _⟩ => exact (lhsCon0 _ _).trans hk)
  have er : dot_S256x8192_S8192x64_S256x64_1_0_0_1_n_n.rhsIdx (ix2 p q)
      ((contrEquiv1 dot_S256x8192_S8192x64_S256x64_1_0_0_1_n_n 8192 rfl rfl).symm k) = ix2 k q :=
    funext fun a => Fin.ext (by
      match a with
      | ⟨0, _⟩ => exact (rhsCon0 _ _).trans hk
      | ⟨1, _⟩ => exact rhsCol0 _ _)
  rw [el, er]

/-- A row of the block's own features plus the block's rows of the adjacency matrix times the features, as the body
    adds them. -/
private abbrev mixB0 (v2 : Vec Ideal S256x8192 .f32) (v4 : Vec Ideal S8192x64 .f32) (v9 : Vec Ideal S256x64 .f32)
    (p : Fin 256) (q : Fin 64) : EReal :=
  v9 (ix2 p q) + ∑ k : Fin 8192, v2 (ix2 p k) * v4 (ix2 k q)

/-- The body's sum of the block's own rows and the matmul, at `(p, q)`: the format changes are the identity on the
    extended reals and the same-shape casts change nothing. -/
private theorem mix0_apply (v2 : Vec Ideal S256x8192 .f32) (v4 : Vec Ideal S8192x64 .f32) (v9 : Vec Ideal S256x64 .f32)
    (h1 : S256x64.ShapeCasts S256x64) (h2 : S8192x64.ShapeCasts S8192x64) (hb : FTy.bits .bf16 < FTy.bits .f32)
    (p : Fin 256) (q : Fin 64) :
    addf (shapeCast S256x64 v9 h1)
        (matmul dot_S256x8192_S8192x64_S256x64_1_0_0_1_n_n none (truncf .bf16 v2 hb)
          (truncf .bf16 (shapeCast S8192x64 v4 h2) hb) (constant (F := Ideal) S256x64 .f32 0x00000000#32)) (ix2 p q)
      = mixB0 v2 v4 v9 p q := by
  rw [shapeCast_self, shapeCast_self]
  refine (addf_apply _ _ _).trans ?_
  exact congrArg (v9 (ix2 p q) + ·) (matmul0_apply _ _ p q)

/-- The index the lane sum reads at reduced index `p` and lane `j` is `(p, j)`. -/
private theorem lift0 (h : S256x64.Reduces [1] S256) (p : Fin 256) (j : Fin 64) : h.lift (ix1 p) j = ix2 p j :=
  funext fun a => Fin.ext (by
    match a with
    | ⟨0, _⟩ => rfl
    | ⟨1, _⟩ => rfl)

/-- The body's payload at `(p, q)`: the mixed row scaled by the larger of its Euclidean norm and ε. -/
private theorem pay0_apply (v2 : Vec Ideal S256x8192 .f32) (v4 : Vec Ideal S8192x64 .f32) (v9 : Vec Ideal S256x64 .f32)
    (p : Fin 256) (q : Fin 64) :
    k0_pay1 (F := Ideal) v2 v4 v9 (ix2 p q)
      = Ideal.div (mixB0 v2 v4 v9 p q)
          (max (Ideal.sqrt (∑ j : Fin 64, mixB0 v2 v4 v9 p j * mixB0 v2 v4 v9 p j)) (Ideal.ofBits .f32 0x2B8CBCCC#32)) := by
  unfold k0_pay1
  dsimp only
  refine (divf_apply _ _ _).trans ?_
  refine congrArg₂ Ideal.div (mix0_apply v2 v4 v9 _ _ _ p q) ?_
  refine (broadcastTo_a1_ab_apply _ _ p q).trans ?_
  refine (maximumf_apply _ _ _).trans ?_
  refine congrArg₂ max ?_ rfl
  show Ideal.sqrt _ = Ideal.sqrt _
  refine congrArg Ideal.sqrt ?_
  refine (shapeCast_a_a1_apply _ _ p 0).trans ?_
  refine (Ideal.multiReduction_add_single _ _ _ _ _ _).trans ?_
  show ∑ j : Fin 64, _ = _
  refine Finset.sum_congr rfl fun j _ => ?_
  rw [lift0]
  refine (mulf_apply _ _ _).trans ?_
  rw [mix0_apply]

/-! ## The blocks a point reads, as entries of the region-entry arrays -/

section Blocks
variable (V : (c : Dev nD) → (b : Ref sig .tc) → Buf (Elt Ideal) ((c : Thread nD τ).loc b))

/-- The adjacency matrix as the region finds it. -/
private abbrev adj0 (c : Dev nD) : Cert.Gnn.SA.Idx → EReal := V c (Pipeline.arrRef spec0 0)
/-- The features as the region finds them. -/
private abbrev feat0 (c : Dev nD) : Cert.Gnn.SH.Idx → EReal := V c (Pipeline.arrRef spec0 1)
/-- Point `t`'s block of the adjacency matrix: 256 of its rows. -/
private abbrev ablk0 (c : Dev nD) (t : Fin cfg0.N) : Vec Ideal S256x8192 .f32 := iblk0 V c 0 t
/-- Point `t`'s block of the features: the whole array. -/
private abbrev hblk0 (c : Dev nD) (t : Fin cfg0.N) : Vec Ideal S8192x64 .f32 := iblk0 V c 1 t

/-- The printed index maps and the body's row offset, decided once over the grid: the adjacency and output blocks
    are block row `t`, the features' block never moves, and the body's extra load starts at row `256·t`. -/
private theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ k0_off1 (grid0.coords t) 0 = 256 * t.val ∧ k0_off1 (grid0.coords t) 1 = 0 :=
  (by decide +kernel : ∀ t : Fin grid0.N, _)

/-- Entry `(p, k)` of point `t`'s adjacency block is entry `(256·t + p, k)` of the matrix. -/
private theorem ablk0_apply (c : Dev nD) (t : Fin cfg0.N) (p : Fin 256) (k : Fin 8192) (r : Fin 8192)
    (hr : r.val = 256 * t.val + p.val) : ablk0 V c t (ix2 p k) = adj0 V c (ix2 r k) := by
  obtain ⟨e0, e1, -⟩ := idx0 t
  show V c (Pipeline.arrRef spec0 0) (((cfg0.win 0).blk t).view.emb (ix2 p k)) = V c (Pipeline.arrRef spec0 0) (ix2 r k)
  refine congrArg _ (funext fun a => Fin.ext ?_)
  match a with
  | ⟨0, _⟩ => show win0_0.index t (0 : Fin 2) * 256 + 1 * p.val = r.val; omega
  | ⟨1, _⟩ => show win0_0.index t (1 : Fin 2) * 8192 + 1 * k.val = k.val; omega

/-- Point `t`'s block of the features is the features. -/
private theorem hblk0_apply (c : Dev nD) (t : Fin cfg0.N) (k : Fin 8192) (q : Fin 64) :
    hblk0 V c t (ix2 k q) = feat0 V c (ix2 k q) := by
  obtain ⟨-, -, e0, e1, -⟩ := idx0 t
  show V c (Pipeline.arrRef spec0 1) (((cfg0.win 1).blk t).view.emb (ix2 k q)) = V c (Pipeline.arrRef spec0 1) (ix2 k q)
  refine congrArg _ (funext fun a => Fin.ext ?_)
  match a with
  | ⟨0, _⟩ => show win0_1.index t (0 : Fin 2) * 8192 + 1 * k.val = k.val; omega
  | ⟨1, _⟩ => show win0_1.index t (1 : Fin 2) * 64 + 1 * q.val = q.val; omega

/-- The rows the body loads at its offset, at point `t`: rows `256·t + p` of what the features' buffer holds. -/
private theorem rows0_apply (t : Fin cfg0.N) (x1 : Vec Ideal S8192x64 .f32) (p : Fin 256) (q : Fin 64) (r : Fin 8192)
    (hr : r.val = 256 * t.val + p.val) : rows0 (grid0.coords t) x1 (ix2 p q) = x1 (ix2 r q) := by
  obtain ⟨-, -, -, -, -, -, e0, e1⟩ := idx0 t
  show x1 _ = x1 _
  refine congrArg x1 (funext fun a => Fin.ext ?_)
  match a with
  | ⟨0, _⟩ => show k0_off1 (grid0.coords t) 0 + 1 * p.val = r.val; omega
  | ⟨1, _⟩ => show k0_off1 (grid0.coords t) 1 + 1 * q.val = q.val; omega

end Blocks

/-! ## What a point writes back, and the array -/

section Region
variable (V : (c : Dev nD) → (b : Ref sig .tc) → Buf (Elt Ideal) ((c : Thread nD τ).loc b))

/-- The body's mixed row over point `t`'s blocks is the layer's mixed row `256·t + p` of the arrays. -/
private theorem mix0_eq (c : Dev nD) (t : Fin cfg0.N) (p : Fin 256) (r : Fin 8192) (hr : r.val = 256 * t.val + p.val)
    (j : Fin 64) :
    mixB0 (ablk0 V c t) (hblk0 V c t) (rows0 (grid0.coords t) (hblk0 V c t)) p j
      = Cert.Gnn.mix (adj0 V c) (feat0 V c) r j := by
  unfold mixB0 Cert.Gnn.mix
  rw [rows0_apply t (hblk0 V c t) p j r hr, hblk0_apply V c t r j]
  refine congrArg (feat0 V c (ix2 r j) + ·) (Finset.sum_congr rfl fun k _ => ?_)
  rw [ablk0_apply V c t p k r hr, hblk0_apply V c t k j]

/-- After the body at point `t` the output's staging buffer holds, at `(p, q)`, the layer at `(256·t + p, q)`. -/
private theorem block0_apply (c : Dev nD) (t : Fin cfg0.N) (p : Fin 256) (q : Fin 64) (r : Fin 8192)
    (hr : r.val = 256 * t.val + p.val) :
    outsAt0 (F := Ideal) V c t (ix2 p q) = Cert.Gnn.layerAt (adj0 V c) (feat0 V c) r q := by
  unfold outsAt0
  refine (congrFun (piece0 (F := Ideal) c (grid0.coords t) (ms0_0 t) (hs0_0 t) (ms0_1 t) (hs0_1 t) (ms0_2 t) (hs0_2 t)
    (ablk0 V c t) (hblk0 V c t)) (ix2 p q)).trans ?_
  refine (pay0_apply (ablk0 V c t) (hblk0 V c t) (rows0 (grid0.coords t) (hblk0 V c t)) p q).trans ?_
  unfold Cert.Gnn.layerAt Cert.Gnn.floorNorm
  simp only [mix0_eq V c t p r hr]

/-- What point `t` writes back is block `t` of the layer of the region-entry arrays. -/
private theorem flushed0_eq (c : Dev nD) (t : Fin cfg0.N) :
    (dat0 (F := Ideal) V c).flushed 2 t
      = ((cfg0.win 2).blk t).view.read (Elt Ideal) (Cert.Gnn.layer (adj0 V c) (feat0 V c)) := by
  show (cfg0.win 2).cut (grid0.coords t) ((dat0 V c).after 2 t) = _
  rw [after0_2]
  funext j
  have hN : cfg0.N = 32 := N_0
  have ht : t.val < 32 := hN ▸ t.isLt
  have hp : (j 0).val < 256 := Nat.lt_of_lt_of_le (j 0).isLt (win0_2.xsize_le (grid0.coords t) 0)
  have hq : (j 1).val < 64 := Nat.lt_of_lt_of_le (j 1).isLt (win0_2.xsize_le (grid0.coords t) 1)
  obtain ⟨-, -, -, -, e0, e1, -⟩ := idx0 t
  have ej : (cfg0.win 2).xinj (grid0.coords t) j = ix2 (⟨(j 0).val, hp⟩ : Fin 256) (⟨(j 1).val, hq⟩ : Fin 64) :=
    funext fun a => Fin.ext (by
      match a with
      | ⟨0, _⟩ => rfl
      | ⟨1, _⟩ => rfl)
  have ei : ((cfg0.win 2).blk t).view.emb j
      = ix2 (⟨256 * t.val + (j 0).val, by omega⟩ : Fin 8192) (⟨(j 1).val, hq⟩ : Fin 64) :=
    funext fun a => Fin.ext (by
      match a with
      | ⟨0, _⟩ => show win0_2.index t (0 : Fin 2) * 256 + 1 * (j 0).val = 256 * t.val + (j 0).val; omega
      | ⟨1, _⟩ => show win0_2.index t (1 : Fin 2) * 64 + 1 * (j 1).val = (j 1).val; omega)
  show outsAt0 V c t ((cfg0.win 2).xinj (grid0.coords t) j)
    = Cert.Gnn.layer (adj0 V c) (feat0 V c) (((cfg0.win 2).blk t).view.emb j)
  rw [ej, ei, Cert.Gnn.layer_ix2]
  exact block0_apply V c t _ _ _ rfl

end Region

/-! ## The blocks tile the array -/

/-- An index of the array is in point `t`'s block iff each coordinate is in the block's range on its axis. -/
private theorem mem_blk0 (t : Fin cfg0.N) (i : S8192x64.Idx) :
    i ∈ ((cfg0.win 2).blk t).view.set ↔ ∀ a : Fin 2, win0_2.index t a * S256x64.size a ≤ (i a).val
      ∧ (i a).val < win0_2.index t a * S256x64.size a + win0_2.xsize (grid0.coords t) a := by
  show i ∈ ((View.whole (Pipeline.arrRef spec0 2)).slice (win0_2.rect t)).set ↔ _
  rw [View.set_slice_whole, Rect.mem_set_unit]
  exact Iff.rfl

/-- The output's block index and extents, decided once over the grid: block row `t`, 256 rows by 64 columns. -/
private theorem idxc0 : ∀ t : Fin cfg0.N,
    win0_2.index t (0 : Fin 2) = t.val ∧ win0_2.index t (1 : Fin 2) = 0
    ∧ win0_2.xsize (grid0.coords t) (0 : Fin 2) = 256 ∧ win0_2.xsize (grid0.coords t) (1 : Fin 2) = 64 :=
  (by decide +kernel : ∀ t : Fin grid0.N, _)

/-- Every index of the output array lies in the block of the point its row falls to, and that point writes back. -/
private theorem cover0 (c : Dev nD) :
    ∀ i : ((cfg0.win 2).arr.view.loc (c.tc : Thread nD τ)).2.ty.Idx,
      ∃ t : Fin cfg0.N, (cfg0.win 2).flush t = true ∧ i ∈ ((cfg0.win 2).blk t).view.set := by
  intro i
  have hN : cfg0.N = 32 := N_0
  have h0 : (i 0).val < 8192 := (i 0).isLt
  have h1 : (i 1).val < 64 := (i 1).isLt
  refine ⟨⟨(i 0).val / 256, by rw [hN]; omega⟩, flush0_2 _, ?_⟩
  rw [mem_blk0]
  obtain ⟨e0, e1, e2, e3⟩ := idxc0 ⟨(i 0).val / 256, by rw [hN]; omega⟩
  intro a
  match a with
  | ⟨0, _⟩ =>
    show win0_2.index _ (0 : Fin 2) * 256 ≤ (i 0).val
      ∧ (i 0).val < win0_2.index _ (0 : Fin 2) * 256 + win0_2.xsize _ (0 : Fin 2)
    rw [e0, e2]; dsimp only; omega
  | ⟨1, _⟩ =>
    show win0_2.index _ (1 : Fin 2) * 64 ≤ (i 1).val
      ∧ (i 1).val < win0_2.index _ (1 : Fin 2) * 64 + win0_2.xsize _ (1 : Fin 2)
    rw [e1, e3]; omega

/-- The output array after region 0's last point is the layer of the region-entry adjacency matrix (window 0's array)
    and features (window 1's array). -/
theorem region0 (V : (c : Dev nD) → (b : Ref sig .tc) → Buf (Elt Ideal) ((c : Thread nD τ).loc b)) (c : Dev nD) :
    ((dat0 (F := Ideal) V c).arrAt 2 cfg0.N : Cert.Gnn.SH.Idx → EReal)
      = Cert.Gnn.layer (V c (Pipeline.arrRef spec0 0)) (V c (Pipeline.arrRef spec0 1)) :=
  (dat0 (F := Ideal) V c).arrAt_eq_of_cover 2 (Cert.Gnn.layer (adj0 V c) (feat0 V c))
    (fun t _ => flushed0_eq V c t) (cover0 c)

end Cert.KernelIdeal.RegionValue

end
-- ==== Proof.RegionValue1.lean ====
/-
  What the second pallas_call leaves in its output array: the layer of the arrays it was entered with. Grid point `t`
  handles rows `256·t … 256·t + 255`: it multiplies the adjacency matrix's rows of that block by all of `h`, adds the block's own rows of
  `h`, and scales each row by the larger of its norm and ε; the 32 blocks tile the array.

  The body's one store covers the output's block, so the block after the body is the store's payload over the three
  loads: the adjacency block, the whole features, and the features' 256 rows from row `256·t`. At `(p, q)` the payload is
  `m(p, q) / max(√(Σ_j m(p, j)²), ε)` with `m(p, q) = h'(p, q) + Σ_k a(p, k) · h(k, q)` over the loaded blocks `a`, `h`, `h'`: the
  format changes are the identity on the extended reals, the matmul into the zero accumulator is the sum over the
  contracted axis, the lane sum is the sum over the 64 columns, and the column cast and broadcast repeat a row's norm
  along the row. Read through the windows' rectangles the loads are rows `256·t + p` of the adjacency matrix, the
  features themselves, and rows `256·t + p` of the features; so the payload at `(p, q)` is the layer at
  `(256·t + p, q)`, which is what block `t` of the layer reads there. Row `r` of the array lies in the block of point
  `r / 256`, and every point writes its block back. No law of the extended reals is used: both sides are the same
  expression of the same entries.
-/
import proofs.«429968_j5119601017308_1_alg».proof.Proof.Gen.KernelIdeal.Frame
import proofs.«429968_j5119601017308_1_alg».proof.Proof.LayerSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.ShloMosaic.ValueIdx
open Idealize.SL.Sem Idealize.ShloMosaic.Pipeline

variable {F : FTy → Type} [FloatOps F]

/-! ## What the body's one store leaves -/

private theorem hzero : (![0, 0] : Fin 2 → Nat) = fun _ => 0 := funext fun a => by fin_cases a <;> rfl

/-- The rows of the features the body loads beside the whole array: 256 rows from the point's row offset. -/
private abbrev rows1 (i : grid1.Coords) (x1 : Vec F S8192x64 .f32) : Vec F S256x64 .f32 :=
  View.ld x1 (Rect.unit (s := S8192x64) (k1_off1 i) S256x64.size (k1_off1_inb i))

/-- The output's staging buffer after the body: the payload of its one covering store, over the adjacency block, the
    whole features and the features' rows at the point's offset. -/
private theorem piece1 (c : Dev nD) (i : grid1.Coords) (a1 : Memref sig .tc .vmem S256x8192 .f32) (h1 : a1.IsWhole)
    (a2 : Memref sig .tc .vmem S8192x64 .f32) (h2 : a2.IsWhole) (a3 : Memref sig .tc .vmem S256x64 .f32) (h3 : a3.IsWhole)
    (x0 : Vec F S256x8192 .f32) (x1 : Vec F S8192x64 .f32) :
    out1_A_2 c i a1 h1 a2 h2 a3 h3 x0 x1 = k1_pay1 x0 x1 (rows1 i x1) := by
  unfold out1_A_2
  rw [View.read_writes_eq_canon _ _ _ (cover1_A_2 c i a1 h1 a2 h2 a3 h3 x0 x1)]
  unfold kernelRun1_A
  dsimp only
  sl_unfold_words
  rw [View.canon_unit_zero hzero]
  simp only [View.readAt_eq_ld, h1.read_unread, h2.read_unread, View.ld_unit_zero (S := S256x8192) hzero,
    View.ld_unit_zero (S := S8192x64) hzero]
  rfl

/-! ## The payload at an index -/

section Columns
variable {α : Type}

/-- An `[a]` array cast to the column `[a, 1]` reads, at `(i, u)`, the operand at `i`. -/
private theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
private theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-- The left operand's index at output `i` and contraction position `q`: row `i 0`, … -/
private theorem lhsRow1 (i : S256x64.Idx) (q : dot_S256x8192_S8192x64_S256x64_1_0_0_1_n_n.contr.Idx) :
    (dot_S256x8192_S8192x64_S256x64_1_0_0_1_n_n.lhsIdx i q 0).val = (i 0).val := by
  unfold DotDims.lhsIdx
  rw [dif_neg (show ¬(0 : Fin S256x8192.rank) ∈ dot_S256x8192_S8192x64_S256x64_1_0_0_1_n_n.lhsBatch by decide),
    dif_pos (show (0 : Fin S256x8192.rank) ∈ dot_S256x8192_S8192x64_S256x64_1_0_0_1_n_n.lhsNonContracting by decide)]
  rfl
/-- … column `q`. -/
private theorem lhsCon1 (i : S256x64.Idx) (q : dot_S256x8192_S8192x64_S256x64_1_0_0_1_n_n.contr.Idx) :
    (dot_S256x8192_S8192x64_S256x64_1_0_0_1_n_n.lhsIdx i q 1).val = (q ⟨0, by decide⟩).val :=
  dot_S256x8192_S8192x64_S256x64_1_0_0_1_n_n.lhsIdx_val_of_single rfl i q
/-- The right operand's index: row `q`, … -/
private theorem rhsCon1 (i : S256x64.Idx) (q : dot_S256x8192_S8192x64_S256x64_1_0_0_1_n_n.contr.Idx) :
    (dot_S256x8192_S8192x64_S256x64_1_0_0_1_n_n.rhsIdx i q 0).val = (q ⟨0, by decide⟩).val :=
  dot_S256x8192_S8192x64_S256x64_1_0_0_1_n_n.rhsIdx_val_of_single rfl i q
/-- … column `i 1`. -/
private theorem rhsCol1 (i : S256x64.Idx) (q : dot_S256x8192_S8192x64_S256x64_1_0_0_1_n_n.contr.Idx) :
    (dot_S256x8192_S8192x64_S256x64_1_0_0_1_n_n.rhsIdx i q 1).val = (i 1).val := by
  unfold DotDims.rhsIdx
  rw [dif_neg (show ¬(1 : Fin S8192x64.rank) ∈ dot_S256x8192_S8192x64_S256x64_1_0_0_1_n_n.rhsBatch by decide),
    dif_pos (show (1 : Fin S8192x64.rank) ∈ dot_S256x8192_S8192x64_S256x64_1_0_0_1_n_n.rhsNonContracting by decide)]
  rfl

/-- The matmul into the zero accumulator, at `(p, q)`: the sum over the contracted axis of row `p` of the left
    operand times column `q` of the right. -/
private theorem matmul1_apply (l : FVec Ideal S256x8192 .bf16) (r : FVec Ideal S8192x64 .bf16) (p : Fin 256) (q : Fin 64) :
    matmul dot_S256x8192_S8192x64_S256x64_1_0_0_1_n_n none l r (constant (F := Ideal) S256x64 .f32 0x00000000#32) (ix2 p q)
      = ∑ k : Fin 8192, l (ix2 p k) * r (ix2 k q) := by
  simp only [matmul]
  rw [Ideal.matmul_constant_zero_apply,
    ← Equiv.sum_comp (contrEquiv1 dot_S256x8192_S8192x64_S256x64_1_0_0_1_n_n 8192 rfl rfl).symm]
  refine Finset.sum_congr rfl fun k _ => ?_
  have hk := contrEquiv1_symm_val dot_S256x8192_S8192x64_S256x64_1_0_0_1_n_n 8192 rfl rfl k
  have el : dot_S256x8192_S8192x64_S256x64_1_0_0_1_n_n.lhsIdx (ix2 p q)
      ((contrEquiv1 dot_S256x8192_S8192x64_S256x64_1_0_0_1_n_n 8192 rfl rfl).symm k) = ix2 p k :=
    funext fun a => Fin.ext (by
      match a with
      | ⟨0, _⟩ => exact lhsRow1 _ _
      | ⟨1, _⟩ => exact (lhsCon1 _ _).trans hk)
  have er : dot_S256x8192_S8192x64_S256x64_1_0_0_1_n_n.rhsIdx (ix2 p q)
      ((contrEquiv1 dot_S256x8192_S8192x64_S256x64_1_0_0_1_n_n 8192 rfl rfl).symm k) = ix2 k q :=
    funext fun a => Fin.ext (by
      match a with
      | ⟨0, _⟩ => exact (rhsCon1 _ _).trans hk
      | ⟨1, _⟩ => exact rhsCol1 _ _)
  rw [el, er]

/-- A row of the block's own features plus the block's rows of the adjacency matrix times the features, as the body
    adds them. -/
private abbrev mixB1 (v2 : Vec Ideal S256x8192 .f32) (v4 : Vec Ideal S8192x64 .f32) (v9 : Vec Ideal S256x64 .f32)
    (p : Fin 256) (q : Fin 64) : EReal :=
  v9 (ix2 p q) + ∑ k : Fin 8192, v2 (ix2 p k) * v4 (ix2 k q)

/-- The body's sum of the block's own rows and the matmul, at `(p, q)`: the format changes are the identity on the
    extended reals and the same-shape casts change nothing. -/
private theorem mix1_apply (v2 : Vec Ideal S256x8192 .f32) (v4 : Vec Ideal S8192x64 .f32) (v9 : Vec Ideal S256x64 .f32)
    (h1 : S256x64.ShapeCasts S256x64) (h2 : S8192x64.ShapeCasts S8192x64) (hb : FTy.bits .bf16 < FTy.bits .f32)
    (p : Fin 256) (q : Fin 64) :
    addf (shapeCast S256x64 v9 h1)
        (matmul dot_S256x8192_S8192x64_S256x64_1_0_0_1_n_n none (truncf .bf16 v2 hb)
          (truncf .bf16 (shapeCast S8192x64 v4 h2) hb) (constant (F := Ideal) S256x64 .f32 0x00000000#32)) (ix2 p q)
      = mixB1 v2 v4 v9 p q := by
  rw [shapeCast_self, shapeCast_self]
  refine (addf_apply _ _ _).trans ?_
  exact congrArg (v9 (ix2 p q) + ·) (matmul1_apply _ _ p q)

/-- The index the lane sum reads at reduced index `p` and lane `j` is `(p, j)`. -/
private theorem lift1 (h : S256x64.Reduces [1] S256) (p : Fin 256) (j : Fin 64) : h.lift (ix1 p) j = ix2 p j :=
  funext fun a => Fin.ext (by
    match a with
    | ⟨0, _⟩ => rfl
    | ⟨1, _⟩ => rfl)

/-- The body's payload at `(p, q)`: the mixed row scaled by the larger of its Euclidean norm and ε. -/
private theorem pay1_apply (v2 : Vec Ideal S256x8192 .f32) (v4 : Vec Ideal S8192x64 .f32) (v9 : Vec Ideal S256x64 .f32)
    (p : Fin 256) (q : Fin 64) :
    k1_pay1 (F := Ideal) v2 v4 v9 (ix2 p q)
      = Ideal.div (mixB1 v2 v4 v9 p q)
          (max (Ideal.sqrt (∑ j : Fin 64, mixB1 v2 v4 v9 p j * mixB1 v2 v4 v9 p j)) (Ideal.ofBits .f32 0x2B8CBCCC#32)) := by
  unfold k1_pay1
  dsimp only
  refine (divf_apply _ _ _).trans ?_
  refine congrArg₂ Ideal.div (mix1_apply v2 v4 v9 _ _ _ p q) ?_
  refine (broadcastTo_a1_ab_apply _ _ p q).trans ?_
  refine (maximumf_apply _ _ _).trans ?_
  refine congrArg₂ max ?_ rfl
  show Ideal.sqrt _ = Ideal.sqrt _
  refine congrArg Ideal.sqrt ?_
  refine (shapeCast_a_a1_apply _ _ p 0).trans ?_
  refine (Ideal.multiReduction_add_single _ _ _ _ _ _).trans ?_
  show ∑ j : Fin 64, _ = _
  refine Finset.sum_congr rfl fun j _ => ?_
  rw [lift1]
  refine (mulf_apply _ _ _).trans ?_
  rw [mix1_apply]

/-! ## The blocks a point reads, as entries of the region-entry arrays -/

section Blocks
variable (V : (c : Dev nD) → (b : Ref sig .tc) → Buf (Elt Ideal) ((c : Thread nD τ).loc b))

/-- The adjacency matrix as the region finds it. -/
private abbrev adj1 (c : Dev nD) : Cert.Gnn.SA.Idx → EReal := V c (Pipeline.arrRef spec1 0)
/-- The features as the region finds them. -/
private abbrev feat1 (c : Dev nD) : Cert.Gnn.SH.Idx → EReal := V c (Pipeline.arrRef spec1 1)
/-- Point `t`'s block of the adjacency matrix: 256 of its rows. -/
private abbrev ablk1 (c : Dev nD) (t : Fin cfg1.N) : Vec Ideal S256x8192 .f32 := iblk1 V c 0 t
/-- Point `t`'s block of the features: the whole array. -/
private abbrev hblk1 (c : Dev nD) (t : Fin cfg1.N) : Vec Ideal S8192x64 .f32 := iblk1 V c 1 t

/-- The printed index maps and the body's row offset, decided once over the grid: the adjacency and output blocks
    are block row `t`, the features' block never moves, and the body's extra load starts at row `256·t`. -/
private theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ k1_off1 (grid1.coords t) 0 = 256 * t.val ∧ k1_off1 (grid1.coords t) 1 = 0 :=
  (by decide +kernel : ∀ t : Fin grid1.N, _)

/-- Entry `(p, k)` of point `t`'s adjacency block is entry `(256·t + p, k)` of the matrix. -/
private theorem ablk1_apply (c : Dev nD) (t : Fin cfg1.N) (p : Fin 256) (k : Fin 8192) (r : Fin 8192)
    (hr : r.val = 256 * t.val + p.val) : ablk1 V c t (ix2 p k) = adj1 V c (ix2 r k) := by
  obtain ⟨e0, e1, -⟩ := idx1 t
  show V c (Pipeline.arrRef spec1 0) (((cfg1.win 0).blk t).view.emb (ix2 p k)) = V c (Pipeline.arrRef spec1 0) (ix2 r k)
  refine congrArg _ (funext fun a => Fin.ext ?_)
  match a with
  | ⟨0, _⟩ => show win1_0.index t (0 : Fin 2) * 256 + 1 * p.val = r.val; omega
  | ⟨1, _⟩ => show win1_0.index t (1 : Fin 2) * 8192 + 1 * k.val = k.val; omega

/-- Point `t`'s block of the features is the features. -/
private theorem hblk1_apply (c : Dev nD) (t : Fin cfg1.N) (k : Fin 8192) (q : Fin 64) :
    hblk1 V c t (ix2 k q) = feat1 V c (ix2 k q) := by
  obtain ⟨-, -, e0, e1, -⟩ := idx1 t
  show V c (Pipeline.arrRef spec1 1) (((cfg1.win 1).blk t).view.emb (ix2 k q)) = V c (Pipeline.arrRef spec1 1) (ix2 k q)
  refine congrArg _ (funext fun a => Fin.ext ?_)
  match a with
  | ⟨0, _⟩ => show win1_1.index t (0 : Fin 2) * 8192 + 1 * k.val = k.val; omega
  | ⟨1, _⟩ => show win1_1.index t (1 : Fin 2) * 64 + 1 * q.val = q.val; omega

/-- The rows the body loads at its offset, at point `t`: rows `256·t + p` of what the features' buffer holds. -/
private theorem rows1_apply (t : Fin cfg1.N) (x1 : Vec Ideal S8192x64 .f32) (p : Fin 256) (q : Fin 64) (r : Fin 8192)
    (hr : r.val = 256 * t.val + p.val) : rows1 (grid1.coords t) x1 (ix2 p q) = x1 (ix2 r q) := by
  obtain ⟨-, -, -, -, -, -, e0, e1⟩ := idx1 t
  show x1 _ = x1 _
  refine congrArg x1 (funext fun a => Fin.ext ?_)
  match a with
  | ⟨0, _⟩ => show k1_off1 (grid1.coords t) 0 + 1 * p.val = r.val; omega
  | ⟨1, _⟩ => show k1_off1 (grid1.coords t) 1 + 1 * q.val = q.val; omega

end Blocks

/-! ## What a point writes back, and the array -/

section Region
variable (V : (c : Dev nD) → (b : Ref sig .tc) → Buf (Elt Ideal) ((c : Thread nD τ).loc b))

/-- The body's mixed row over point `t`'s blocks is the layer's mixed row `256·t + p` of the arrays. -/
private theorem mix1_eq (c : Dev nD) (t : Fin cfg1.N) (p : Fin 256) (r : Fin 8192) (hr : r.val = 256 * t.val + p.val)
    (j : Fin 64) :
    mixB1 (ablk1 V c t) (hblk1 V c t) (rows1 (grid1.coords t) (hblk1 V c t)) p j
      = Cert.Gnn.mix (adj1 V c) (feat1 V c) r j := by
  unfold mixB1 Cert.Gnn.mix
  rw [rows1_apply t (hblk1 V c t) p j r hr, hblk1_apply V c t r j]
  refine congrArg (feat1 V c (ix2 r j) + ·) (Finset.sum_congr rfl fun k _ => ?_)
  rw [ablk1_apply V c t p k r hr, hblk1_apply V c t k j]

/-- After the body at point `t` the output's staging buffer holds, at `(p, q)`, the layer at `(256·t + p, q)`. -/
private theorem block1_apply (c : Dev nD) (t : Fin cfg1.N) (p : Fin 256) (q : Fin 64) (r : Fin 8192)
    (hr : r.val = 256 * t.val + p.val) :
    outsAt1 (F := Ideal) V c t (ix2 p q) = Cert.Gnn.layerAt (adj1 V c) (feat1 V c) r q := by
  unfold outsAt1
  refine (congrFun (piece1 (F := Ideal) c (grid1.coords t) (ms1_0 t) (hs1_0 t) (ms1_1 t) (hs1_1 t) (ms1_2 t) (hs1_2 t)
    (ablk1 V c t) (hblk1 V c t)) (ix2 p q)).trans ?_
  refine (pay1_apply (ablk1 V c t) (hblk1 V c t) (rows1 (grid1.coords t) (hblk1 V c t)) p q).trans ?_
  unfold Cert.Gnn.layerAt Cert.Gnn.floorNorm
  simp only [mix1_eq V c t p r hr]

/-- What point `t` writes back is block `t` of the layer of the region-entry arrays. -/
private theorem flushed1_eq (c : Dev nD) (t : Fin cfg1.N) :
    (dat1 (F := Ideal) V c).flushed 2 t
      = ((cfg1.win 2).blk t).view.read (Elt Ideal) (Cert.Gnn.layer (adj1 V c) (feat1 V c)) := by
  show (cfg1.win 2).cut (grid1.coords t) ((dat1 V c).after 2 t) = _
  rw [after1_2]
  funext j
  have hN : cfg1.N = 32 := N_1
  have ht : t.val < 32 := hN ▸ t.isLt
  have hp : (j 0).val < 256 := Nat.lt_of_lt_of_le (j 0).isLt (win1_2.xsize_le (grid1.coords t) 0)
  have hq : (j 1).val < 64 := Nat.lt_of_lt_of_le (j 1).isLt (win1_2.xsize_le (grid1.coords t) 1)
  obtain ⟨-, -, -, -, e0, e1, -⟩ := idx1 t
  have ej : (cfg1.win 2).xinj (grid1.coords t) j = ix2 (⟨(j 0).val, hp⟩ : Fin 256) (⟨(j 1).val, hq⟩ : Fin 64) :=
    funext fun a => Fin.ext (by
      match a with
      | ⟨0, _⟩ => rfl
      | ⟨1, _⟩ => rfl)
  have ei : ((cfg1.win 2).blk t).view.emb j
      = ix2 (⟨256 * t.val + (j 0).val, by omega⟩ : Fin 8192) (⟨(j 1).val, hq⟩ : Fin 64) :=
    funext fun a => Fin.ext (by
      match a with
      | ⟨0, _⟩ => show win1_2.index t (0 : Fin 2) * 256 + 1 * (j 0).val = 256 * t.val + (j 0).val; omega
      | ⟨1, _⟩ => show win1_2.index t (1 : Fin 2) * 64 + 1 * (j 1).val = (j 1).val; omega)
  show outsAt1 V c t ((cfg1.win 2).xinj (grid1.coords t) j)
    = Cert.Gnn.layer (adj1 V c) (feat1 V c) (((cfg1.win 2).blk t).view.emb j)
  rw [ej, ei, Cert.Gnn.layer_ix2]
  exact block1_apply V c t _ _ _ rfl

end Region

/-! ## The blocks tile the array -/

/-- An index of the array is in point `t`'s block iff each coordinate is in the block's range on its axis. -/
private theorem mem_blk1 (t : Fin cfg1.N) (i : S8192x64.Idx) :
    i ∈ ((cfg1.win 2).blk t).view.set ↔ ∀ a : Fin 2, win1_2.index t a * S256x64.size a ≤ (i a).val
      ∧ (i a).val < win1_2.index t a * S256x64.size a + win1_2.xsize (grid1.coords t) a := by
  show i ∈ ((View.whole (Pipeline.arrRef spec1 2)).slice (win1_2.rect t)).set ↔ _
  rw [View.set_slice_whole, Rect.mem_set_unit]
  exact Iff.rfl

/-- The output's block index and extents, decided once over the grid: block row `t`, 256 rows by 64 columns. -/
private theorem idxc1 : ∀ t : Fin cfg1.N,
    win1_2.index t (0 : Fin 2) = t.val ∧ win1_2.index t (1 : Fin 2) = 0
    ∧ win1_2.xsize (grid1.coords t) (0 : Fin 2) = 256 ∧ win1_2.xsize (grid1.coords t) (1 : Fin 2) = 64 :=
  (by decide +kernel : ∀ t : Fin grid1.N, _)

/-- Every index of the output array lies in the block of the point its row falls to, and that point writes back. -/
private theorem cover1 (c : Dev nD) :
    ∀ i : ((cfg1.win 2).arr.view.loc (c.tc : Thread nD τ)).2.ty.Idx,
      ∃ t : Fin cfg1.N, (cfg1.win 2).flush t = true ∧ i ∈ ((cfg1.win 2).blk t).view.set := by
  intro i
  have hN : cfg1.N = 32 := N_1
  have h0 : (i 0).val < 8192 := (i 0).isLt
  have h1 : (i 1).val < 64 := (i 1).isLt
  refine ⟨⟨(i 0).val / 256, by rw [hN]; omega⟩, flush1_2 _, ?_⟩
  rw [mem_blk1]
  obtain ⟨e0, e1, e2, e3⟩ := idxc1 ⟨(i 0).val / 256, by rw [hN]; omega⟩
  intro a
  match a with
  | ⟨0, _⟩ =>
    show win1_2.index _ (0 : Fin 2) * 256 ≤ (i 0).val
      ∧ (i 0).val < win1_2.index _ (0 : Fin 2) * 256 + win1_2.xsize _ (0 : Fin 2)
    rw [e0, e2]; dsimp only; omega
  | ⟨1, _⟩ =>
    show win1_2.index _ (1 : Fin 2) * 64 ≤ (i 1).val
      ∧ (i 1).val < win1_2.index _ (1 : Fin 2) * 64 + win1_2.xsize _ (1 : Fin 2)
    rw [e1, e3]; omega

/-- The output array after region 0's last point is the layer of the region-entry adjacency matrix (window 0's array)
    and features (window 1's array). -/
theorem region1 (V : (c : Dev nD) → (b : Ref sig .tc) → Buf (Elt Ideal) ((c : Thread nD τ).loc b)) (c : Dev nD) :
    ((dat1 (F := Ideal) V c).arrAt 2 cfg1.N : Cert.Gnn.SH.Idx → EReal)
      = Cert.Gnn.layer (V c (Pipeline.arrRef spec1 0)) (V c (Pipeline.arrRef spec1 1)) :=
  (dat1 (F := Ideal) V c).arrAt_eq_of_cover 2 (Cert.Gnn.layer (adj1 V c) (feat1 V c))
    (fun t _ => flushed1_eq V c t) (cover1 c)

end Cert.KernelIdeal.RegionValue

end
-- ==== Proof.RegionValue2.lean ====
/-
  What the third pallas_call leaves in its output array: the layer of the arrays it was entered with. Grid point `t`
  handles rows `256·t … 256·t + 255`: it multiplies the adjacency matrix's rows of that block by all of `h`, adds the block's own rows of
  `h`, and scales each row by the larger of its norm and ε; the 32 blocks tile the array.

  The body's one store covers the output's block, so the block after the body is the store's payload over the three
  loads: the adjacency block, the whole features, and the features' 256 rows from row `256·t`. At `(p, q)` the payload is
  `m(p, q) / max(√(Σ_j m(p, j)²), ε)` with `m(p, q) = h'(p, q) + Σ_k a(p, k) · h(k, q)` over the loaded blocks `a`, `h`, `h'`: the
  format changes are the identity on the extended reals, the matmul into the zero accumulator is the sum over the
  contracted axis, the lane sum is the sum over the 64 columns, and the column cast and broadcast repeat a row's norm
  along the row. Read through the windows' rectangles the loads are rows `256·t + p` of the adjacency matrix, the
  features themselves, and rows `256·t + p` of the features; so the payload at `(p, q)` is the layer at
  `(256·t + p, q)`, which is what block `t` of the layer reads there. Row `r` of the array lies in the block of point
  `r / 256`, and every point writes its block back. No law of the extended reals is used: both sides are the same
  expression of the same entries.
-/
import proofs.«429968_j5119601017308_1_alg».proof.Proof.Gen.KernelIdeal.Frame
import proofs.«429968_j5119601017308_1_alg».proof.Proof.LayerSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.ShloMosaic.ValueIdx
open Idealize.SL.Sem Idealize.ShloMosaic.Pipeline

variable {F : FTy → Type} [FloatOps F]

/-! ## What the body's one store leaves -/

private theorem hzero : (![0, 0] : Fin 2 → Nat) = fun _ => 0 := funext fun a => by fin_cases a <;> rfl

/-- The rows of the features the body loads beside the whole array: 256 rows from the point's row offset. -/
private abbrev rows2 (i : grid2.Coords) (x1 : Vec F S8192x64 .f32) : Vec F S256x64 .f32 :=
  View.ld x1 (Rect.unit (s := S8192x64) (k2_off1 i) S256x64.size (k2_off1_inb i))

/-- The output's staging buffer after the body: the payload of its one covering store, over the adjacency block, the
    whole features and the features' rows at the point's offset. -/
private theorem piece2 (c : Dev nD) (i : grid2.Coords) (a1 : Memref sig .tc .vmem S256x8192 .f32) (h1 : a1.IsWhole)
    (a2 : Memref sig .tc .vmem S8192x64 .f32) (h2 : a2.IsWhole) (a3 : Memref sig .tc .vmem S256x64 .f32) (h3 : a3.IsWhole)
    (x0 : Vec F S256x8192 .f32) (x1 : Vec F S8192x64 .f32) :
    out2_A_2 c i a1 h1 a2 h2 a3 h3 x0 x1 = k2_pay1 x0 x1 (rows2 i x1) := by
  unfold out2_A_2
  rw [View.read_writes_eq_canon _ _ _ (cover2_A_2 c i a1 h1 a2 h2 a3 h3 x0 x1)]
  unfold kernelRun2_A
  dsimp only
  sl_unfold_words
  rw [View.canon_unit_zero hzero]
  simp only [View.readAt_eq_ld, h1.read_unread, h2.read_unread, View.ld_unit_zero (S := S256x8192) hzero,
    View.ld_unit_zero (S := S8192x64) hzero]
  rfl

/-! ## The payload at an index -/

section Columns
variable {α : Type}

/-- An `[a]` array cast to the column `[a, 1]` reads, at `(i, u)`, the operand at `i`. -/
private theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
private theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-- The left operand's index at output `i` and contraction position `q`: row `i 0`, … -/
private theorem lhsRow2 (i : S256x64.Idx) (q : dot_S256x8192_S8192x64_S256x64_1_0_0_1_n_n.contr.Idx) :
    (dot_S256x8192_S8192x64_S256x64_1_0_0_1_n_n.lhsIdx i q 0).val = (i 0).val := by
  unfold DotDims.lhsIdx
  rw [dif_neg (show ¬(0 : Fin S256x8192.rank) ∈ dot_S256x8192_S8192x64_S256x64_1_0_0_1_n_n.lhsBatch by decide),
    dif_pos (show (0 : Fin S256x8192.rank) ∈ dot_S256x8192_S8192x64_S256x64_1_0_0_1_n_n.lhsNonContracting by decide)]
  rfl
/-- … column `q`. -/
private theorem lhsCon2 (i : S256x64.Idx) (q : dot_S256x8192_S8192x64_S256x64_1_0_0_1_n_n.contr.Idx) :
    (dot_S256x8192_S8192x64_S256x64_1_0_0_1_n_n.lhsIdx i q 1).val = (q ⟨0, by decide⟩).val :=
  dot_S256x8192_S8192x64_S256x64_1_0_0_1_n_n.lhsIdx_val_of_single rfl i q
/-- The right operand's index: row `q`, … -/
private theorem rhsCon2 (i : S256x64.Idx) (q : dot_S256x8192_S8192x64_S256x64_1_0_0_1_n_n.contr.Idx) :
    (dot_S256x8192_S8192x64_S256x64_1_0_0_1_n_n.rhsIdx i q 0).val = (q ⟨0, by decide⟩).val :=
  dot_S256x8192_S8192x64_S256x64_1_0_0_1_n_n.rhsIdx_val_of_single rfl i q
/-- … column `i 1`. -/
private theorem rhsCol2 (i : S256x64.Idx) (q : dot_S256x8192_S8192x64_S256x64_1_0_0_1_n_n.contr.Idx) :
    (dot_S256x8192_S8192x64_S256x64_1_0_0_1_n_n.rhsIdx i q 1).val = (i 1).val := by
  unfold DotDims.rhsIdx
  rw [dif_neg (show ¬(1 : Fin S8192x64.rank) ∈ dot_S256x8192_S8192x64_S256x64_1_0_0_1_n_n.rhsBatch by decide),
    dif_pos (show (1 : Fin S8192x64.rank) ∈ dot_S256x8192_S8192x64_S256x64_1_0_0_1_n_n.rhsNonContracting by decide)]
  rfl

/-- The matmul into the zero accumulator, at `(p, q)`: the sum over the contracted axis of row `p` of the left
    operand times column `q` of the right. -/
private theorem matmul2_apply (l : FVec Ideal S256x8192 .bf16) (r : FVec Ideal S8192x64 .bf16) (p : Fin 256) (q : Fin 64) :
    matmul dot_S256x8192_S8192x64_S256x64_1_0_0_1_n_n none l r (constant (F := Ideal) S256x64 .f32 0x00000000#32) (ix2 p q)
      = ∑ k : Fin 8192, l (ix2 p k) * r (ix2 k q) := by
  simp only [matmul]
  rw [Ideal.matmul_constant_zero_apply,
    ← Equiv.sum_comp (contrEquiv1 dot_S256x8192_S8192x64_S256x64_1_0_0_1_n_n 8192 rfl rfl).symm]
  refine Finset.sum_congr rfl fun k _ => ?_
  have hk := contrEquiv1_symm_val dot_S256x8192_S8192x64_S256x64_1_0_0_1_n_n 8192 rfl rfl k
  have el : dot_S256x8192_S8192x64_S256x64_1_0_0_1_n_n.lhsIdx (ix2 p q)
      ((contrEquiv1 dot_S256x8192_S8192x64_S256x64_1_0_0_1_n_n 8192 rfl rfl).symm k) = ix2 p k :=
    funext fun a => Fin.ext (by
      match a with
      | ⟨0, _⟩ => exact lhsRow2 _ _
      | ⟨1, _⟩ => exact (lhsCon2 _ _).trans hk)
  have er : dot_S256x8192_S8192x64_S256x64_1_0_0_1_n_n.rhsIdx (ix2 p q)
      ((contrEquiv1 dot_S256x8192_S8192x64_S256x64_1_0_0_1_n_n 8192 rfl rfl).symm k) = ix2 k q :=
    funext fun a => Fin.ext (by
      match a with
      | ⟨0, _⟩ => exact (rhsCon2 _ _).trans hk
      | ⟨1, _⟩ => exact rhsCol2 _ _)
  rw [el, er]

/-- A row of the block's own features plus the block's rows of the adjacency matrix times the features, as the body
    adds them. -/
private abbrev mixB2 (v2 : Vec Ideal S256x8192 .f32) (v4 : Vec Ideal S8192x64 .f32) (v9 : Vec Ideal S256x64 .f32)
    (p : Fin 256) (q : Fin 64) : EReal :=
  v9 (ix2 p q) + ∑ k : Fin 8192, v2 (ix2 p k) * v4 (ix2 k q)

/-- The body's sum of the block's own rows and the matmul, at `(p, q)`: the format changes are the identity on the
    extended reals and the same-shape casts change nothing. -/
private theorem mix2_apply (v2 : Vec Ideal S256x8192 .f32) (v4 : Vec Ideal S8192x64 .f32) (v9 : Vec Ideal S256x64 .f32)
    (h1 : S256x64.ShapeCasts S256x64) (h2 : S8192x64.ShapeCasts S8192x64) (hb : FTy.bits .bf16 < FTy.bits .f32)
    (p : Fin 256) (q : Fin 64) :
    addf (shapeCast S256x64 v9 h1)
        (matmul dot_S256x8192_S8192x64_S256x64_1_0_0_1_n_n none (truncf .bf16 v2 hb)
          (truncf .bf16 (shapeCast S8192x64 v4 h2) hb) (constant (F := Ideal) S256x64 .f32 0x00000000#32)) (ix2 p q)
      = mixB2 v2 v4 v9 p q := by
  rw [shapeCast_self, shapeCast_self]
  refine (addf_apply _ _ _).trans ?_
  exact congrArg (v9 (ix2 p q) + ·) (matmul2_apply _ _ p q)

/-- The index the lane sum reads at reduced index `p` and lane `j` is `(p, j)`. -/
private theorem lift2 (h : S256x64.Reduces [1] S256) (p : Fin 256) (j : Fin 64) : h.lift (ix1 p) j = ix2 p j :=
  funext fun a => Fin.ext (by
    match a with
    | ⟨0, _⟩ => rfl
    | ⟨1, _⟩ => rfl)

/-- The body's payload at `(p, q)`: the mixed row scaled by the larger of its Euclidean norm and ε. -/
private theorem pay2_apply (v2 : Vec Ideal S256x8192 .f32) (v4 : Vec Ideal S8192x64 .f32) (v9 : Vec Ideal S256x64 .f32)
    (p : Fin 256) (q : Fin 64) :
    k2_pay1 (F := Ideal) v2 v4 v9 (ix2 p q)
      = Ideal.div (mixB2 v2 v4 v9 p q)
          (max (Ideal.sqrt (∑ j : Fin 64, mixB2 v2 v4 v9 p j * mixB2 v2 v4 v9 p j)) (Ideal.ofBits .f32 0x2B8CBCCC#32)) := by
  unfold k2_pay1
  dsimp only
  refine (divf_apply _ _ _).trans ?_
  refine congrArg₂ Ideal.div (mix2_apply v2 v4 v9 _ _ _ p q) ?_
  refine (broadcastTo_a1_ab_apply _ _ p q).trans ?_
  refine (maximumf_apply _ _ _).trans ?_
  refine congrArg₂ max ?_ rfl
  show Ideal.sqrt _ = Ideal.sqrt _
  refine congrArg Ideal.sqrt ?_
  refine (shapeCast_a_a1_apply _ _ p 0).trans ?_
  refine (Ideal.multiReduction_add_single _ _ _ _ _ _).trans ?_
  show ∑ j : Fin 64, _ = _
  refine Finset.sum_congr rfl fun j _ => ?_
  rw [lift2]
  refine (mulf_apply _ _ _).trans ?_
  rw [mix2_apply]

/-! ## The blocks a point reads, as entries of the region-entry arrays -/

section Blocks
variable (V : (c : Dev nD) → (b : Ref sig .tc) → Buf (Elt Ideal) ((c : Thread nD τ).loc b))

/-- The adjacency matrix as the region finds it. -/
private abbrev adj2 (c : Dev nD) : Cert.Gnn.SA.Idx → EReal := V c (Pipeline.arrRef spec2 0)
/-- The features as the region finds them. -/
private abbrev feat2 (c : Dev nD) : Cert.Gnn.SH.Idx → EReal := V c (Pipeline.arrRef spec2 1)
/-- Point `t`'s block of the adjacency matrix: 256 of its rows. -/
private abbrev ablk2 (c : Dev nD) (t : Fin cfg2.N) : Vec Ideal S256x8192 .f32 := iblk2 V c 0 t
/-- Point `t`'s block of the features: the whole array. -/
private abbrev hblk2 (c : Dev nD) (t : Fin cfg2.N) : Vec Ideal S8192x64 .f32 := iblk2 V c 1 t

/-- The printed index maps and the body's row offset, decided once over the grid: the adjacency and output blocks
    are block row `t`, the features' block never moves, and the body's extra load starts at row `256·t`. -/
private theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ k2_off1 (grid2.coords t) 0 = 256 * t.val ∧ k2_off1 (grid2.coords t) 1 = 0 :=
  (by decide +kernel : ∀ t : Fin grid2.N, _)

/-- Entry `(p, k)` of point `t`'s adjacency block is entry `(256·t + p, k)` of the matrix. -/
private theorem ablk2_apply (c : Dev nD) (t : Fin cfg2.N) (p : Fin 256) (k : Fin 8192) (r : Fin 8192)
    (hr : r.val = 256 * t.val + p.val) : ablk2 V c t (ix2 p k) = adj2 V c (ix2 r k) := by
  obtain ⟨e0, e1, -⟩ := idx2 t
  show V c (Pipeline.arrRef spec2 0) (((cfg2.win 0).blk t).view.emb (ix2 p k)) = V c (Pipeline.arrRef spec2 0) (ix2 r k)
  refine congrArg _ (funext fun a => Fin.ext ?_)
  match a with
  | ⟨0, _⟩ => show win2_0.index t (0 : Fin 2) * 256 + 1 * p.val = r.val; omega
  | ⟨1, _⟩ => show win2_0.index t (1 : Fin 2) * 8192 + 1 * k.val = k.val; omega

/-- Point `t`'s block of the features is the features. -/
private theorem hblk2_apply (c : Dev nD) (t : Fin cfg2.N) (k : Fin 8192) (q : Fin 64) :
    hblk2 V c t (ix2 k q) = feat2 V c (ix2 k q) := by
  obtain ⟨-, -, e0, e1, -⟩ := idx2 t
  show V c (Pipeline.arrRef spec2 1) (((cfg2.win 1).blk t).view.emb (ix2 k q)) = V c (Pipeline.arrRef spec2 1) (ix2 k q)
  refine congrArg _ (funext fun a => Fin.ext ?_)
  match a with
  | ⟨0, _⟩ => show win2_1.index t (0 : Fin 2) * 8192 + 1 * k.val = k.val; omega
  | ⟨1, _⟩ => show win2_1.index t (1 : Fin 2) * 64 + 1 * q.val = q.val; omega

/-- The rows the body loads at its offset, at point `t`: rows `256·t + p` of what the features' buffer holds. -/
private theorem rows2_apply (t : Fin cfg2.N) (x1 : Vec Ideal S8192x64 .f32) (p : Fin 256) (q : Fin 64) (r : Fin 8192)
    (hr : r.val = 256 * t.val + p.val) : rows2 (grid2.coords t) x1 (ix2 p q) = x1 (ix2 r q) := by
  obtain ⟨-, -, -, -, -, -, e0, e1⟩ := idx2 t
  show x1 _ = x1 _
  refine congrArg x1 (funext fun a => Fin.ext ?_)
  match a with
  | ⟨0, _⟩ => show k2_off1 (grid2.coords t) 0 + 1 * p.val = r.val; omega
  | ⟨1, _⟩ => show k2_off1 (grid2.coords t) 1 + 1 * q.val = q.val; omega

end Blocks

/-! ## What a point writes back, and the array -/

section Region
variable (V : (c : Dev nD) → (b : Ref sig .tc) → Buf (Elt Ideal) ((c : Thread nD τ).loc b))

/-- The body's mixed row over point `t`'s blocks is the layer's mixed row `256·t + p` of the arrays. -/
private theorem mix2_eq (c : Dev nD) (t : Fin cfg2.N) (p : Fin 256) (r : Fin 8192) (hr : r.val = 256 * t.val + p.val)
    (j : Fin 64) :
    mixB2 (ablk2 V c t) (hblk2 V c t) (rows2 (grid2.coords t) (hblk2 V c t)) p j
      = Cert.Gnn.mix (adj2 V c) (feat2 V c) r j := by
  unfold mixB2 Cert.Gnn.mix
  rw [rows2_apply t (hblk2 V c t) p j r hr, hblk2_apply V c t r j]
  refine congrArg (feat2 V c (ix2 r j) + ·) (Finset.sum_congr rfl fun k _ => ?_)
  rw [ablk2_apply V c t p k r hr, hblk2_apply V c t k j]

/-- After the body at point `t` the output's staging buffer holds, at `(p, q)`, the layer at `(256·t + p, q)`. -/
private theorem block2_apply (c : Dev nD) (t : Fin cfg2.N) (p : Fin 256) (q : Fin 64) (r : Fin 8192)
    (hr : r.val = 256 * t.val + p.val) :
    outsAt2 (F := Ideal) V c t (ix2 p q) = Cert.Gnn.layerAt (adj2 V c) (feat2 V c) r q := by
  unfold outsAt2
  refine (congrFun (piece2 (F := Ideal) c (grid2.coords t) (ms2_0 t) (hs2_0 t) (ms2_1 t) (hs2_1 t) (ms2_2 t) (hs2_2 t)
    (ablk2 V c t) (hblk2 V c t)) (ix2 p q)).trans ?_
  refine (pay2_apply (ablk2 V c t) (hblk2 V c t) (rows2 (grid2.coords t) (hblk2 V c t)) p q).trans ?_
  unfold Cert.Gnn.layerAt Cert.Gnn.floorNorm
  simp only [mix2_eq V c t p r hr]

/-- What point `t` writes back is block `t` of the layer of the region-entry arrays. -/
private theorem flushed2_eq (c : Dev nD) (t : Fin cfg2.N) :
    (dat2 (F := Ideal) V c).flushed 2 t
      = ((cfg2.win 2).blk t).view.read (Elt Ideal) (Cert.Gnn.layer (adj2 V c) (feat2 V c)) := by
  show (cfg2.win 2).cut (grid2.coords t) ((dat2 V c).after 2 t) = _
  rw [after2_2]
  funext j
  have hN : cfg2.N = 32 := N_2
  have ht : t.val < 32 := hN ▸ t.isLt
  have hp : (j 0).val < 256 := Nat.lt_of_lt_of_le (j 0).isLt (win2_2.xsize_le (grid2.coords t) 0)
  have hq : (j 1).val < 64 := Nat.lt_of_lt_of_le (j 1).isLt (win2_2.xsize_le (grid2.coords t) 1)
  obtain ⟨-, -, -, -, e0, e1, -⟩ := idx2 t
  have ej : (cfg2.win 2).xinj (grid2.coords t) j = ix2 (⟨(j 0).val, hp⟩ : Fin 256) (⟨(j 1).val, hq⟩ : Fin 64) :=
    funext fun a => Fin.ext (by
      match a with
      | ⟨0, _⟩ => rfl
      | ⟨1, _⟩ => rfl)
  have ei : ((cfg2.win 2).blk t).view.emb j
      = ix2 (⟨256 * t.val + (j 0).val, by omega⟩ : Fin 8192) (⟨(j 1).val, hq⟩ : Fin 64) :=
    funext fun a => Fin.ext (by
      match a with
      | ⟨0, _⟩ => show win2_2.index t (0 : Fin 2) * 256 + 1 * (j 0).val = 256 * t.val + (j 0).val; omega
      | ⟨1, _⟩ => show win2_2.index t (1 : Fin 2) * 64 + 1 * (j 1).val = (j 1).val; omega)
  show outsAt2 V c t ((cfg2.win 2).xinj (grid2.coords t) j)
    = Cert.Gnn.layer (adj2 V c) (feat2 V c) (((cfg2.win 2).blk t).view.emb j)
  rw [ej, ei, Cert.Gnn.layer_ix2]
  exact block2_apply V c t _ _ _ rfl

end Region

/-! ## The blocks tile the array -/

/-- An index of the array is in point `t`'s block iff each coordinate is in the block's range on its axis. -/
private theorem mem_blk2 (t : Fin cfg2.N) (i : S8192x64.Idx) :
    i ∈ ((cfg2.win 2).blk t).view.set ↔ ∀ a : Fin 2, win2_2.index t a * S256x64.size a ≤ (i a).val
      ∧ (i a).val < win2_2.index t a * S256x64.size a + win2_2.xsize (grid2.coords t) a := by
  show i ∈ ((View.whole (Pipeline.arrRef spec2 2)).slice (win2_2.rect t)).set ↔ _
  rw [View.set_slice_whole, Rect.mem_set_unit]
  exact Iff.rfl

/-- The output's block index and extents, decided once over the grid: block row `t`, 256 rows by 64 columns. -/
private theorem idxc2 : ∀ t : Fin cfg2.N,
    win2_2.index t (0 : Fin 2) = t.val ∧ win2_2.index t (1 : Fin 2) = 0
    ∧ win2_2.xsize (grid2.coords t) (0 : Fin 2) = 256 ∧ win2_2.xsize (grid2.coords t) (1 : Fin 2) = 64 :=
  (by decide +kernel : ∀ t : Fin grid2.N, _)

/-- Every index of the output array lies in the block of the point its row falls to, and that point writes back. -/
private theorem cover2 (c : Dev nD) :
    ∀ i : ((cfg2.win 2).arr.view.loc (c.tc : Thread nD τ)).2.ty.Idx,
      ∃ t : Fin cfg2.N, (cfg2.win 2).flush t = true ∧ i ∈ ((cfg2.win 2).blk t).view.set := by
  intro i
  have hN : cfg2.N = 32 := N_2
  have h0 : (i 0).val < 8192 := (i 0).isLt
  have h1 : (i 1).val < 64 := (i 1).isLt
  refine ⟨⟨(i 0).val / 256, by rw [hN]; omega⟩, flush2_2 _, ?_⟩
  rw [mem_blk2]
  obtain ⟨e0, e1, e2, e3⟩ := idxc2 ⟨(i 0).val / 256, by rw [hN]; omega⟩
  intro a
  match a with
  | ⟨0, _⟩ =>
    show win2_2.index _ (0 : Fin 2) * 256 ≤ (i 0).val
      ∧ (i 0).val < win2_2.index _ (0 : Fin 2) * 256 + win2_2.xsize _ (0 : Fin 2)
    rw [e0, e2]; dsimp only; omega
  | ⟨1, _⟩ =>
    show win2_2.index _ (1 : Fin 2) * 64 ≤ (i 1).val
      ∧ (i 1).val < win2_2.index _ (1 : Fin 2) * 64 + win2_2.xsize _ (1 : Fin 2)
    rw [e1, e3]; omega

/-- The output array after region 0's last point is the layer of the region-entry adjacency matrix (window 0's array)
    and features (window 1's array). -/
theorem region2 (V : (c : Dev nD) → (b : Ref sig .tc) → Buf (Elt Ideal) ((c : Thread nD τ).loc b)) (c : Dev nD) :
    ((dat2 (F := Ideal) V c).arrAt 2 cfg2.N : Cert.Gnn.SH.Idx → EReal)
      = Cert.Gnn.layer (V c (Pipeline.arrRef spec2 0)) (V c (Pipeline.arrRef spec2 1)) :=
  (dat2 (F := Ideal) V c).arrAt_eq_of_cover 2 (Cert.Gnn.layer (adj2 V c) (feat2 V c))
    (fun t _ => flushed2_eq V c t) (cover2 c)

end Cert.KernelIdeal.RegionValue

end
-- ==== Proof.KernelStages.lean ====
/-
  The kernel program's run, read back boundary by boundary. Its @main is host stretches around three pallas_calls; the
  buffer contents at each boundary are named by the generated frame (`Gen.W0` … `Gen.W15`). Stretch by stretch a value is
  one of the shared steps of `Cert.Gnn` applied to the values of the boundary before — the same operations the reference
  applies —; across a pallas_call the output array is the layer of the region-entry arrays (`RegionValue`). The lookup's
  fill for row numbers outside the table never fires on valid row numbers, so the looked-up rows are the reference's.
  The result is `Cert.Gnn.network` at the layer's specification, as for the reference.
-/
import proofs.«429968_j5119601017308_1_alg».proof.Proof.Gen.KernelIdeal.Frame
import proofs.«429968_j5119601017308_1_alg».proof.Proof.HostChain
import proofs.«429968_j5119601017308_1_alg».proof.Proof.TakeMask
import proofs.«429968_j5119601017308_1_alg».proof.Proof.RegionValue0
import proofs.«429968_j5119601017308_1_alg».proof.Proof.RegionValue1
import proofs.«429968_j5119601017308_1_alg».proof.Proof.RegionValue2

set_option maxRecDepth 16384

noncomputable section

namespace Cert.KernelIdeal.Stages

open Cert.KernelIdeal Cert.KernelIdeal.Gen
open Idealize.ShloMosaic Idealize.ShloMosaic.TcCoe Idealize.SL.Sem

/-! ## The host stretches, from any buffer contents -/

section Host
variable {F : FTy → Type} [FloatOps F] (V : Valuation τ sig (Elt F))

set_option maxHeartbeats 2000000 in
/-- The lookup: the table's rows at the wrapped row numbers where the row number lies inside the table, the fill elsewhere. -/
theorem take_of : StableHlo.after hostOps0 V (Proc.devRef .tc main_v0)
    = select (Take.inTable (V (Proc.devRef .tc main_arg0)))
        (Host.gather gather_S10000x64_S8192x1_S8192x64_1_0_n_n_0_1_164 (V (Proc.devRef .tc main_arg3)) (Take.ids (V (Proc.devRef .tc main_arg0))))
        (broadcastInDim S8192x64 ![] bcast_S_S8192x64 (constant (F := F) S_ .f32 0x7FC00000#32)) := by
  after_results_simp; rfl

set_option maxHeartbeats 2000000 in
/-- The first feed-forward step. -/
theorem dense0_of : StableHlo.after hostOps0_2 (StableHlo.after hostOps0_1 V) (Proc.devRef .tc main_v10)
    = Cert.Gnn.dense0 (F := F) (V (Proc.devRef .tc main_arg4)) (V (Proc.devRef .tc main_arg5)) (V (Proc.devRef .tc main_v0)) := by
  after_results_simp; rfl

set_option maxHeartbeats 2000000 in
/-- The second. -/
theorem dense1_of : StableHlo.after hostOps1_1 (StableHlo.after hostOps1 V) (Proc.devRef .tc main_v21)
    = Cert.Gnn.dense1 (F := F) (V (Proc.devRef .tc main_arg4)) (V (Proc.devRef .tc main_arg5)) (V (Proc.devRef .tc main_v11)) := by
  after_results_simp; rfl

set_option maxHeartbeats 2000000 in
/-- The third. -/
theorem dense2_of : StableHlo.after hostOps2_1 (StableHlo.after hostOps2 V) (Proc.devRef .tc main_v32)
    = Cert.Gnn.dense2 (F := F) (V (Proc.devRef .tc main_arg4)) (V (Proc.devRef .tc main_arg5)) (V (Proc.devRef .tc main_v22)) := by
  after_results_simp; rfl

set_option maxHeartbeats 2000000 in
/-- The readout. -/
theorem readout_of :
    StableHlo.after hostOps3_4 (StableHlo.after hostOps3_3 (StableHlo.after hostOps3_2 (StableHlo.after hostOps3_1 (StableHlo.after hostOps3 V)))) (Proc.devRef .tc main_v61)
    = Cert.Gnn.readout (F := F) (V (Proc.devRef .tc main_arg2)) (V (Proc.devRef .tc main_arg6)) (V (Proc.devRef .tc main_arg7)) (V (Proc.devRef .tc main_arg8)) (V (Proc.devRef .tc main_arg9)) (V (Proc.devRef .tc main_v33)) := by
  after_results_simp; rfl

end Host

/-! ## The argument arrays at each boundary: no host operation and no region writes one -/

section Args
variable {F : FTy → Type} [FloatOps F] (m : (ℓ : Loc nD τ sig) → Buf (Elt F) ℓ) (ρ : Dev nD → PrngReg) (c : Dev nD)

theorem W1_arg1 : W1 m ρ c (Proc.devRef .tc main_arg1) = m ((c : Thread nD τ).loc main_arg1) := by
  show StableHlo.after hostOps0 (W0 m ρ c) (Proc.devRef .tc main_arg1) = _
  after_results
theorem W3_arg1 : W3 m ρ c (Proc.devRef .tc main_arg1) = m ((c : Thread nD τ).loc main_arg1) := by
  show StableHlo.after hostOps0_2 (StableHlo.after hostOps0_1 (W1 m ρ c)) (Proc.devRef .tc main_arg1) = _
  after_results
theorem W4_arg1 : W4 m ρ c (Proc.devRef .tc main_arg1) = m ((c : Thread nD τ).loc main_arg1) :=
  ((W4_arr m ρ c 0).trans (((dat0 (V3 m ρ) c).arrAt_in 0 rfl _).trans (A_eq0 (V3 m ρ) c 0))).trans (W3_arg1 m ρ c)
theorem W6_arg1 : W6 m ρ c (Proc.devRef .tc main_arg1) = m ((c : Thread nD τ).loc main_arg1) := by
  show StableHlo.after hostOps1_1 (StableHlo.after hostOps1 (W4 m ρ c)) (Proc.devRef .tc main_arg1) = _
  after_results; exact W4_arg1 m ρ c
theorem W7_arg1 : W7 m ρ c (Proc.devRef .tc main_arg1) = m ((c : Thread nD τ).loc main_arg1) :=
  ((W7_arr m ρ c 0).trans (((dat1 (V6 m ρ) c).arrAt_in 0 rfl _).trans (A_eq1 (V6 m ρ) c 0))).trans (W6_arg1 m ρ c)
theorem W9_arg1 : W9 m ρ c (Proc.devRef .tc main_arg1) = m ((c : Thread nD τ).loc main_arg1) := by
  show StableHlo.after hostOps2_1 (StableHlo.after hostOps2 (W7 m ρ c)) (Proc.devRef .tc main_arg1) = _
  after_results; exact W7_arg1 m ρ c
theorem W1_arg4 : W1 m ρ c (Proc.devRef .tc main_arg4) = m ((c : Thread nD τ).loc main_arg4) := by
  show StableHlo.after hostOps0 (W0 m ρ c) (Proc.devRef .tc main_arg4) = _
  after_results
theorem W3_arg4 : W3 m ρ c (Proc.devRef .tc main_arg4) = m ((c : Thread nD τ).loc main_arg4) := by
  show StableHlo.after hostOps0_2 (StableHlo.after hostOps0_1 (W1 m ρ c)) (Proc.devRef .tc main_arg4) = _
  after_results
theorem W4_arg4 : W4 m ρ c (Proc.devRef .tc main_arg4) = m ((c : Thread nD τ).loc main_arg4) :=
  (W4_of_ne m ρ c main_arg4 (by decide)).trans (W3_arg4 m ρ c)
theorem W6_arg4 : W6 m ρ c (Proc.devRef .tc main_arg4) = m ((c : Thread nD τ).loc main_arg4) := by
  show StableHlo.after hostOps1_1 (StableHlo.after hostOps1 (W4 m ρ c)) (Proc.devRef .tc main_arg4) = _
  after_results; exact W4_arg4 m ρ c
theorem W7_arg4 : W7 m ρ c (Proc.devRef .tc main_arg4) = m ((c : Thread nD τ).loc main_arg4) :=
  (W7_of_ne m ρ c main_arg4 (by decide)).trans (W6_arg4 m ρ c)
theorem W1_arg5 : W1 m ρ c (Proc.devRef .tc main_arg5) = m ((c : Thread nD τ).loc main_arg5) := by
  show StableHlo.after hostOps0 (W0 m ρ c) (Proc.devRef .tc main_arg5) = _
  after_results
theorem W3_arg5 : W3 m ρ c (Proc.devRef .tc main_arg5) = m ((c : Thread nD τ).loc main_arg5) := by
  show StableHlo.after hostOps0_2 (StableHlo.after hostOps0_1 (W1 m ρ c)) (Proc.devRef .tc main_arg5) = _
  after_results
theorem W4_arg5 : W4 m ρ c (Proc.devRef .tc main_arg5) = m ((c : Thread nD τ).loc main_arg5) :=
  (W4_of_ne m ρ c main_arg5 (by decide)).trans (W3_arg5 m ρ c)
theorem W6_arg5 : W6 m ρ c (Proc.devRef .tc main_arg5) = m ((c : Thread nD τ).loc main_arg5) := by
  show StableHlo.after hostOps1_1 (StableHlo.after hostOps1 (W4 m ρ c)) (Proc.devRef .tc main_arg5) = _
  after_results; exact W4_arg5 m ρ c
theorem W7_arg5 : W7 m ρ c (Proc.devRef .tc main_arg5) = m ((c : Thread nD τ).loc main_arg5) :=
  (W7_of_ne m ρ c main_arg5 (by decide)).trans (W6_arg5 m ρ c)
theorem W1_arg2 : W1 m ρ c (Proc.devRef .tc main_arg2) = m ((c : Thread nD τ).loc main_arg2) := by
  show StableHlo.after hostOps0 (W0 m ρ c) (Proc.devRef .tc main_arg2) = _
  after_results
theorem W3_arg2 : W3 m ρ c (Proc.devRef .tc main_arg2) = m ((c : Thread nD τ).loc main_arg2) := by
  show StableHlo.after hostOps0_2 (StableHlo.after hostOps0_1 (W1 m ρ c)) (Proc.devRef .tc main_arg2) = _
  after_results
theorem W4_arg2 : W4 m ρ c (Proc.devRef .tc main_arg2) = m ((c : Thread nD τ).loc main_arg2) :=
  (W4_of_ne m ρ c main_arg2 (by decide)).trans (W3_arg2 m ρ c)
theorem W6_arg2 : W6 m ρ c (Proc.devRef .tc main_arg2) = m ((c : Thread nD τ).loc main_arg2) := by
  show StableHlo.after hostOps1_1 (StableHlo.after hostOps1 (W4 m ρ c)) (Proc.devRef .tc main_arg2) = _
  after_results; exact W4_arg2 m ρ c
theorem W7_arg2 : W7 m ρ c (Proc.devRef .tc main_arg2) = m ((c : Thread nD τ).loc main_arg2) :=
  (W7_of_ne m ρ c main_arg2 (by decide)).trans (W6_arg2 m ρ c)
theorem W9_arg2 : W9 m ρ c (Proc.devRef .tc main_arg2) = m ((c : Thread nD τ).loc main_arg2) := by
  show StableHlo.after hostOps2_1 (StableHlo.after hostOps2 (W7 m ρ c)) (Proc.devRef .tc main_arg2) = _
  after_results; exact W7_arg2 m ρ c
theorem W10_arg2 : W10 m ρ c (Proc.devRef .tc main_arg2) = m ((c : Thread nD τ).loc main_arg2) :=
  (W10_of_ne m ρ c main_arg2 (by decide)).trans (W9_arg2 m ρ c)
theorem W1_arg6 : W1 m ρ c (Proc.devRef .tc main_arg6) = m ((c : Thread nD τ).loc main_arg6) := by
  show StableHlo.after hostOps0 (W0 m ρ c) (Proc.devRef .tc main_arg6) = _
  after_results
theorem W3_arg6 : W3 m ρ c (Proc.devRef .tc main_arg6) = m ((c : Thread nD τ).loc main_arg6) := by
  show StableHlo.after hostOps0_2 (StableHlo.after hostOps0_1 (W1 m ρ c)) (Proc.devRef .tc main_arg6) = _
  after_results
theorem W4_arg6 : W4 m ρ c (Proc.devRef .tc main_arg6) = m ((c : Thread nD τ).loc main_arg6) :=
  (W4_of_ne m ρ c main_arg6 (by decide)).trans (W3_arg6 m ρ c)
theorem W6_arg6 : W6 m ρ c (Proc.devRef .tc main_arg6) = m ((c : Thread nD τ).loc main_arg6) := by
  show StableHlo.after hostOps1_1 (StableHlo.after hostOps1 (W4 m ρ c)) (Proc.devRef .tc main_arg6) = _
  after_results; exact W4_arg6 m ρ c
theorem W7_arg6 : W7 m ρ c (Proc.devRef .tc main_arg6) = m ((c : Thread nD τ).loc main_arg6) :=
  (W7_of_ne m ρ c main_arg6 (by decide)).trans (W6_arg6 m ρ c)
theorem W9_arg6 : W9 m ρ c (Proc.devRef .tc main_arg6) = m ((c : Thread nD τ).loc main_arg6) := by
  show StableHlo.after hostOps2_1 (StableHlo.after hostOps2 (W7 m ρ c)) (Proc.devRef .tc main_arg6) = _
  after_results; exact W7_arg6 m ρ c
theorem W10_arg6 : W10 m ρ c (Proc.devRef .tc main_arg6) = m ((c : Thread nD τ).loc main_arg6) :=
  (W10_of_ne m ρ c main_arg6 (by decide)).trans (W9_arg6 m ρ c)
theorem W1_arg7 : W1 m ρ c (Proc.devRef .tc main_arg7) = m ((c : Thread nD τ).loc main_arg7) := by
  show StableHlo.after hostOps0 (W0 m ρ c) (Proc.devRef .tc main_arg7) = _
  after_results
theorem W3_arg7 : W3 m ρ c (Proc.devRef .tc main_arg7) = m ((c : Thread nD τ).loc main_arg7) := by
  show StableHlo.after hostOps0_2 (StableHlo.after hostOps0_1 (W1 m ρ c)) (Proc.devRef .tc main_arg7) = _
  after_results
theorem W4_arg7 : W4 m ρ c (Proc.devRef .tc main_arg7) = m ((c : Thread nD τ).loc main_arg7) :=
  (W4_of_ne m ρ c main_arg7 (by decide)).trans (W3_arg7 m ρ c)
theorem W6_arg7 : W6 m ρ c (Proc.devRef .tc main_arg7) = m ((c : Thread nD τ).loc main_arg7) := by
  show StableHlo.after hostOps1_1 (StableHlo.after hostOps1 (W4 m ρ c)) (Proc.devRef .tc main_arg7) = _
  after_results; exact W4_arg7 m ρ c
theorem W7_arg7 : W7 m ρ c (Proc.devRef .tc main_arg7) = m ((c : Thread nD τ).loc main_arg7) :=
  (W7_of_ne m ρ c main_arg7 (by decide)).trans (W6_arg7 m ρ c)
theorem W9_arg7 : W9 m ρ c (Proc.devRef .tc main_arg7) = m ((c : Thread nD τ).loc main_arg7) := by
  show StableHlo.after hostOps2_1 (StableHlo.after hostOps2 (W7 m ρ c)) (Proc.devRef .tc main_arg7) = _
  after_results; exact W7_arg7 m ρ c
theorem W10_arg7 : W10 m ρ c (Proc.devRef .tc main_arg7) = m ((c : Thread nD τ).loc main_arg7) :=
  (W10_of_ne m ρ c main_arg7 (by decide)).trans (W9_arg7 m ρ c)
theorem W1_arg8 : W1 m ρ c (Proc.devRef .tc main_arg8) = m ((c : Thread nD τ).loc main_arg8) := by
  show StableHlo.after hostOps0 (W0 m ρ c) (Proc.devRef .tc main_arg8) = _
  after_results
theorem W3_arg8 : W3 m ρ c (Proc.devRef .tc main_arg8) = m ((c : Thread nD τ).loc main_arg8) := by
  show StableHlo.after hostOps0_2 (StableHlo.after hostOps0_1 (W1 m ρ c)) (Proc.devRef .tc main_arg8) = _
  after_results
theorem W4_arg8 : W4 m ρ c (Proc.devRef .tc main_arg8) = m ((c : Thread nD τ).loc main_arg8) :=
  (W4_of_ne m ρ c main_arg8 (by decide)).trans (W3_arg8 m ρ c)
theorem W6_arg8 : W6 m ρ c (Proc.devRef .tc main_arg8) = m ((c : Thread nD τ).loc main_arg8) := by
  show StableHlo.after hostOps1_1 (StableHlo.after hostOps1 (W4 m ρ c)) (Proc.devRef .tc main_arg8) = _
  after_results; exact W4_arg8 m ρ c
theorem W7_arg8 : W7 m ρ c (Proc.devRef .tc main_arg8) = m ((c : Thread nD τ).loc main_arg8) :=
  (W7_of_ne m ρ c main_arg8 (by decide)).trans (W6_arg8 m ρ c)
theorem W9_arg8 : W9 m ρ c (Proc.devRef .tc main_arg8) = m ((c : Thread nD τ).loc main_arg8) := by
  show StableHlo.after hostOps2_1 (StableHlo.after hostOps2 (W7 m ρ c)) (Proc.devRef .tc main_arg8) = _
  after_results; exact W7_arg8 m ρ c
theorem W10_arg8 : W10 m ρ c (Proc.devRef .tc main_arg8) = m ((c : Thread nD τ).loc main_arg8) :=
  (W10_of_ne m ρ c main_arg8 (by decide)).trans (W9_arg8 m ρ c)
theorem W1_arg9 : W1 m ρ c (Proc.devRef .tc main_arg9) = m ((c : Thread nD τ).loc main_arg9) := by
  show StableHlo.after hostOps0 (W0 m ρ c) (Proc.devRef .tc main_arg9) = _
  after_results
theorem W3_arg9 : W3 m ρ c (Proc.devRef .tc main_arg9) = m ((c : Thread nD τ).loc main_arg9) := by
  show StableHlo.after hostOps0_2 (StableHlo.after hostOps0_1 (W1 m ρ c)) (Proc.devRef .tc main_arg9) = _
  after_results
theorem W4_arg9 : W4 m ρ c (Proc.devRef .tc main_arg9) = m ((c : Thread nD τ).loc main_arg9) :=
  (W4_of_ne m ρ c main_arg9 (by decide)).trans (W3_arg9 m ρ c)
theorem W6_arg9 : W6 m ρ c (Proc.devRef .tc main_arg9) = m ((c : Thread nD τ).loc main_arg9) := by
  show StableHlo.after hostOps1_1 (StableHlo.after hostOps1 (W4 m ρ c)) (Proc.devRef .tc main_arg9) = _
  after_results; exact W4_arg9 m ρ c
theorem W7_arg9 : W7 m ρ c (Proc.devRef .tc main_arg9) = m ((c : Thread nD τ).loc main_arg9) :=
  (W7_of_ne m ρ c main_arg9 (by decide)).trans (W6_arg9 m ρ c)
theorem W9_arg9 : W9 m ρ c (Proc.devRef .tc main_arg9) = m ((c : Thread nD τ).loc main_arg9) := by
  show StableHlo.after hostOps2_1 (StableHlo.after hostOps2 (W7 m ρ c)) (Proc.devRef .tc main_arg9) = _
  after_results; exact W7_arg9 m ρ c
theorem W10_arg9 : W10 m ρ c (Proc.devRef .tc main_arg9) = m ((c : Thread nD τ).loc main_arg9) :=
  (W10_of_ne m ρ c main_arg9 (by decide)).trans (W9_arg9 m ρ c)

end Args

/-! ## The values at the boundaries, on the extended reals -/

section Values
variable (m : (ℓ : Loc nD τ sig) → Buf (Elt Ideal) ℓ) (ρ : Dev nD → PrngReg) (c : Dev nD)

/-- The looked-up rows are the table's rows at the wrapped row numbers: on valid row numbers the fill never happens. -/
theorem W1_v0 (hfp : ∀ t : S8192.Idx, Cert.Gnn.ValidRow (m ((c : Thread nD τ).loc main_arg0) t)) :
    W1 m ρ c (Proc.devRef .tc main_v0) = Cert.Gnn.rows (F := Ideal) (m ((c : Thread nD τ).loc main_arg0)) (m ((c : Thread nD τ).loc main_arg3)) := by
  show StableHlo.after hostOps0 (W0 m ρ c) (Proc.devRef .tc main_v0) = _
  rw [take_of]
  rw [show W0 m ρ c (Proc.devRef .tc main_arg0) = m ((c : Thread nD τ).loc main_arg0) from rfl, show W0 m ρ c (Proc.devRef .tc main_arg3) = m ((c : Thread nD τ).loc main_arg3) from rfl]
  rw [Take.inTable_true _ hfp, Take.select_all_true]
  rfl

/-- Region 0 is entered with the first feed-forward step of the rows … -/
theorem W3_v10 (hfp : ∀ t : S8192.Idx, Cert.Gnn.ValidRow (m ((c : Thread nD τ).loc main_arg0) t)) :
    W3 m ρ c (Proc.devRef .tc main_v10)
    = Cert.Gnn.dense0 (F := Ideal) (m ((c : Thread nD τ).loc main_arg4)) (m ((c : Thread nD τ).loc main_arg5)) (Cert.Gnn.rows (F := Ideal) (m ((c : Thread nD τ).loc main_arg0)) (m ((c : Thread nD τ).loc main_arg3))) := by
  show StableHlo.after hostOps0_2 (StableHlo.after hostOps0_1 (W1 m ρ c)) (Proc.devRef .tc main_v10) = _
  rw [dense0_of, W1_v0 m ρ c hfp, W1_arg4, W1_arg5]

/-- … and leaves its layer. -/
theorem W4_v11 : W4 m ρ c (Proc.devRef .tc main_v11)
    = Cert.Gnn.layer (m ((c : Thread nD τ).loc main_arg1)) (W3 m ρ c (Proc.devRef .tc main_v10)) := by
  refine (W4_arr m ρ c 2).trans ((RegionValue.region0 (V3 m ρ) c).trans ?_)
  rw [show V3 m ρ c (Pipeline.arrRef spec0 0) = W3 m ρ c (Proc.devRef .tc main_arg1) from rfl, W3_arg1]

/-- Region 1 is entered with the second feed-forward step … -/
theorem W6_v21 : W6 m ρ c (Proc.devRef .tc main_v21)
    = Cert.Gnn.dense1 (F := Ideal) (m ((c : Thread nD τ).loc main_arg4)) (m ((c : Thread nD τ).loc main_arg5)) (W4 m ρ c (Proc.devRef .tc main_v11)) := by
  show StableHlo.after hostOps1_1 (StableHlo.after hostOps1 (W4 m ρ c)) (Proc.devRef .tc main_v21) = _
  rw [dense1_of, W4_arg4, W4_arg5]

/-- … and leaves its layer. -/
theorem W7_v22 : W7 m ρ c (Proc.devRef .tc main_v22)
    = Cert.Gnn.layer (m ((c : Thread nD τ).loc main_arg1)) (W6 m ρ c (Proc.devRef .tc main_v21)) := by
  refine (W7_arr m ρ c 2).trans ((RegionValue.region1 (V6 m ρ) c).trans ?_)
  rw [show V6 m ρ c (Pipeline.arrRef spec1 0) = W6 m ρ c (Proc.devRef .tc main_arg1) from rfl, W6_arg1]

/-- Region 2 is entered with the third feed-forward step … -/
theorem W9_v32 : W9 m ρ c (Proc.devRef .tc main_v32)
    = Cert.Gnn.dense2 (F := Ideal) (m ((c : Thread nD τ).loc main_arg4)) (m ((c : Thread nD τ).loc main_arg5)) (W7 m ρ c (Proc.devRef .tc main_v22)) := by
  show StableHlo.after hostOps2_1 (StableHlo.after hostOps2 (W7 m ρ c)) (Proc.devRef .tc main_v32) = _
  rw [dense2_of, W7_arg4, W7_arg5]

/-- … and leaves its layer. -/
theorem W10_v33 : W10 m ρ c (Proc.devRef .tc main_v33)
    = Cert.Gnn.layer (m ((c : Thread nD τ).loc main_arg1)) (W9 m ρ c (Proc.devRef .tc main_v32)) := by
  refine (W10_arr m ρ c 2).trans ((RegionValue.region2 (V9 m ρ) c).trans ?_)
  rw [show V9 m ρ c (Pipeline.arrRef spec2 0) = W9 m ρ c (Proc.devRef .tc main_arg1) from rfl, W9_arg1]

/-- The kernel program's result: the network over the layer's specification, at the table's rows. -/
theorem result_eq (hfp : ∀ t : S8192.Idx, Cert.Gnn.ValidRow (m ((c : Thread nD τ).loc main_arg0) t)) :
    W15 m ρ c (Proc.devRef .tc main_v61)
    = Cert.Gnn.network (F := Ideal) Cert.Gnn.layer (m ((c : Thread nD τ).loc main_arg1)) (m ((c : Thread nD τ).loc main_arg2))
        (m ((c : Thread nD τ).loc main_arg4)) (m ((c : Thread nD τ).loc main_arg5)) (m ((c : Thread nD τ).loc main_arg6)) (m ((c : Thread nD τ).loc main_arg7))
        (m ((c : Thread nD τ).loc main_arg8)) (m ((c : Thread nD τ).loc main_arg9))
        (Cert.Gnn.rows (F := Ideal) (m ((c : Thread nD τ).loc main_arg0)) (m ((c : Thread nD τ).loc main_arg3))) := by
  show StableHlo.after hostOps3_4 (StableHlo.after hostOps3_3 (StableHlo.after hostOps3_2 (StableHlo.after hostOps3_1 (StableHlo.after hostOps3 (W10 m ρ c))))) (Proc.devRef .tc main_v61) = _
  rw [readout_of, W10_arg2, W10_arg6, W10_arg7, W10_arg8, W10_arg9,
    W10_v33, W9_v32, W7_v22, W6_v21, W4_v11, W3_v10 m ρ c hfp]
  rfl

end Values

end Cert.KernelIdeal.Stages

end
-- ==== Proof.RefOps.lean ====
/-
  The reference's 114 host operations, in order, as four lists: the list `ops` of the run cut before its entries 21, 45, 69 (counting from 0).
  Nothing is proved here: the lists are data.
-/
import proofs.«429968_j5119601017308_1_alg».proof.Proof.RefRunP

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- Operations 1–21: the lookup and the first feed-forward step. -/
abbrev ops0 : List (HloOp τ sig (Elt F)) :=
  [ nullary main_c (constantI S_ 32 0#32),
    unary main_c main_v0 (broadcastInDim S8192 ![] bcast_S_S8192 : (⟨S_, .i32⟩ : BufTy).Contents (Elt F) → (⟨S8192, .i32⟩ : BufTy).Contents (Elt F)),
    binary main_arg0 main_v0 main_v1 (cmpi .slt : (⟨S8192, .i32⟩ : BufTy).Contents (Elt F) → (⟨S8192, .i32⟩ : BufTy).Contents (Elt F) → (⟨S8192, .i1⟩ : BufTy).Contents (Elt F)),
    nullary main_c_0 (constantI S_ 32 10000#32),
    unary main_c_0 main_v2 (broadcastInDim S8192 ![] bcast_S_S8192 : (⟨S_, .i32⟩ : BufTy).Contents (Elt F) → (⟨S8192, .i32⟩ : BufTy).Contents (Elt F)),
    binary main_arg0 main_v2 main_v3 (addi : (⟨S8192, .i32⟩ : BufTy).Contents (Elt F) → (⟨S8192, .i32⟩ : BufTy).Contents (Elt F) → (⟨S8192, .i32⟩ : BufTy).Contents (Elt F)),
    ternary main_v1 main_v3 main_arg0 main_v4 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v4 main_v5 (broadcastInDim S8192x1 ![0] bcast_S8192_S8192x1_0 : (⟨S8192, .i32⟩ : BufTy).Contents (Elt F) → (⟨S8192x1, .i32⟩ : BufTy).Contents (Elt F)),
    binary main_arg3 main_v5 main_v6 ((fun x i => Host.gather gather_S10000x64_S8192x1_S8192x64_1_0_n_n_0_1_164 x i) : (⟨S10000x64, .f32⟩ : BufTy).Contents (Elt F) → (⟨S8192x1, .i32⟩ : BufTy).Contents (Elt F) → (⟨S8192x64, .f32⟩ : BufTy).Contents (Elt F)),
    unary main_arg4 main_v7 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v7 main_v8 rfl shapeCasts_S1x64x64_S64x64,
    unary main_v8 main_v9 ((transpose S64x64 [1, 0] · transposes_S64x64_S64x64_1_0) : (⟨S64x64, .f32⟩ : BufTy).Contents (Elt F) → (⟨S64x64, .f32⟩ : BufTy).Contents (Elt F)),
    binary main_v6 main_v9 main_v10 ((fun l r => Host.dotGeneral dot_S8192x64_S64x64_S8192x64_1_0_0_1_n_n none l r) : (⟨S8192x64, .f32⟩ : BufTy).Contents (Elt F) → (⟨S64x64, .f32⟩ : BufTy).Contents (Elt F) → (⟨S8192x64, .f32⟩ : BufTy).Contents (Elt F)),
    unary main_arg5 main_v11 ((extractStridedSlice S1x64 ![0, 0] · slices_S3x64_S1x64_0_0) : (⟨S3x64, .f32⟩ : BufTy).Contents (Elt F) → (⟨S1x64, .f32⟩ : BufTy).Contents (Elt F)),
    reshape main_v11 main_v12 rfl shapeCasts_S1x64_S64,
    unary main_v12 main_v13 (broadcastInDim S1x64 ![1] bcast_S64_S1x64_1 : (⟨S64, .f32⟩ : BufTy).Contents (Elt F) → (⟨S1x64, .f32⟩ : BufTy).Contents (Elt F)),
    unary main_v13 main_v14 (broadcastInDim S8192x64 ![0, 1] bcast_S1x64_S8192x64_0_1 : (⟨S1x64, .f32⟩ : BufTy).Contents (Elt F) → (⟨S8192x64, .f32⟩ : BufTy).Contents (Elt F)),
    binary main_v10 main_v14 main_v15 (addf : (⟨S8192x64, .f32⟩ : BufTy).Contents (Elt F) → (⟨S8192x64, .f32⟩ : BufTy).Contents (Elt F) → (⟨S8192x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S8192x64, .f32⟩) main_call0_v0) (broadcastInDim S8192x64 ![] bcast_S_S8192x64),
    TRef.binary (TRef.of (T := ⟨S8192x64, .f32⟩) main_v15) (TRef.of (T := ⟨S8192x64, .f32⟩) main_call0_v0) (TRef.of (T := ⟨S8192x64, .f32⟩) main_v16) maximumf ]

/-- Operations 22–45: the first layer and the second feed-forward step. -/
abbrev ops1 : List (HloOp τ sig (Elt F)) :=
  [ binary main_arg1 main_v16 main_v17 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    binary main_v16 main_v17 main_v18 (addf : (⟨S8192x64, .f32⟩ : BufTy).Contents (Elt F) → (⟨S8192x64, .f32⟩ : BufTy).Contents (Elt F) → (⟨S8192x64, .f32⟩ : BufTy).Contents (Elt F)),
    TRef.binary (TRef.of (T := ⟨S8192x64, .f32⟩) main_v18) (TRef.of (T := ⟨S8192x64, .f32⟩) main_v18) (TRef.of (T := ⟨S8192x64, .f32⟩) main_call1_v0) mulf,
    TRef.nullary (TRef.of (T := ⟨S_, .f32⟩) main_call1_cst) (constant S_ .f32 0x00000000#32),
    TRef.binary (TRef.of (T := ⟨S8192x64, .f32⟩) main_call1_v0) (TRef.of (T := ⟨S_, .f32⟩) main_call1_cst) (TRef.of (T := ⟨S8192, .f32⟩) main_call1_v1) (fun x v => Host.reduceAdd x v reducesTo_S8192x64_S8192_d1 h_S_),
    TRef.unary (TRef.of (T := ⟨S8192, .f32⟩) main_call1_v1) (TRef.of (T := ⟨S8192x1, .f32⟩) main_call1_v2) (broadcastInDim S8192x1 ![0] bcast_S8192_S8192x1_0),
    TRef.unary (TRef.of (T := ⟨S8192x1, .f32⟩) main_call1_v2) (TRef.of (T := ⟨S8192x1, .f32⟩) main_v19) Host.sqrt,
    nullary main_cst (constant S_ .f32 0x2B8CBCCC#32),
    unary main_cst main_v20 (broadcastInDim S8192x1 ![] bcast_S_S8192x1 : (⟨S_, .f32⟩ : BufTy).Contents (Elt F) → (⟨S8192x1, .f32⟩ : BufTy).Contents (Elt F)),
    binary main_v19 main_v20 main_v21 (maximumf : (⟨S8192x1, .f32⟩ : BufTy).Contents (Elt F) → (⟨S8192x1, .f32⟩ : BufTy).Contents (Elt F) → (⟨S8192x1, .f32⟩ : BufTy).Contents (Elt F)),
    unary main_v21 main_v22 (broadcastInDim S8192x64 ![0, 1] bcast_S8192x1_S8192x64_0_1 : (⟨S8192x1, .f32⟩ : BufTy).Contents (Elt F) → (⟨S8192x64, .f32⟩ : BufTy).Contents (Elt F)),
    binary main_v18 main_v22 main_v23 (Host.divf : (⟨S8192x64, .f32⟩ : BufTy).Contents (Elt F) → (⟨S8192x64, .f32⟩ : BufTy).Contents (Elt F) → (⟨S8192x64, .f32⟩ : BufTy).Contents (Elt F)),
    unary main_arg4 main_v24 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v24 main_v25 rfl shapeCasts_S1x64x64_S64x64,
    unary main_v25 main_v26 ((transpose S64x64 [1, 0] · transposes_S64x64_S64x64_1_0) : (⟨S64x64, .f32⟩ : BufTy).Contents (Elt F) → (⟨S64x64, .f32⟩ : BufTy).Contents (Elt F)),
    binary main_v23 main_v26 main_v27 ((fun l r => Host.dotGeneral dot_S8192x64_S64x64_S8192x64_1_0_0_1_n_n none l r) : (⟨S8192x64, .f32⟩ : BufTy).Contents (Elt F) → (⟨S64x64, .f32⟩ : BufTy).Contents (Elt F) → (⟨S8192x64, .f32⟩ : BufTy).Contents (Elt F)),
    unary main_arg5 main_v28 ((extractStridedSlice S1x64 ![1, 0] · slices_S3x64_S1x64_1_0) : (⟨S3x64, .f32⟩ : BufTy).Contents (Elt F) → (⟨S1x64, .f32⟩ : BufTy).Contents (Elt F)),
    reshape main_v28 main_v29 rfl shapeCasts_S1x64_S64,
    unary main_v29 main_v30 (broadcastInDim S1x64 ![1] bcast_S64_S1x64_1 : (⟨S64, .f32⟩ : BufTy).Contents (Elt F) → (⟨S1x64, .f32⟩ : BufTy).Contents (Elt F)),
    unary main_v30 main_v31 (broadcastInDim S8192x64 ![0, 1] bcast_S1x64_S8192x64_0_1 : (⟨S1x64, .f32⟩ : BufTy).Contents (Elt F) → (⟨S8192x64, .f32⟩ : BufTy).Contents (Elt F)),
    binary main_v27 main_v31 main_v32 (addf : (⟨S8192x64, .f32⟩ : BufTy).Contents (Elt F) → (⟨S8192x64, .f32⟩ : BufTy).Contents (Elt F) → (⟨S8192x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S8192x64, .f32⟩) main_call2_v0) (broadcastInDim S8192x64 ![] bcast_S_S8192x64),
    TRef.binary (TRef.of (T := ⟨S8192x64, .f32⟩) main_v32) (TRef.of (T := ⟨S8192x64, .f32⟩) main_call2_v0) (TRef.of (T := ⟨S8192x64, .f32⟩) main_v33) maximumf ]

/-- Operations 46–69: the second layer and the third feed-forward step. -/
abbrev ops2 : List (HloOp τ sig (Elt F)) :=
  [ binary main_arg1 main_v33 main_v34 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    binary main_v33 main_v34 main_v35 (addf : (⟨S8192x64, .f32⟩ : BufTy).Contents (Elt F) → (⟨S8192x64, .f32⟩ : BufTy).Contents (Elt F) → (⟨S8192x64, .f32⟩ : BufTy).Contents (Elt F)),
    TRef.binary (TRef.of (T := ⟨S8192x64, .f32⟩) main_v35) (TRef.of (T := ⟨S8192x64, .f32⟩) main_v35) (TRef.of (T := ⟨S8192x64, .f32⟩) main_call3_v0) mulf,
    TRef.nullary (TRef.of (T := ⟨S_, .f32⟩) main_call3_cst) (constant S_ .f32 0x00000000#32),
    TRef.binary (TRef.of (T := ⟨S8192x64, .f32⟩) main_call3_v0) (TRef.of (T := ⟨S_, .f32⟩) main_call3_cst) (TRef.of (T := ⟨S8192, .f32⟩) main_call3_v1) (fun x v => Host.reduceAdd x v reducesTo_S8192x64_S8192_d1 h_S_),
    TRef.unary (TRef.of (T := ⟨S8192, .f32⟩) main_call3_v1) (TRef.of (T := ⟨S8192x1, .f32⟩) main_call3_v2) (broadcastInDim S8192x1 ![0] bcast_S8192_S8192x1_0),
    TRef.unary (TRef.of (T := ⟨S8192x1, .f32⟩) main_call3_v2) (TRef.of (T := ⟨S8192x1, .f32⟩) main_v36) Host.sqrt,
    nullary main_cst_1 (constant S_ .f32 0x2B8CBCCC#32),
    unary main_cst_1 main_v37 (broadcastInDim S8192x1 ![] bcast_S_S8192x1 : (⟨S_, .f32⟩ : BufTy).Contents (Elt F) → (⟨S8192x1, .f32⟩ : BufTy).Contents (Elt F)),
    binary main_v36 main_v37 main_v38 (maximumf : (⟨S8192x1, .f32⟩ : BufTy).Contents (Elt F) → (⟨S8192x1, .f32⟩ : BufTy).Contents (Elt F) → (⟨S8192x1, .f32⟩ : BufTy).Contents (Elt F)),
    unary main_v38 main_v39 (broadcastInDim S8192x64 ![0, 1] bcast_S8192x1_S8192x64_0_1 : (⟨S8192x1, .f32⟩ : BufTy).Contents (Elt F) → (⟨S8192x64, .f32⟩ : BufTy).Contents (Elt F)),
    binary main_v35 main_v39 main_v40 (Host.divf : (⟨S8192x64, .f32⟩ : BufTy).Contents (Elt F) → (⟨S8192x64, .f32⟩ : BufTy).Contents (Elt F) → (⟨S8192x64, .f32⟩ : BufTy).Contents (Elt F)),
    unary main_arg4 main_v41 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v41 main_v42 rfl shapeCasts_S1x64x64_S64x64,
    unary main_v42 main_v43 ((transpose S64x64 [1, 0] · transposes_S64x64_S64x64_1_0) : (⟨S64x64, .f32⟩ : BufTy).Contents (Elt F) → (⟨S64x64, .f32⟩ : BufTy).Contents (Elt F)),
    binary main_v40 main_v43 main_v44 ((fun l r => Host.dotGeneral dot_S8192x64_S64x64_S8192x64_1_0_0_1_n_n none l r) : (⟨S8192x64, .f32⟩ : BufTy).Contents (Elt F) → (⟨S64x64, .f32⟩ : BufTy).Contents (Elt F) → (⟨S8192x64, .f32⟩ : BufTy).Contents (Elt F)),
    unary main_arg5 main_v45 ((extractStridedSlice S1x64 ![2, 0] · slices_S3x64_S1x64_2_0) : (⟨S3x64, .f32⟩ : BufTy).Contents (Elt F) → (⟨S1x64, .f32⟩ : BufTy).Contents (Elt F)),
    reshape main_v45 main_v46 rfl shapeCasts_S1x64_S64,
    unary main_v46 main_v47 (broadcastInDim S1x64 ![1] bcast_S64_S1x64_1 : (⟨S64, .f32⟩ : BufTy).Contents (Elt F) → (⟨S1x64, .f32⟩ : BufTy).Contents (Elt F)),
    unary main_v47 main_v48 (broadcastInDim S8192x64 ![0, 1] bcast_S1x64_S8192x64_0_1 : (⟨S1x64, .f32⟩ : BufTy).Contents (Elt F) → (⟨S8192x64, .f32⟩ : BufTy).Contents (Elt F)),
    binary main_v44 main_v48 main_v49 (addf : (⟨S8192x64, .f32⟩ : BufTy).Contents (Elt F) → (⟨S8192x64, .f32⟩ : BufTy).Contents (Elt F) → (⟨S8192x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S8192x64, .f32⟩) main_call4_v0) (broadcastInDim S8192x64 ![] bcast_S_S8192x64),
    TRef.binary (TRef.of (T := ⟨S8192x64, .f32⟩) main_v49) (TRef.of (T := ⟨S8192x64, .f32⟩) main_call4_v0) (TRef.of (T := ⟨S8192x64, .f32⟩) main_v50) maximumf ]

/-- Operations 70–114: the third layer and the readout. -/
abbrev ops3 : List (HloOp τ sig (Elt F)) :=
  [ binary main_arg1 main_v50 main_v51 ((fun l r => Host.dotGeneral dot_S8192x8192_S8192x64_S8192x64_1_0_0_1_n_n none l r) : (⟨S8192x8192, .f32⟩ : BufTy).Contents (Elt F) → (⟨S8192x64, .f32⟩ : BufTy).Contents (Elt F) → (⟨S8192x64, .f32⟩ : BufTy).Contents (Elt F)),
    binary main_v50 main_v51 main_v52 (addf : (⟨S8192x64, .f32⟩ : BufTy).Contents (Elt F) → (⟨S8192x64, .f32⟩ : BufTy).Contents (Elt F) → (⟨S8192x64, .f32⟩ : BufTy).Contents (Elt F)),
    TRef.binary (TRef.of (T := ⟨S8192x64, .f32⟩) main_v52) (TRef.of (T := ⟨S8192x64, .f32⟩) main_v52) (TRef.of (T := ⟨S8192x64, .f32⟩) main_call5_v0) mulf,
    TRef.nullary (TRef.of (T := ⟨S_, .f32⟩) main_call5_cst) (constant S_ .f32 0x00000000#32),
    TRef.binary (TRef.of (T := ⟨S8192x64, .f32⟩) main_call5_v0) (TRef.of (T := ⟨S_, .f32⟩) main_call5_cst) (TRef.of (T := ⟨S8192, .f32⟩) main_call5_v1) (fun x v => Host.reduceAdd x v reducesTo_S8192x64_S8192_d1 h_S_),
    TRef.unary (TRef.of (T := ⟨S8192, .f32⟩) main_call5_v1) (TRef.of (T := ⟨S8192x1, .f32⟩) main_call5_v2) (broadcastInDim S8192x1 ![0] bcast_S8192_S8192x1_0),
    TRef.unary (TRef.of (T := ⟨S8192x1, .f32⟩) main_call5_v2) (TRef.of (T := ⟨S8192x1, .f32⟩) main_v53) Host.sqrt,
    nullary main_cst_2 (constant S_ .f32 0x2B8CBCCC#32),
    unary main_cst_2 main_v54 (broadcastInDim S8192x1 ![] bcast_S_S8192x1 : (⟨S_, .f32⟩ : BufTy).Contents (Elt F) → (⟨S8192x1, .f32⟩ : BufTy).Contents (Elt F)),
    binary main_v53 main_v54 main_v55 (maximumf : (⟨S8192x1, .f32⟩ : BufTy).Contents (Elt F) → (⟨S8192x1, .f32⟩ : BufTy).Contents (Elt F) → (⟨S8192x1, .f32⟩ : BufTy).Contents (Elt F)),
    unary main_v55 main_v56 (broadcastInDim S8192x64 ![0, 1] bcast_S8192x1_S8192x64_0_1 : (⟨S8192x1, .f32⟩ : BufTy).Contents (Elt F) → (⟨S8192x64, .f32⟩ : BufTy).Contents (Elt F)),
    binary main_v52 main_v56 main_v57 (Host.divf : (⟨S8192x64, .f32⟩ : BufTy).Contents (Elt F) → (⟨S8192x64, .f32⟩ : BufTy).Contents (Elt F) → (⟨S8192x64, .f32⟩ : BufTy).Contents (Elt F)),
    nullary main_cst_3 (constant S_ .f32 0x00000000#32),
    unary main_cst_3 main_v58 (broadcastInDim S256x64 ![] bcast_S_S256x64 : (⟨S_, .f32⟩ : BufTy).Contents (Elt F) → (⟨S256x64, .f32⟩ : BufTy).Contents (Elt F)),
    unary main_arg2 main_v59 (broadcastInDim S8192x1 ![0] bcast_S8192_S8192x1_0 : (⟨S8192, .i32⟩ : BufTy).Contents (Elt F) → (⟨S8192x1, .i32⟩ : BufTy).Contents (Elt F)),
    ternary main_v58 main_v59 main_v57 main_v60 ((fun x i u => Host.scatterAdd scatter_S256x64_S8192x1_S8192x64_1_0_0_1 x i u) : (⟨S256x64, .f32⟩ : BufTy).Contents (Elt F) → (⟨S8192x1, .i32⟩ : BufTy).Contents (Elt F) → (⟨S8192x64, .f32⟩ : BufTy).Contents (Elt F) → (⟨S256x64, .f32⟩ : BufTy).Contents (Elt F)),
    unary main_arg6 main_v61 ((extractStridedSlice S1x64x64 ![0, 0, 0] · slices_S2x64x64_S1x64x64_0_0_0) : (⟨S2x64x64, .f32⟩ : BufTy).Contents (Elt F) → (⟨S1x64x64, .f32⟩ : BufTy).Contents (Elt F)),
    reshape main_v61 main_v62 rfl shapeCasts_S1x64x64_S64x64,
    unary main_v62 main_v63 ((transpose S64x64 [1, 0] · transposes_S64x64_S64x64_1_0) : (⟨S64x64, .f32⟩ : BufTy).Contents (Elt F) → (⟨S64x64, .f32⟩ : BufTy).Contents (Elt F)),
    binary main_v60 main_v63 main_v64 ((fun l r => Host.dotGeneral dot_S256x64_S64x64_S256x64_1_0_0_1_n_n none l r) : (⟨S256x64, .f32⟩ : BufTy).Contents (Elt F) → (⟨S64x64, .f32⟩ : BufTy).Contents (Elt F) → (⟨S256x64, .f32⟩ : BufTy).Contents (Elt F)),
    unary main_arg7 main_v65 ((extractStridedSlice S1x64 ![0, 0] · slices_S2x64_S1x64_0_0) : (⟨S2x64, .f32⟩ : BufTy).Contents (Elt F) → (⟨S1x64, .f32⟩ : BufTy).Contents (Elt F)),
    reshape main_v65 main_v66 rfl shapeCasts_S1x64_S64,
    unary main_v66 main_v67 (broadcastInDim S1x64 ![1] bcast_S64_S1x64_1 : (⟨S64, .f32⟩ : BufTy).Contents (Elt F) → (⟨S1x64, .f32⟩ : BufTy).Contents (Elt F)),
    unary main_v67 main_v68 (broadcastInDim S256x64 ![0, 1] bcast_S1x64_S256x64_0_1 : (⟨S1x64, .f32⟩ : BufTy).Contents (Elt F) → (⟨S256x64, .f32⟩ : BufTy).Contents (Elt F)),
    binary main_v64 main_v68 main_v69 (addf : (⟨S256x64, .f32⟩ : BufTy).Contents (Elt F) → (⟨S256x64, .f32⟩ : BufTy).Contents (Elt F) → (⟨S256x64, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S256x64, .f32⟩) main_call6_v0) (broadcastInDim S256x64 ![] bcast_S_S256x64),
    TRef.binary (TRef.of (T := ⟨S256x64, .f32⟩) main_v69) (TRef.of (T := ⟨S256x64, .f32⟩) main_call6_v0) (TRef.of (T := ⟨S256x64, .f32⟩) main_v70) maximumf,
    unary main_arg6 main_v71 ((extractStridedSlice S1x64x64 ![1, 0, 0] · slices_S2x64x64_S1x64x64_1_0_0) : (⟨S2x64x64, .f32⟩ : BufTy).Contents (Elt F) → (⟨S1x64x64, .f32⟩ : BufTy).Contents (Elt F)),
    reshape main_v71 main_v72 rfl shapeCasts_S1x64x64_S64x64,
    unary main_v72 main_v73 ((transpose S64x64 [1, 0] · transposes_S64x64_S64x64_1_0) : (⟨S64x64, .f32⟩ : BufTy).Contents (Elt F) → (⟨S64x64, .f32⟩ : BufTy).Contents (Elt F)),
    binary main_v70 main_v73 main_v74 ((fun l r => Host.dotGeneral dot_S256x64_S64x64_S256x64_1_0_0_1_n_n none l r) : (⟨S256x64, .f32⟩ : BufTy).Contents (Elt F) → (⟨S64x64, .f32⟩ : BufTy).Contents (Elt F) → (⟨S256x64, .f32⟩ : BufTy).Contents (Elt F)),
    unary main_arg7 main_v75 ((extractStridedSlice S1x64 ![1, 0] · slices_S2x64_S1x64_1_0) : (⟨S2x64, .f32⟩ : BufTy).Contents (Elt F) → (⟨S1x64, .f32⟩ : BufTy).Contents (Elt F)),
    reshape main_v75 main_v76 rfl shapeCasts_S1x64_S64,
    unary main_v76 main_v77 (broadcastInDim S1x64 ![1] bcast_S64_S1x64_1 : (⟨S64, .f32⟩ : BufTy).Contents (Elt F) → (⟨S1x64, .f32⟩ : BufTy).Contents (Elt F)),
    unary main_v77 main_v78 (broadcastInDim S256x64 ![0, 1] bcast_S1x64_S256x64_0_1 : (⟨S1x64, .f32⟩ : BufTy).Contents (Elt F) → (⟨S256x64, .f32⟩ : BufTy).Contents (Elt F)),
    binary main_v74 main_v78 main_v79 (addf : (⟨S256x64, .f32⟩ : BufTy).Contents (Elt F) → (⟨S256x64, .f32⟩ : BufTy).Contents (Elt F) → (⟨S256x64, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S256x64, .f32⟩) main_call7_v0) (broadcastInDim S256x64 ![] bcast_S_S256x64),
    TRef.binary (TRef.of (T := ⟨S256x64, .f32⟩) main_v79) (TRef.of (T := ⟨S256x64, .f32⟩) main_call7_v0) (TRef.of (T := ⟨S256x64, .f32⟩) main_v80) maximumf,
    unary main_arg8 main_v81 ((transpose S64x1 [1, 0] · transposes_S1x64_S64x1_1_0) : (⟨S1x64, .f32⟩ : BufTy).Contents (Elt F) → (⟨S64x1, .f32⟩ : BufTy).Contents (Elt F)),
    binary main_v80 main_v81 main_v82 ((fun l r => Host.dotGeneral dot_S256x64_S64x1_S256x1_1_0_0_1_n_n none l r) : (⟨S256x64, .f32⟩ : BufTy).Contents (Elt F) → (⟨S64x1, .f32⟩ : BufTy).Contents (Elt F) → (⟨S256x1, .f32⟩ : BufTy).Contents (Elt F)),
    unary main_arg9 main_v83 (broadcastInDim S1x1 ![1] bcast_S1_S1x1_1 : (⟨S1, .f32⟩ : BufTy).Contents (Elt F) → (⟨S1x1, .f32⟩ : BufTy).Contents (Elt F)),
    unary main_v83 main_v84 (broadcastInDim S256x1 ![0, 1] bcast_S1x1_S256x1_0_1 : (⟨S1x1, .f32⟩ : BufTy).Contents (Elt F) → (⟨S256x1, .f32⟩ : BufTy).Contents (Elt F)),
    binary main_v82 main_v84 main_v85 (addf : (⟨S256x1, .f32⟩ : BufTy).Contents (Elt F) → (⟨S256x1, .f32⟩ : BufTy).Contents (Elt F) → (⟨S256x1, .f32⟩ : BufTy).Contents (Elt F)) ]

end Cert.ReferenceIdeal.Stages

end
-- ==== Proof.RefStages.lean ====
/-
  The reference's run, read back in four stretches (the lists `ops0` … `ops3`). Its 114 host operations are cut where a value starts to be read more
  than once: after the lookup and the first feed-forward step; after each of the first two layers with the feed-forward
  step that follows it; the third layer with the readout. Each level's buffer contents are the operations of its stretch
  folded over the level before; a value is then a SHORT term over the previous level's values — the shared steps of
  `Cert.Gnn` — and the whole result is `Cert.Gnn.network` at the layer's specification.
-/
import proofs.«429968_j5119601017308_1_alg».proof.Proof.RefOps
import proofs.«429968_j5119601017308_1_alg».proof.Proof.HostChain

set_option maxRecDepth 8192

noncomputable section

namespace Cert.ReferenceIdeal.Stages

open Cert.ReferenceIdeal Cert.ReferenceIdeal.Gen Cert.ReferenceIdeal.RunP Cert.Gnn
open Idealize.ShloMosaic Idealize.ShloMosaic.TcCoe Idealize.SL.Sem Idealize.ShloMosaic.StableHlo

variable {F : FTy → Type} [FloatOps F]

variable (m : (ℓ : Loc nD τ sig) → Buf (Elt F) ℓ) (c : Dev nD)

/-- The buffers after the first stretch … -/
def Q1 : Valuation τ sig (Elt F) := after ops0 (launchContents m c)
/-- … the second … -/
def Q2 : Valuation τ sig (Elt F) := after ops1 (Q1 m c)
/-- … the third … -/
def Q3 : Valuation τ sig (Elt F) := after ops2 (Q2 m c)
/-- … and the last. -/
def Q4 : Valuation τ sig (Elt F) := after ops3 (Q3 m c)

/-- The four stretches in order are the whole list, so the fold over the list is the last level. -/
theorem fold_eq : after ops (launchContents m c) = Q4 m c := by
  unfold Q4 Q3 Q2 Q1; rfl

/-! ## The argument arrays at each level: no operation writes one -/

theorem Q1_arg1 : Q1 m c (Proc.devRef .tc main_arg1) = m ((c.tc : Thread nD τ).loc main_arg1) := by
  unfold Q1; after_results
theorem Q2_arg1 : Q2 m c (Proc.devRef .tc main_arg1) = m ((c.tc : Thread nD τ).loc main_arg1) := by
  unfold Q2; after_results; exact Q1_arg1 m c
theorem Q3_arg1 : Q3 m c (Proc.devRef .tc main_arg1) = m ((c.tc : Thread nD τ).loc main_arg1) := by
  unfold Q3; after_results; exact Q2_arg1 m c
theorem Q1_arg2 : Q1 m c (Proc.devRef .tc main_arg2) = m ((c.tc : Thread nD τ).loc main_arg2) := by
  unfold Q1; after_results
theorem Q2_arg2 : Q2 m c (Proc.devRef .tc main_arg2) = m ((c.tc : Thread nD τ).loc main_arg2) := by
  unfold Q2; after_results; exact Q1_arg2 m c
theorem Q3_arg2 : Q3 m c (Proc.devRef .tc main_arg2) = m ((c.tc : Thread nD τ).loc main_arg2) := by
  unfold Q3; after_results; exact Q2_arg2 m c
theorem Q1_arg4 : Q1 m c (Proc.devRef .tc main_arg4) = m ((c.tc : Thread nD τ).loc main_arg4) := by
  unfold Q1; after_results
theorem Q2_arg4 : Q2 m c (Proc.devRef .tc main_arg4) = m ((c.tc : Thread nD τ).loc main_arg4) := by
  unfold Q2; after_results; exact Q1_arg4 m c
theorem Q3_arg4 : Q3 m c (Proc.devRef .tc main_arg4) = m ((c.tc : Thread nD τ).loc main_arg4) := by
  unfold Q3; after_results; exact Q2_arg4 m c
theorem Q1_arg5 : Q1 m c (Proc.devRef .tc main_arg5) = m ((c.tc : Thread nD τ).loc main_arg5) := by
  unfold Q1; after_results
theorem Q2_arg5 : Q2 m c (Proc.devRef .tc main_arg5) = m ((c.tc : Thread nD τ).loc main_arg5) := by
  unfold Q2; after_results; exact Q1_arg5 m c
theorem Q3_arg5 : Q3 m c (Proc.devRef .tc main_arg5) = m ((c.tc : Thread nD τ).loc main_arg5) := by
  unfold Q3; after_results; exact Q2_arg5 m c
theorem Q1_arg6 : Q1 m c (Proc.devRef .tc main_arg6) = m ((c.tc : Thread nD τ).loc main_arg6) := by
  unfold Q1; after_results
theorem Q2_arg6 : Q2 m c (Proc.devRef .tc main_arg6) = m ((c.tc : Thread nD τ).loc main_arg6) := by
  unfold Q2; after_results; exact Q1_arg6 m c
theorem Q3_arg6 : Q3 m c (Proc.devRef .tc main_arg6) = m ((c.tc : Thread nD τ).loc main_arg6) := by
  unfold Q3; after_results; exact Q2_arg6 m c
theorem Q1_arg7 : Q1 m c (Proc.devRef .tc main_arg7) = m ((c.tc : Thread nD τ).loc main_arg7) := by
  unfold Q1; after_results
theorem Q2_arg7 : Q2 m c (Proc.devRef .tc main_arg7) = m ((c.tc : Thread nD τ).loc main_arg7) := by
  unfold Q2; after_results; exact Q1_arg7 m c
theorem Q3_arg7 : Q3 m c (Proc.devRef .tc main_arg7) = m ((c.tc : Thread nD τ).loc main_arg7) := by
  unfold Q3; after_results; exact Q2_arg7 m c
theorem Q1_arg8 : Q1 m c (Proc.devRef .tc main_arg8) = m ((c.tc : Thread nD τ).loc main_arg8) := by
  unfold Q1; after_results
theorem Q2_arg8 : Q2 m c (Proc.devRef .tc main_arg8) = m ((c.tc : Thread nD τ).loc main_arg8) := by
  unfold Q2; after_results; exact Q1_arg8 m c
theorem Q3_arg8 : Q3 m c (Proc.devRef .tc main_arg8) = m ((c.tc : Thread nD τ).loc main_arg8) := by
  unfold Q3; after_results; exact Q2_arg8 m c
theorem Q1_arg9 : Q1 m c (Proc.devRef .tc main_arg9) = m ((c.tc : Thread nD τ).loc main_arg9) := by
  unfold Q1; after_results
theorem Q2_arg9 : Q2 m c (Proc.devRef .tc main_arg9) = m ((c.tc : Thread nD τ).loc main_arg9) := by
  unfold Q2; after_results; exact Q1_arg9 m c
theorem Q3_arg9 : Q3 m c (Proc.devRef .tc main_arg9) = m ((c.tc : Thread nD τ).loc main_arg9) := by
  unfold Q3; after_results; exact Q2_arg9 m c

/-! ## The values at the cuts -/

set_option maxHeartbeats 2000000 in
/-- After the first stretch: the first feed-forward step of the table's rows. -/
theorem Q1_v16 : Q1 m c (Proc.devRef .tc main_v16)
    = dense0 (m ((c.tc : Thread nD τ).loc main_arg4)) (m ((c.tc : Thread nD τ).loc main_arg5))
        (rows (m ((c.tc : Thread nD τ).loc main_arg0)) (m ((c.tc : Thread nD τ).loc main_arg3))) := by
  unfold Q1; after_results_simp; rfl

set_option maxHeartbeats 2000000 in
/-- After the second: the second feed-forward step of the first layer. -/
theorem Q2_v33 : Q2 m c (Proc.devRef .tc main_v33)
    = dense1 (m ((c.tc : Thread nD τ).loc main_arg4)) (m ((c.tc : Thread nD τ).loc main_arg5))
        (hostLayer (m ((c.tc : Thread nD τ).loc main_arg1)) (Q1 m c (Proc.devRef .tc main_v16))) := by
  unfold Q2; after_results_simp
  rw [Q1_arg1, Q1_arg4, Q1_arg5]; rfl

set_option maxHeartbeats 2000000 in
/-- After the third: the third feed-forward step of the second layer. -/
theorem Q3_v50 : Q3 m c (Proc.devRef .tc main_v50)
    = dense2 (m ((c.tc : Thread nD τ).loc main_arg4)) (m ((c.tc : Thread nD τ).loc main_arg5))
        (hostLayer (m ((c.tc : Thread nD τ).loc main_arg1)) (Q2 m c (Proc.devRef .tc main_v33))) := by
  unfold Q3; after_results_simp
  rw [Q2_arg1, Q2_arg4, Q2_arg5]; rfl

set_option maxHeartbeats 2000000 in
/-- At the end: the readout of the third layer. -/
theorem Q4_v85 : Q4 m c (Proc.devRef .tc main_v85)
    = readout (m ((c.tc : Thread nD τ).loc main_arg2)) (m ((c.tc : Thread nD τ).loc main_arg6))
        (m ((c.tc : Thread nD τ).loc main_arg7)) (m ((c.tc : Thread nD τ).loc main_arg8)) (m ((c.tc : Thread nD τ).loc main_arg9))
        (hostLayer (m ((c.tc : Thread nD τ).loc main_arg1)) (Q3 m c (Proc.devRef .tc main_v50))) := by
  unfold Q4; after_results_simp
  rw [Q3_arg1, Q3_arg2, Q3_arg6, Q3_arg7, Q3_arg8, Q3_arg9]; rfl

/-! ## The arguments at the end -/

theorem end_arg0 : after ops (launchContents m c) (Proc.devRef .tc main_arg0) = m ((c.tc : Thread nD τ).loc main_arg0) := by
  after_results_simp <;> rfl
theorem end_arg1 : after ops (launchContents m c) (Proc.devRef .tc main_arg1) = m ((c.tc : Thread nD τ).loc main_arg1) := by
  after_results_simp <;> rfl
theorem end_arg2 : after ops (launchContents m c) (Proc.devRef .tc main_arg2) = m ((c.tc : Thread nD τ).loc main_arg2) := by
  after_results_simp <;> rfl
theorem end_arg3 : after ops (launchContents m c) (Proc.devRef .tc main_arg3) = m ((c.tc : Thread nD τ).loc main_arg3) := by
  after_results_simp <;> rfl
theorem end_arg4 : after ops (launchContents m c) (Proc.devRef .tc main_arg4) = m ((c.tc : Thread nD τ).loc main_arg4) := by
  after_results_simp <;> rfl
theorem end_arg5 : after ops (launchContents m c) (Proc.devRef .tc main_arg5) = m ((c.tc : Thread nD τ).loc main_arg5) := by
  after_results_simp <;> rfl
theorem end_arg6 : after ops (launchContents m c) (Proc.devRef .tc main_arg6) = m ((c.tc : Thread nD τ).loc main_arg6) := by
  after_results_simp <;> rfl
theorem end_arg7 : after ops (launchContents m c) (Proc.devRef .tc main_arg7) = m ((c.tc : Thread nD τ).loc main_arg7) := by
  after_results_simp <;> rfl
theorem end_arg8 : after ops (launchContents m c) (Proc.devRef .tc main_arg8) = m ((c.tc : Thread nD τ).loc main_arg8) := by
  after_results_simp <;> rfl
theorem end_arg9 : after ops (launchContents m c) (Proc.devRef .tc main_arg9) = m ((c.tc : Thread nD τ).loc main_arg9) := by
  after_results_simp <;> rfl

end Cert.ReferenceIdeal.Stages

end
-- ==== Proof.RefLayer.lean ====
/-
  The reference's layer, spelled with host operations (`Cert.Gnn.hostLayer`), read at an index on the extended reals:
  the matrix product is the sum over `k` of `A(r, k) · h(k, j)`, the row reduction the sum over `j` of the squares (from
  the zero it starts at), the two broadcasts read a row's value at each of its columns — which is `Cert.Gnn.layer`.
-/
import proofs.«429968_j5119601017308_1_alg».proof.Proof.HostChain
import proofs.«429968_j5119601017308_1_alg».proof.Proof.LayerSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Gnn

open Cert.ReferenceIdeal Cert.ReferenceIdeal.Gen Idealize.ShloMosaic Idealize.ShloMosaic.ValueIdx

/-! ## The matrix product `A · h` at an index

The product contracts axis 1 of `A` with axis 0 of `h`. At the output index `(r, j)` and the contraction position `k`
the left operand is read at `(r, k)` and the right one at `(k, j)`: one lemma per operand axis. -/

/-- The left operand's row is the output's row. -/
theorem lhs_AH_0 (i : S8192x64.Idx) (q : dot_S8192x8192_S8192x64_S8192x64_1_0_0_1_n_n.contr.Idx) :
    (dot_S8192x8192_S8192x64_S8192x64_1_0_0_1_n_n.lhsIdx i q 0).val = (i 0).val := by
  unfold DotDims.lhsIdx
  rw [dif_neg (show ¬(0 : Fin S8192x8192.rank) ∈ dot_S8192x8192_S8192x64_S8192x64_1_0_0_1_n_n.lhsBatch by decide),
    dif_pos (show (0 : Fin S8192x8192.rank) ∈ dot_S8192x8192_S8192x64_S8192x64_1_0_0_1_n_n.lhsNonContracting by decide)]
  rfl

/-- The left operand's column is the contraction position. -/
theorem lhs_AH_1 (i : S8192x64.Idx) (q : dot_S8192x8192_S8192x64_S8192x64_1_0_0_1_n_n.contr.Idx) :
    (dot_S8192x8192_S8192x64_S8192x64_1_0_0_1_n_n.lhsIdx i q 1).val = (q ⟨0, by decide⟩).val :=
  dot_S8192x8192_S8192x64_S8192x64_1_0_0_1_n_n.lhsIdx_val_of_single rfl i q

/-- The right operand's row is the contraction position. -/
theorem rhs_AH_0 (i : S8192x64.Idx) (q : dot_S8192x8192_S8192x64_S8192x64_1_0_0_1_n_n.contr.Idx) :
    (dot_S8192x8192_S8192x64_S8192x64_1_0_0_1_n_n.rhsIdx i q 0).val = (q ⟨0, by decide⟩).val :=
  dot_S8192x8192_S8192x64_S8192x64_1_0_0_1_n_n.rhsIdx_val_of_single rfl i q

/-- The right operand's column is the output's column. -/
theorem rhs_AH_1 (i : S8192x64.Idx) (q : dot_S8192x8192_S8192x64_S8192x64_1_0_0_1_n_n.contr.Idx) :
    (dot_S8192x8192_S8192x64_S8192x64_1_0_0_1_n_n.rhsIdx i q 1).val = (i 1).val := by
  unfold DotDims.rhsIdx
  rw [dif_neg (show ¬(1 : Fin S8192x64.rank) ∈ dot_S8192x8192_S8192x64_S8192x64_1_0_0_1_n_n.rhsBatch by decide),
    dif_pos (show (1 : Fin S8192x64.rank) ∈ dot_S8192x8192_S8192x64_S8192x64_1_0_0_1_n_n.rhsNonContracting by decide)]
  rfl

/-- The product at `(r, j)` is `∑ k, A(r, k) · h(k, j)`. -/
theorem dotAH_apply (A : FVec Ideal S8192x8192 .f32) (h : FVec Ideal S8192x64 .f32) (r : Fin 8192) (j : Fin 64) :
    Host.dotGeneral (F := Ideal) dot_S8192x8192_S8192x64_S8192x64_1_0_0_1_n_n none A h (ix2 r j)
      = ∑ k : Fin 8192, A (ix2 r k) * h (ix2 k j) := by
  simp only [Host.dotGeneral]
  rw [Ideal.dotGeneral_apply, ← Equiv.sum_comp (contrEquiv1 dot_S8192x8192_S8192x64_S8192x64_1_0_0_1_n_n 8192 rfl rfl).symm]
  refine Finset.sum_congr rfl fun k _ => ?_
  have hk := contrEquiv1_symm_val dot_S8192x8192_S8192x64_S8192x64_1_0_0_1_n_n 8192 rfl rfl k
  have el : dot_S8192x8192_S8192x64_S8192x64_1_0_0_1_n_n.lhsIdx (ix2 r j) ((contrEquiv1 dot_S8192x8192_S8192x64_S8192x64_1_0_0_1_n_n 8192 rfl rfl).symm k) = ix2 r k :=
    funext fun a => Fin.ext (by
      match a with
      | ⟨0, _⟩ => exact lhs_AH_0 _ _
      | ⟨1, _⟩ => exact (lhs_AH_1 _ _).trans hk)
  have er : dot_S8192x8192_S8192x64_S8192x64_1_0_0_1_n_n.rhsIdx (ix2 r j) ((contrEquiv1 dot_S8192x8192_S8192x64_S8192x64_1_0_0_1_n_n 8192 rfl rfl).symm k) = ix2 k j :=
    funext fun a => Fin.ext (by
      match a with
      | ⟨0, _⟩ => exact (rhs_AH_0 _ _).trans hk
      | ⟨1, _⟩ => exact rhs_AH_1 _ _)
  rw [el, er]

/-- A node's features plus the product, at `(r, j)`, is `mix`. -/
theorem hs_apply (A : FVec Ideal S8192x8192 .f32) (h : FVec Ideal S8192x64 .f32) (r : Fin 8192) (j : Fin 64) :
    addf h (Host.dotGeneral (F := Ideal) dot_S8192x8192_S8192x64_S8192x64_1_0_0_1_n_n none A h) (ix2 r j) = mix A h r j := by
  rw [addf_apply, dotAH_apply]
  rfl

/-! ## The row's sum of squares, and the two broadcasts -/

/-- The sum over axis 1 of `x · x`, from the zero it starts at, at row `r` is `∑ j, x(r, j) · x(r, j)`. -/
theorem rowSumSq_apply (x : FVec Ideal S8192x64 .f32) (r : Fin 8192) :
    Host.reduceAdd (F := Ideal) (mulf x x) (constant (F := Ideal) S_ .f32 0x00000000#32) reducesTo_S8192x64_S8192_d1 h_S_ (ix1 r)
      = ∑ j : Fin 64, x (ix2 r j) * x (ix2 r j) := by
  simp only [Host.reduceAdd, Ideal.hostReduceAdd_def]
  rw [Ideal.hostReduceAdd_single reducesTo_S8192x64_S8192_d1 (by decide)]
  rw [constant_apply, Ideal.ofBits_zero_f32, zero_add]
  refine Finset.sum_congr rfl fun k _ => ?_
  rw [mulf_apply]
  exact congrArg (fun i => x i * x i) (funext fun a => Fin.ext (by match a with | ⟨0, _⟩ => rfl | ⟨1, _⟩ => rfl))

/-- A vector laid out as a column `[8192, 1]` reads, at `(r, 0)`, the vector at `r`. -/
theorem asColumn_apply (v : FVec Ideal S8192 .f32) (r : Fin 8192) :
    broadcastInDim S8192x1 ![0] bcast_S8192_S8192x1_0 v (ix2 r (0 : Fin 1)) = v (ix1 r) := by
  refine broadcastInDim_apply _ _ v _ _ fun a => ?_
  match a with
  | ⟨0, _⟩ => rfl

/-- A column `[8192, 1]` repeated along the 64 columns reads, at `(r, j)`, the column at `(r, 0)`. -/
theorem ofColumn_apply (c : FVec Ideal S8192x1 .f32) (r : Fin 8192) (j : Fin 64) :
    broadcastInDim S8192x64 ![0, 1] bcast_S8192x1_S8192x64_0_1 c (ix2 r j) = c (ix2 r (0 : Fin 1)) := by
  refine broadcastInDim_apply _ _ c _ _ fun a => ?_
  match a with
  | ⟨0, _⟩ => rfl
  | ⟨1, _⟩ => rfl

/-- The host's row normalisation of any `x : [8192, 64]` at `(r, j)`: `x(r, j)` over the larger of the row's Euclidean
    norm and ε. -/
theorem rowNormalize_apply (x : FVec Ideal S8192x64 .f32) (r : Fin 8192) (j : Fin 64) :
    Host.divf (F := Ideal) x
        (broadcastInDim S8192x64 ![0, 1] bcast_S8192x1_S8192x64_0_1
          (maximumf
            (Host.sqrt (broadcastInDim S8192x1 ![0] bcast_S8192_S8192x1_0
              (Host.reduceAdd (mulf x x) (constant (F := Ideal) S_ .f32 0x00000000#32) reducesTo_S8192x64_S8192_d1 h_S_)))
            (broadcastInDim S8192x1 ![] bcast_S_S8192x1 (constant (F := Ideal) S_ .f32 0x2B8CBCCC#32)))) (ix2 r j)
      = Ideal.div (x (ix2 r j))
          (max (Ideal.sqrt (∑ j' : Fin 64, x (ix2 r j') * x (ix2 r j'))) (Ideal.ofBits .f32 0x2B8CBCCC#32)) := by
  simp only [Host.divf, Ideal.hostDivf_def]
  rw [ofColumn_apply, maximumf_apply]
  simp only [Host.sqrt, Ideal.hostUnary_sqrt_def]
  rw [asColumn_apply, rowSumSq_apply]
  rfl

/-- The host operations of one layer compute the layer. -/
theorem hostLayer_eq (A : FVec Ideal S8192x8192 .f32) (h : FVec Ideal S8192x64 .f32) :
    hostLayer (F := Ideal) A h = layer A h := by
  refine eq_layer A h _ fun r j => ?_
  unfold hostLayer
  rw [rowNormalize_apply]
  simp only [hs_apply]
  rfl

end Cert.Gnn

end
-- ==== Proof.RefResult.lean ====
/-
  The reference's result on the extended reals: its four stretches composed, each layer's host operations replaced by
  the layer's specification.
-/
import proofs.«429968_j5119601017308_1_alg».proof.Proof.RefStages
import proofs.«429968_j5119601017308_1_alg».proof.Proof.RefLayer

noncomputable section

namespace Cert.ReferenceIdeal.Stages

open Cert.ReferenceIdeal Cert.ReferenceIdeal.Gen Cert.ReferenceIdeal.RunP Cert.Gnn
open Idealize.ShloMosaic Idealize.ShloMosaic.TcCoe Idealize.SL.Sem Idealize.ShloMosaic.StableHlo

/-- The reference's result: the network over the layer's specification, at the table's rows. -/
theorem result_eq (m : (ℓ : Loc nD τ sig) → Buf (Elt Ideal) ℓ) (c : Dev nD) :
    after ops (launchContents m c) (Proc.devRef .tc main_v85)
      = network (F := Ideal) layer (m ((c.tc : Thread nD τ).loc main_arg1)) (m ((c.tc : Thread nD τ).loc main_arg2))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (rows (m ((c.tc : Thread nD τ).loc main_arg0)) (m ((c.tc : Thread nD τ).loc main_arg3))) := by
  rw [fold_eq, Q4_v85, Q3_v50, Q2_v33, Q1_v16]
  simp only [hostLayer_eq]
  rfl

end Cert.ReferenceIdeal.Stages

end
-- ==== Proof.PreRange.lean ====
/-
  The precondition's last conjunct says every fingerprint is a valid row number of the embedding table. Read back from
  the printed predicate: the final `and` of the chain, a reduction by `and` over all 8192 fingerprints of the two signed
  comparisons against `-10000` and `10000`.
-/
import proofs.«429968_j5119601017308_1_alg».proof.Proof.Gen.Pre_finite_inputs
import proofs.«429968_j5119601017308_1_alg».proof.Proof.RowRange
import Idealize.ShloMosaic.Lib.ValueIdx
import Idealize.ShloMosaic.Lib.ValueLayout
import Idealize.ShloMosaic.Lib.Pipeline.Value
import Idealize.ShloMosaic.Lib.ReduceAll
import Idealize.ShloMosaic.Lib.StableHlo.Predicate

noncomputable section

namespace Cert.Pre_finite_inputs.Range

open Cert.Pre_finite_inputs Cert.Pre_finite_inputs.Gen Idealize.ShloMosaic Idealize.ShloMosaic.ValueIdx

variable {F : FTy → Type} [FloatOps F]

/-- Where the precondition is all ones, every fingerprint is a valid row number. -/
theorem validRow_of_pre (a0 : IVec S8192 32) (a1 : FVec F S8192x8192 .f32) (a2 : IVec S8192 32) (a3 : FVec F S10000x64 .f32)
    (a4 : FVec F S3x64x64 .f32) (a5 : FVec F S3x64 .f32) (a6 : FVec F S2x64x64 .f32) (a7 : FVec F S2x64 .f32)
    (a8 : FVec F S1x64 .f32) (a9 : FVec F S1 .f32)
    (h : fn (F := F) a0 a1 a2 a3 a4 a5 a6 a7 a8 a9 = fun _ => 1#1) :
    ∀ t : S8192.Idx, Cert.Gnn.ValidRow (a0 t) := by
  intro t
  haveI : Subsingleton S_.Idx := ⟨fun a b => funext fun d => d.elim0⟩
  have h0 := congrFun h ValueIdx.ix0
  dsimp only [fn, fn_part1, fn_part2] at h0
  -- the last `and` of the chain: its second operand is the reduction over the fingerprints
  have h44 := (IntOp.andi_eq_one.1 h0).2
  -- a reduction by `and` over all elements that is one had a one at every element
  have ht := Host.reduce_andi_all _ _ _ _ _ h44 t
  -- at element `t`: the `and` of the two comparisons against the broadcast constants
  obtain ⟨hge, hlt⟩ := IntOp.andi_eq_one.1 ht
  exact ⟨hge, hlt⟩

end Cert.Pre_finite_inputs.Range

end
-- ==== Proof.lean ====
/-
  The certificate of a small graph network: an embedding lookup, three rounds of [feed-forward step, then a
  message-passing layer `v ↦ (h + A·h)` with every row scaled to unit length], a sum over each molecule's atoms and a
  small readout. The kernel program runs each layer as a pallas_call over 32 blocks of 256 rows; the reference runs it
  as host operations. On the extended reals the two programs compute ONE function of the arguments,
  `Cert.Gnn.network` over the layer's specification `Cert.Gnn.layer` (LayerSpec.lean), at the embedding table's rows:

  * the host steps around the layers are the same operations in both programs (HostChain.lean), applied to values
    shown equal stage by stage (KernelStages.lean over the generated frame's boundaries, RefStages.lean over the
    reference's operations in four stretches);
  * a layer: the kernel's block at grid point `t` is rows `256·t …` of the specification and the 32 blocks tile the
    array (RegionValue0/1/2.lean); the reference's host operations read at an index are the specification
    (RefLayer.lean). Both sum in the specification's order, so no law of the extended reals joins them;
  * the lookup: the kernel fills rows whose number lies outside the table, the reference does not; under the
    precondition that every fingerprint is a valid row number of the 10000-row table (`-10000 ≤ f < 10000`, a negative
    one counting from the end: PreRange.lean) the fill never happens (TakeMask.lean, RowRange.lean).

  The frames of the two kernel programs are the generated ones; the reference's frame is its run with the result
  dropped. The idealization rewrote no operation, so `preserves` asks nothing.
-/
import proofs.«429968_j5119601017308_1_alg».proof.Defs
import proofs.«429968_j5119601017308_1_alg».proof.Proof.Gen.Kernel
import proofs.«429968_j5119601017308_1_alg».proof.Proof.Gen.Kernel.Frame
import proofs.«429968_j5119601017308_1_alg».proof.Proof.Gen.KernelIdeal
import proofs.«429968_j5119601017308_1_alg».proof.Proof.Gen.KernelIdeal.Frame
import proofs.«429968_j5119601017308_1_alg».proof.Proof.Gen.ReferenceIdeal
import proofs.«429968_j5119601017308_1_alg».proof.Proof.Gen.Pre_finite_inputs
import proofs.«429968_j5119601017308_1_alg».proof.Proof.KernelRunP
import proofs.«429968_j5119601017308_1_alg».proof.Proof.KernelStages
import proofs.«429968_j5119601017308_1_alg».proof.Proof.RefRunP
import proofs.«429968_j5119601017308_1_alg».proof.Proof.RefStages
import proofs.«429968_j5119601017308_1_alg».proof.Proof.RefResult
import proofs.«429968_j5119601017308_1_alg».proof.Proof.PreRange
import Idealize.ShloMosaic.Adequacy
import Idealize.ShloMosaic.Init

noncomputable section

namespace Cert.Proof

open Idealize.ShloMosaic Idealize.SL.Sem

/-- The word-level kernel program runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run, every buffer at the fold of its operations, read at the
    ten argument buffers, which no operation writes. -/
theorem frame_ri : Cert.frame_ReferenceIdeal := fun M ρ _ =>
  (θ_run Cert.ReferenceIdeal.defs _ _).mono (fun _ h c =>
    ⟨(h c Cert.ReferenceIdeal.main_arg0).trans (Cert.ReferenceIdeal.Stages.end_arg0 M c),
     (h c Cert.ReferenceIdeal.main_arg1).trans (Cert.ReferenceIdeal.Stages.end_arg1 M c),
     (h c Cert.ReferenceIdeal.main_arg2).trans (Cert.ReferenceIdeal.Stages.end_arg2 M c),
     (h c Cert.ReferenceIdeal.main_arg3).trans (Cert.ReferenceIdeal.Stages.end_arg3 M c),
     (h c Cert.ReferenceIdeal.main_arg4).trans (Cert.ReferenceIdeal.Stages.end_arg4 M c),
     (h c Cert.ReferenceIdeal.main_arg5).trans (Cert.ReferenceIdeal.Stages.end_arg5 M c),
     (h c Cert.ReferenceIdeal.main_arg6).trans (Cert.ReferenceIdeal.Stages.end_arg6 M c),
     (h c Cert.ReferenceIdeal.main_arg7).trans (Cert.ReferenceIdeal.Stages.end_arg7 M c),
     (h c Cert.ReferenceIdeal.main_arg8).trans (Cert.ReferenceIdeal.Stages.end_arg8 M c),
     (h c Cert.ReferenceIdeal.main_arg9).trans (Cert.ReferenceIdeal.Stages.end_arg9 M c)⟩)
    (Cert.ReferenceIdeal.RunP.run_fold (F := Ideal) M ρ)

/-- The ideal pass rewrote nothing. -/
theorem preserves : Cert.preserves_Kernel_KernelIdeal := trivial

/-- Both idealized programs end at the network over the layer's specification, of arguments that agree. -/
theorem algebraic : Cert.algebraic_KernelIdeal_ReferenceIdeal := by
  intro m ρ M ρ' hpre hagree
  -- every fingerprint is a valid row number, by the precondition's last conjunct
  have hfp : ∀ c : Dev Cert.KernelIdeal.nD, ∀ t, Cert.Gnn.ValidRow (m ((c.tc : Thread Cert.KernelIdeal.nD Cert.KernelIdeal.τ).loc Cert.KernelIdeal.main_arg0) t) :=
    fun c => Cert.Pre_finite_inputs.Range.validRow_of_pre _ _ _ _ _ _ _ _ _ _ (hpre c)
  refine ⟨fun c => Cert.Gnn.network (F := Ideal) Cert.Gnn.layer
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      (Cert.Gnn.rows (m ((c.tc : Thread Cert.KernelIdeal.nD Cert.KernelIdeal.τ).loc Cert.KernelIdeal.main_arg0)) (m ((c.tc : Thread Cert.KernelIdeal.nD Cert.KernelIdeal.τ).loc Cert.KernelIdeal.main_arg3))), ?_, ?_⟩
  · exact (θ_run Cert.KernelIdeal.defs _ _).mono
      (fun _ h c => ⟨(h c).1.trans (Cert.KernelIdeal.Stages.result_eq m ρ c (hfp c)), (h c).2⟩)
      (Cert.KernelIdeal.RunP.run_named m ρ)
  · refine (θ_run Cert.ReferenceIdeal.defs _ _).mono (fun _ h c => ⟨?_,
     (h c Cert.ReferenceIdeal.main_arg0).trans (Cert.ReferenceIdeal.Stages.end_arg0 M c),
     (h c Cert.ReferenceIdeal.main_arg1).trans (Cert.ReferenceIdeal.Stages.end_arg1 M c),
     (h c Cert.ReferenceIdeal.main_arg2).trans (Cert.ReferenceIdeal.Stages.end_arg2 M c),
     (h c Cert.ReferenceIdeal.main_arg3).trans (Cert.ReferenceIdeal.Stages.end_arg3 M c),
     (h c Cert.ReferenceIdeal.main_arg4).trans (Cert.ReferenceIdeal.Stages.end_arg4 M c),
     (h c Cert.ReferenceIdeal.main_arg5).trans (Cert.ReferenceIdeal.Stages.end_arg5 M c),
     (h c Cert.ReferenceIdeal.main_arg6).trans (Cert.ReferenceIdeal.Stages.end_arg6 M c),
     (h c Cert.ReferenceIdeal.main_arg7).trans (Cert.ReferenceIdeal.Stages.end_arg7 M c),
     (h c Cert.ReferenceIdeal.main_arg8).trans (Cert.ReferenceIdeal.Stages.end_arg8 M c),
     (h c Cert.ReferenceIdeal.main_arg9).trans (Cert.ReferenceIdeal.Stages.end_arg9 M c)⟩)
      (Cert.ReferenceIdeal.RunP.run_fold (F := Ideal) M ρ')
    refine (h c Cert.ReferenceIdeal.main_v85).trans ((Cert.ReferenceIdeal.Stages.result_eq M c).trans ?_)
    obtain ⟨h0, h1, h2, h3, h4, h5, h6, h7, h8, h9⟩ := hagree c
    rw [h0, h1, h2, h3, h4, h5, h6, h7, h8, h9]

/-- The certificate's claims, under the witnesses of the programs' stated side conditions. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
